-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1000x128 : Shape := ⟨3, ![4, 1000, 128]⟩
abbrev S4x128 : Shape := ⟨2, ![4, 128]⟩
abbrev S371x128 : Shape := ⟨2, ![371, 128]⟩
abbrev S128 : Shape := ⟨1, ![128]⟩
abbrev S150000x371 : Shape := ⟨2, ![150000, 371]⟩
abbrev S150000 : Shape := ⟨1, ![150000]⟩
abbrev S200000 : Shape := ⟨1, ![200000]⟩
abbrev S_ : Shape := ⟨0, ![]⟩

class Facts : Prop where
  bcast_S_S4x1000x128 : S_.BroadcastsInDim S4x1000x128 (![] : Fin 0 → Fin S4x1000x128.rank)
  reducesTo_S4x1000x128_S_d0_1_2 : S4x1000x128.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S371x128 : S_.BroadcastsInDim S371x128 (![] : Fin 0 → Fin S371x128.rank)
  reducesTo_S371x128_S_d0_1 : S371x128.ReducesTo [0, 1] S_
  bcast_S_S128 : S_.BroadcastsInDim S128 (![] : Fin 0 → Fin S128.rank)
  reducesTo_S128_S_d0 : S128.ReducesTo [0] S_
  bcast_S_S150000x371 : S_.BroadcastsInDim S150000x371 (![] : Fin 0 → Fin S150000x371.rank)
  reducesTo_S150000x371_S_d0_1 : S150000x371.ReducesTo [0, 1] S_
  bcast_S_S150000 : S_.BroadcastsInDim S150000 (![] : Fin 0 → Fin S150000.rank)
  reducesTo_S150000_S_d0 : S150000.ReducesTo [0] S_
  bcast_S_S200000 : S_.BroadcastsInDim S200000 (![] : Fin 0 → Fin S200000.rank)
  reducesTo_S200000_S_d0 : S200000.ReducesTo [0] S_

variable [Facts]

def fn_part3 {F : FTy → Type} [FloatOps F] (main_arg9 : IVec S150000 32) (main_v47 : IVec S_ 1) (main_v49 : IVec S150000 1) (main_c_19 : IVec S_ 32) : IVec S_ 1 :=
  let main_v50 : IVec S150000 32 := broadcastInDim S150000 ![] bcast_S_S150000 main_c_19
  let main_v51 : IVec S150000 1 := cmpi .slt main_arg9 main_v50
  let main_v52 : IVec S150000 1 := andi main_v49 main_v51
  let main_c_20 : IVec S_ 1 := constantI S_ 1 1#1
  let main_v53 : IVec S_ 1 := (fun x v => Host.reduce IntOp.andi x v reducesTo_S150000_S_d0 h_S_) main_v52 main_c_20
  let main_v54 : IVec S_ 1 := andi main_v47 main_v53
  main_v54

def fn_part2 {F : FTy → Type} [FloatOps F] (main_arg7 : IVec S200000 32) (main_arg8 : IVec S200000 32) (main_arg9 : IVec S150000 32) (main_v33 : IVec S_ 1) : IVec S_ 1 :=
  let main_c_12 : IVec S_ 32 := constantI S_ 32 0#32
  let main_v34 : IVec S200000 32 := broadcastInDim S200000 ![] bcast_S_S200000 main_c_12
  let main_v35 : IVec S200000 1 := cmpi .sge main_arg7 main_v34
  let main_c_13 : IVec S_ 32 := constantI S_ 32 4#32
  let main_v36 : IVec S200000 32 := broadcastInDim S200000 ![] bcast_S_S200000 main_c_13
  let main_v37 : IVec S200000 1 := cmpi .slt main_arg7 main_v36
  let main_v38 : IVec S200000 1 := andi main_v35 main_v37
  let main_c_14 : IVec S_ 1 := constantI S_ 1 1#1
  let main_v39 : IVec S_ 1 := (fun x v => Host.reduce IntOp.andi x v reducesTo_S200000_S_d0 h_S_) main_v38 main_c_14
  let main_v40 : IVec S_ 1 := andi main_v33 main_v39
  let main_c_15 : IVec S_ 32 := constantI S_ 32 0#32
  let main_v41 : IVec S200000 32 := broadcastInDim S200000 ![] bcast_S_S200000 main_c_15
  let main_v42 : IVec S200000 1 := cmpi .sge main_arg8 main_v41
  let main_c_16 : IVec S_ 32 := constantI S_ 32 1000#32
  let main_v43 : IVec S200000 32 := broadcastInDim S200000 ![] bcast_S_S200000 main_c_16
  let main_v44 : IVec S200000 1 := cmpi .slt main_arg8 main_v43
  let main_v45 : IVec S200000 1 := andi main_v42 main_v44
  let main_c_17 : IVec S_ 1 := constantI S_ 1 1#1
  let main_v46 : IVec S_ 1 := (fun x v => Host.reduce IntOp.andi x v reducesTo_S200000_S_d0 h_S_) main_v45 main_c_17
  let main_v47 : IVec S_ 1 := andi main_v40 main_v46
  let main_c_18 : IVec S_ 32 := constantI S_ 32 0#32
  let main_v48 : IVec S150000 32 := broadcastInDim S150000 ![] bcast_S_S150000 main_c_18
  let main_v49 : IVec S150000 1 := cmpi .sge main_arg9 main_v48
  let main_c_19 : IVec S_ 32 := constantI S_ 32 4#32
  fn_part3 (F := F) main_arg9 main_v47 main_v49 main_c_19

def fn_part1 {F : FTy → Type} [FloatOps F] (main_arg4 : FVec F S128 .f32) (main_arg5 : FVec F S150000x371 .f32) (main_arg6 : FVec F S150000 .f32) (main_arg7 : IVec S200000 32) (main_arg8 : IVec S200000 32) (main_arg9 : IVec S150000 32) (main_v13 : IVec S_ 1) (main_v16 : IVec S371x128 1) : IVec S_ 1 :=
  let main_c_5 : IVec S_ 1 := constantI S_ 1 1#1
  let main_v17 : IVec S_ 1 := (fun x v => Host.reduce IntOp.andi x v reducesTo_S371x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S150000x371 .f32 := Host.absf main_arg5
  let main_cst_8 : FVec F S_ .f32 := constant S_ .f32 0x7F800000#32
  let main_v25 : FVec F S150000x371 .f32 := broadcastInDim S150000x371 ![] bcast_S_S150000x371 main_cst_8
  let main_v26 : IVec S150000x371 1 := cmpf .olt main_v24 main_v25
  let main_c_9 : IVec S_ 1 := constantI S_ 1 1#1
  let main_v27 : IVec S_ 1 := (fun x v => Host.reduce IntOp.andi x v reducesTo_S150000x371_S_d0_1 h_S_) main_v26 main_c_9
  let main_v28 : IVec S_ 1 := andi main_v23 main_v27
  let main_v29 : FVec F S150000 .f32 := Host.absf main_arg6
  let main_cst_10 : FVec F S_ .f32 := constant S_ .f32 0x7F800000#32
  let main_v30 : FVec F S150000 .f32 := broadcastInDim S150000 ![] bcast_S_S150000 main_cst_10
  let main_v31 : IVec S150000 1 := cmpf .olt main_v29 main_v30
  let main_c_11 : IVec S_ 1 := constantI S_ 1 1#1
  let main_v32 : IVec S_ 1 := (fun x v => Host.reduce IntOp.andi x v reducesTo_S150000_S_d0 h_S_) main_v31 main_c_11
  let main_v33 : IVec S_ 1 := andi main_v28 main_v32
  fn_part2 (F := F) main_arg7 main_arg8 main_arg9 main_v33

def fn {F : FTy → Type} [FloatOps F] (main_arg0 : FVec F S4x1000x128 .f32) (main_arg1 : FVec F S4x128 .f32) (main_arg2 : FVec F S4x128 .f32) (main_arg3 : FVec F S371x128 .f32) (main_arg4 : FVec F S128 .f32) (main_arg5 : FVec F S150000x371 .f32) (main_arg6 : FVec F S150000 .f32) (main_arg7 : IVec S200000 32) (main_arg8 : IVec S200000 32) (main_arg9 : IVec S150000 32) : IVec S_ 1 :=
  let main_v0 : FVec F S4x1000x128 .f32 := Host.absf main_arg0
  let main_cst : FVec F S_ .f32 := constant S_ .f32 0x7F800000#32
  let main_v1 : FVec F S4x1000x128 .f32 := broadcastInDim S4x1000x128 ![] bcast_S_S4x1000x128 main_cst
  let main_v2 : IVec S4x1000x128 1 := cmpf .olt main_v0 main_v1
  let main_c : IVec S_ 1 := constantI S_ 1 1#1
  let main_v3 : IVec S_ 1 := (fun x v => Host.reduce IntOp.andi x v reducesTo_S4x1000x128_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S371x128 .f32 := Host.absf main_arg3
  let main_cst_4 : FVec F S_ .f32 := constant S_ .f32 0x7F800000#32
  let main_v15 : FVec F S371x128 .f32 := broadcastInDim S371x128 ![] bcast_S_S371x128 main_cst_4
  let main_v16 : IVec S371x128 1 := cmpf .olt main_v14 main_v15
  fn_part1 (F := F) main_arg4 main_arg5 main_arg6 main_arg7 main_arg8 main_arg9 main_v13 main_v16
-- ==== Kernel.lean ====
abbrev S4x1000x128 : Shape := ⟨3, ![4, 1000, 128]⟩
abbrev S4x128 : Shape := ⟨2, ![4, 128]⟩
abbrev S371x128 : Shape := ⟨2, ![371, 128]⟩
abbrev S128 : Shape := ⟨1, ![128]⟩
abbrev S150000x371 : Shape := ⟨2, ![150000, 371]⟩
abbrev S150000 : Shape := ⟨1, ![150000]⟩
abbrev S200000 : Shape := ⟨1, ![200000]⟩
abbrev S_ : Shape := ⟨0, ![]⟩
abbrev S200704 : Shape := ⟨1, ![200704]⟩
abbrev S200704x1 : Shape := ⟨2, ![200704, 1]⟩
abbrev S200704x128 : Shape := ⟨2, ![200704, 128]⟩
abbrev S4096x1 : Shape := ⟨2, ![4096, 1]⟩
abbrev S4096x128 : Shape := ⟨2, ![4096, 128]⟩
abbrev S1x1000 : Shape := ⟨2, ![1, 1000]⟩
abbrev S4096x1000 : Shape := ⟨2, ![4096, 1000]⟩
abbrev S1x1000x128 : Shape := ⟨3, ![1, 1000, 128]⟩
abbrev S1000x128 : Shape := ⟨2, ![1000, 128]⟩
abbrev S200000x128 : Shape := ⟨2, ![200000, 128]⟩
abbrev S151552 : Shape := ⟨1, ![151552]⟩
abbrev S151552x1 : Shape := ⟨2, ![151552, 1]⟩
abbrev S151552x128 : Shape := ⟨2, ![151552, 128]⟩
abbrev S1x128 : Shape := ⟨2, ![1, 128]⟩
abbrev S150000x128 : Shape := ⟨2, ![150000, 128]⟩
abbrev S151552x371 : Shape := ⟨2, ![151552, 371]⟩
abbrev S4096x371 : Shape := ⟨2, ![4096, 371]⟩
abbrev S500000x128 : Shape := ⟨2, ![500000, 128]⟩

abbrev nBuf : Space → Nat
  | .hbm => 39
  | .vmem => 21
  | .smem => 0
  | _ => 0

abbrev bufTy : (tb : Table) → Fin (tcTables nBuf tb) → BufTy
  | .hbm, ⟨0, _⟩ => ⟨S4x1000x128, .f32⟩
  | .hbm, ⟨1, _⟩ => ⟨S4x128, .f32⟩
  | .hbm, ⟨2, _⟩ => ⟨S4x128, .f32⟩
  | .hbm, ⟨3, _⟩ => ⟨S371x128, .f32⟩
  | .hbm, ⟨4, _⟩ => ⟨S128, .f32⟩
  | .hbm, ⟨5, _⟩ => ⟨S150000x371, .f32⟩
  | .hbm, ⟨6, _⟩ => ⟨S150000, .f32⟩
  | .hbm, ⟨7, _⟩ => ⟨S200000, .i32⟩
  | .hbm, ⟨8, _⟩ => ⟨S200000, .i32⟩
  | .hbm, ⟨9, _⟩ => ⟨S150000, .i32⟩
  | .hbm, ⟨10, _⟩ => ⟨S_, .i32⟩
  | .hbm, ⟨11, _⟩ => ⟨S_, .i32⟩
  | .hbm, ⟨12, _⟩ => ⟨S200704, .i32⟩
  | .hbm, ⟨13, _⟩ => ⟨S200704x1, .i32⟩
  | .hbm, ⟨14, _⟩ => ⟨S_, .i32⟩
  | .hbm, ⟨15, _⟩ => ⟨S_, .i32⟩
  | .hbm, ⟨16, _⟩ => ⟨S200704, .i32⟩
  | .hbm, ⟨17, _⟩ => ⟨S200704x1, .i32⟩
  | .hbm, ⟨18, _⟩ => ⟨S4x1000x128, .bf16⟩
  | .hbm, ⟨19, _⟩ => ⟨S200704x128, .f32⟩
  | .hbm, ⟨20, _⟩ => ⟨S200000x128, .f32⟩
  | .hbm, ⟨21, _⟩ => ⟨S_, .i32⟩
  | .hbm, ⟨22, _⟩ => ⟨S_, .i32⟩
  | .hbm, ⟨23, _⟩ => ⟨S151552, .i32⟩
  | .hbm, ⟨24, _⟩ => ⟨S151552x1, .i32⟩
  | .hbm, ⟨25, _⟩ => ⟨S_, .i32⟩
  | .hbm, ⟨26, _⟩ => ⟨S_, .f32⟩
  | .hbm, ⟨27, _⟩ => ⟨S151552, .f32⟩
  | .hbm, ⟨28, _⟩ => ⟨S151552x1, .f32⟩
  | .hbm, ⟨29, _⟩ => ⟨S151552x128, .f32⟩
  | .hbm, ⟨30, _⟩ => ⟨S150000x128, .f32⟩
  | .hbm, ⟨31, _⟩ => ⟨S_, .i32⟩
  | .hbm, ⟨32, _⟩ => ⟨S_, .f32⟩
  | .hbm, ⟨33, _⟩ => ⟨S151552x371, .f32⟩
  | .hbm, ⟨34, _⟩ => ⟨S371x128, .bf16⟩
  | .hbm, ⟨35, _⟩ => ⟨S1x128, .f32⟩
  | .hbm, ⟨36, _⟩ => ⟨S151552x128, .f32⟩
  | .hbm, ⟨37, _⟩ => ⟨S150000x128, .f32⟩
  | .hbm, ⟨38, _⟩ => ⟨S500000x128, .f32⟩
  | .local _ .vmem, ⟨0, _⟩ => ⟨S4096x1, .i32⟩
  | .local _ .vmem, ⟨1, _⟩ => ⟨S4096x1, .i32⟩
  | .local _ .vmem, ⟨2, _⟩ => ⟨S4096x1, .i32⟩
  | .local _ .vmem, ⟨3, _⟩ => ⟨S4096x1, .i32⟩
  | .local _ .vmem, ⟨4, _⟩ => ⟨S4x1000x128, .bf16⟩
  | .local _ .vmem, ⟨5, _⟩ => ⟨S4096x128, .f32⟩
  | .local _ .vmem, ⟨6, _⟩ => ⟨S4096x128, .f32⟩
  | .local _ .vmem, ⟨7, _⟩ => ⟨S4096x1, .i32⟩
  | .local _ .vmem, ⟨8, _⟩ => ⟨S4096x1, .i32⟩
  | .local _ .vmem, ⟨9, _⟩ => ⟨S4096x1, .f32⟩
  | .local _ .vmem, ⟨10, _⟩ => ⟨S4096x1, .f32⟩
  | .local _ .vmem, ⟨11, _⟩ => ⟨S4x128, .f32⟩
  | .local _ .vmem, ⟨12, _⟩ => ⟨S4x128, .f32⟩
  | .local _ .vmem, ⟨13, _⟩ => ⟨S4096x128, .f32⟩
  | .local _ .vmem, ⟨14, _⟩ => ⟨S4096x128, .f32⟩
  | .local _ .vmem, ⟨15, _⟩ => ⟨S4096x371, .f32⟩
  | .local _ .vmem, ⟨16, _⟩ => ⟨S4096x371, .f32⟩
  | .local _ .vmem, ⟨17, _⟩ => ⟨S371x128, .bf16⟩
  | .local _ .vmem, ⟨18, _⟩ => ⟨S1x128, .f32⟩
  | .local _ .vmem, ⟨19, _⟩ => ⟨S4096x128, .f32⟩
  | .local _ .vmem, ⟨20, _⟩ => ⟨S4096x128, .f32⟩
  | _, _ => ⟨S4x1000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_call2_v0 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_call3_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_call4_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![37], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![37], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x371 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S371x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  pads_S200000_S200704_07040 : S200000.Pads (![0] : Fin 1 → Nat) ![704] ![0] S200704
  h_S_ : 0 < S_.numel
  shapeCasts_S200704_S200704x1 : S200704.ShapeCasts S200704x1
  bitsLt_bf16_f32 : FTy.bits .bf16 < FTy.bits .f32
  iota_S1x1000_d1_w32 : S1x1000.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x1000 : S4096x1.Broadcasts S4096x1000
  broadcasts_S1x1000_S4096x1000 : S1x1000.Broadcasts S4096x1000
  natLt_1_32 : 1 < 32
  inb_S4096x128_S4096x128_0_0 : ∀ a, (![0, 0] : Fin 2 → Nat) a + S4096x128.size a ≤ S4096x128.size a
  h_S4096x128 : 0 < S4096x128.numel
  inb_S4x1000x128_S1x1000x128_0_0_0 : ∀ a, (![0, 0, 0] : Fin 3 → Nat) a + S1x1000x128.size a ≤ S4x1000x128.size a
  h_S1x1000x128 : 0 < S1x1000x128.numel
  shapeCasts_S1x1000x128_S1000x128 : S1x1000x128.ShapeCasts S1000x128
  shapeCasts_S4096x128_S4096x128 : S4096x128.ShapeCasts S4096x128
  broadcasts_S4096x1_S4096x128 : S4096x1.Broadcasts S4096x128
  inb_S4x1000x128_S1x1000x128_1_0_0 : ∀ a, (![1, 0, 0] : Fin 3 → Nat) a + S1x1000x128.size a ≤ S4x1000x128.size a
  inb_S4x1000x128_S1x1000x128_2_0_0 : ∀ a, (![2, 0, 0] : Fin 3 → Nat) a + S1x1000x128.size a ≤ S4x1000x128.size a
  inb_S4x1000x128_S1x1000x128_3_0_0 : ∀ a, (![3, 0, 0] : Fin 3 → Nat) a + S1x1000x128.size a ≤ S4x1000x128.size a
  slices_S200704x128_S200000x128_0_0 : S200704x128.Slices ![0, 0] S200000x128
  pads_S150000_S151552_015520 : S150000.Pads (![0] : Fin 1 → Nat) ![1552] ![0] S151552
  shapeCasts_S151552_S151552x1 : S151552.ShapeCasts S151552x1
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  broadcasts_S1x128_S4096x128 : S1x128.Broadcasts S4096x128
  inb_S4x128_S1x128_1_0 : ∀ a, (![1, 0] : Fin 2 → Nat) a + S1x128.size a ≤ S4x128.size a
  inb_S4x128_S1x128_2_0 : ∀ a, (![2, 0] : Fin 2 → Nat) a + S1x128.size a ≤ S4x128.size a
  inb_S4x128_S1x128_3_0 : ∀ a, (![3, 0] : Fin 2 → Nat) a + S1x128.size a ≤ S4x128.size a
  slices_S151552x128_S150000x128_0_0 : S151552x128.Slices ![0, 0] S150000x128
  pads_S150000x371_S151552x371_015520_000 : S150000x371.Pads (![0, 0] : Fin 2 → Nat) ![1552, 0] ![0, 0] S151552x371
  inb_S4096x371_S4096x371_0_0 : ∀ a, (![0, 0] : Fin 2 → Nat) a + S4096x371.size a ≤ S4096x371.size a
  h_S4096x371 : 0 < S4096x371.numel
  shapeCasts_S4096x371_S4096x371 : S4096x371.ShapeCasts S4096x371
  inb_S371x128_S371x128_0_0 : ∀ a, (![0, 0] : Fin 2 → Nat) a + S371x128.size a ≤ S371x128.size a
  h_S371x128 : 0 < S371x128.numel
  shapeCasts_S371x128_S371x128 : S371x128.ShapeCasts S371x128
  inb_S1x128_S1x128_0_0 : ∀ a, (![0, 0] : Fin 2 → Nat) a + S1x128.size a ≤ S1x128.size a
  shapeCasts_S1x128_S1x128 : S1x128.ShapeCasts S1x128
  concatenates_S200000x128_S150000x128_S150000x128_S500000x128_d0 : Shape.Concatenates [S200000x128, S150000x128, S150000x128] S500000x128 0
  dot_S4096x1000_S1000x128_S4096x128_1_0_0_1_n_n_wf : DotDims.WF S4096x1000 S1000x128 S4096x128 [1] [0] [0] [1] [] []
  dot_S4096x371_S371x128_S4096x128_1_0_0_1_n_n_wf : DotDims.WF S4096x371 S371x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S200704x1.size a
  hwx0_0 : ∀ i : grid0.Coords, EltTy.bits .i32 = 32 ∨ (Rect.block (s := S200704x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S200704x1.size a
  hwx0_1 : ∀ i : grid0.Coords, EltTy.bits .i32 = 32 ∨ (Rect.block (s := S200704x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1000x128.size a ≤ S4x1000x128.size a
  hwx0_2 : ∀ i : grid0.Coords, EltTy.bits .bf16 = 32 ∨ (Rect.block (s := S4x1000x128) S4x1000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S200704x128.size a
  hwx0_3 : ∀ i : grid0.Coords, EltTy.bits .f32 = 32 ∨ (Rect.block (s := S200704x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x1.size a ≤ S151552x1.size a
  hwx1_0 : ∀ i : grid1.Coords, EltTy.bits .i32 = 32 ∨ (Rect.block (s := S151552x1) S4096x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S151552x1.size a
  hwx1_1 : ∀ i : grid1.Coords, EltTy.bits .f32 = 32 ∨ (Rect.block (s := S151552x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x128.size a ≤ S4x128.size a
  hwx1_2 : ∀ i : grid1.Coords, EltTy.bits .f32 = 32 ∨ (Rect.block (s := S4x128) S4x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x128.size a ≤ S4x128.size a
  hwx1_3 : ∀ i : grid1.Coords, EltTy.bits .f32 = 32 ∨ (Rect.block (s := S4x128) S4x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S151552x128.size a
  hwx1_4 : ∀ i : grid1.Coords, EltTy.bits .f32 = 32 ∨ (Rect.block (s := S151552x128) S4096x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x371.size a ≤ S151552x371.size a
  hwx2_0 : ∀ i : grid2.Coords, EltTy.bits .f32 = 32 ∨ (Rect.block (s := S151552x371) S4096x371.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S371x128.size a ≤ S371x128.size a
  hwx2_1 : ∀ i : grid2.Coords, EltTy.bits .bf16 = 32 ∨ (Rect.block (s := S371x128) S371x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S151552x128.size a
  hwx2_3 : ∀ i : grid2.Coords, EltTy.bits .f32 = 32 ∨ (Rect.block (s := S151552x128) S4096x128.size (cc2_transform_3 i) (hinb2_3 i)).WholeWords (EltTy.packing .f32)

variable [Facts₀]

def dot_S4096x1000_S1000x128_S4096x128_1_0_0_1_n_n : DotDims S4096x1000 S1000x128 S4096x128 where
  lhsContracting := [1]
  rhsContracting := [0]
  lhsNonContracting := [0]
  rhsNonContracting := [1]
  lhsBatch := []
  rhsBatch := []
  wf := dot_S4096x1000_S1000x128_S4096x128_1_0_0_1_n_n_wf
def dot_S4096x371_S371x128_S4096x128_1_0_0_1_n_n : DotDims S4096x371 S371x128 S4096x128 where
  lhsContracting := [1]
  rhsContracting := [0]
  lhsNonContracting := [0]
  rhsNonContracting := [1]
  lhsBatch := []
  rhsBatch := []
  wf := dot_S4096x371_S371x128_S4096x128_1_0_0_1_n_n_wf

abbrev win0_0 : Pipeline.Window sig grid0 :=
  Pipeline.Window.ofSpec (Memref.whole main_v1) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x1000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S4096x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S4x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S4x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S4096x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v13) S4096x371.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S371x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S4096x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x1000x128 : Shape := ⟨3, ![4, 1000, 128]⟩
abbrev S4x128 : Shape := ⟨2, ![4, 128]⟩
abbrev S371x128 : Shape := ⟨2, ![371, 128]⟩
abbrev S128 : Shape := ⟨1, ![128]⟩
abbrev S150000x371 : Shape := ⟨2, ![150000, 371]⟩
abbrev S150000 : Shape := ⟨1, ![150000]⟩
abbrev S200000 : Shape := ⟨1, ![200000]⟩
abbrev S_ : Shape := ⟨0, ![]⟩
abbrev S200000x1 : Shape := ⟨2, ![200000, 1]⟩
abbrev S200000x2 : Shape := ⟨2, ![200000, 2]⟩
abbrev S200000x128 : Shape := ⟨2, ![200000, 128]⟩
abbrev S150000x1 : Shape := ⟨2, ![150000, 1]⟩
abbrev S150000x128 : Shape := ⟨2, ![150000, 128]⟩
abbrev S1x128 : Shape := ⟨2, ![1, 128]⟩
abbrev S500000x128 : Shape := ⟨2, ![500000, 128]⟩

abbrev nBuf : Space → Nat
  | .hbm => 55
  | .vmem => 0
  | .smem => 0
  | _ => 0

abbrev bufTy : (tb : Table) → Fin (tcTables nBuf tb) → BufTy
  | .hbm, ⟨0, _⟩ => ⟨S4x1000x128, .f32⟩
  | .hbm, ⟨1, _⟩ => ⟨S4x128, .f32⟩
  | .hbm, ⟨2, _⟩ => ⟨S4x128, .f32⟩
  | .hbm, ⟨3, _⟩ => ⟨S371x128, .f32⟩
  | .hbm, ⟨4, _⟩ => ⟨S128, .f32⟩
  | .hbm, ⟨5, _⟩ => ⟨S150000x371, .f32⟩
  | .hbm, ⟨6, _⟩ => ⟨S150000, .f32⟩
  | .hbm, ⟨7, _⟩ => ⟨S200000, .i32⟩
  | .hbm, ⟨8, _⟩ => ⟨S200000, .i32⟩
  | .hbm, ⟨9, _⟩ => ⟨S150000, .i32⟩
  | .hbm, ⟨10, _⟩ => ⟨S_, .i32⟩
  | .hbm, ⟨11, _⟩ => ⟨S200000, .i32⟩
  | .hbm, ⟨12, _⟩ => ⟨S200000, .i1⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S_, .i32⟩
  | .hbm, ⟨21, _⟩ => ⟨S200000, .i32⟩
  | .hbm, ⟨22, _⟩ => ⟨S200000, .i32⟩
  | .hbm, ⟨23, _⟩ => ⟨S200000, .i32⟩
  | .hbm, ⟨24, _⟩ => ⟨S200000x1, .i32⟩
  | .hbm, ⟨25, _⟩ => ⟨S200000x1, .i32⟩
  | .hbm, ⟨26, _⟩ => ⟨S200000x2, .i32⟩
  | .hbm, ⟨27, _⟩ => ⟨S200000x128, .f32⟩
  | .hbm, ⟨28, _⟩ => ⟨S150000x1, .f32⟩
  | .hbm, ⟨29, _⟩ => ⟨S_, .i32⟩
  | .hbm, ⟨30, _⟩ => ⟨S150000, .i32⟩
  | .hbm, ⟨31, _⟩ => ⟨S150000, .i1⟩
  | .hbm, ⟨32, _⟩ => ⟨S_, .i32⟩
  | .hbm, ⟨33, _⟩ => ⟨S150000, .i32⟩
  | .hbm, ⟨34, _⟩ => ⟨S150000, .i32⟩
  | .hbm, ⟨35, _⟩ => ⟨S150000, .i32⟩
  | .hbm, ⟨36, _⟩ => ⟨S150000x1, .i32⟩
  | .hbm, ⟨37, _⟩ => ⟨S150000x128, .f32⟩
  | .hbm, ⟨38, _⟩ => ⟨S150000x128, .f32⟩
  | .hbm, ⟨39, _⟩ => ⟨S150000x128, .f32⟩
  | .hbm, ⟨40, _⟩ => ⟨S_, .i32⟩
  | .hbm, ⟨41, _⟩ => ⟨S150000, .i32⟩
  | .hbm, ⟨42, _⟩ => ⟨S150000, .i1⟩
  | .hbm, ⟨43, _⟩ => ⟨S_, .i32⟩
  | .hbm, ⟨44, _⟩ => ⟨S150000, .i32⟩
  | .hbm, ⟨45, _⟩ => ⟨S150000, .i32⟩
  | .hbm, ⟨46, _⟩ => ⟨S150000, .i32⟩
  | .hbm, ⟨47, _⟩ => ⟨S150000x1, .i32⟩
  | .hbm, ⟨48, _⟩ => ⟨S150000x128, .f32⟩
  | .hbm, ⟨49, _⟩ => ⟨S150000x128, .f32⟩
  | .hbm, ⟨50, _⟩ => ⟨S150000x128, .f32⟩
  | .hbm, ⟨51, _⟩ => ⟨S1x128, .f32⟩
  | .hbm, ⟨52, _⟩ => ⟨S150000x128, .f32⟩
  | .hbm, ⟨53, _⟩ => ⟨S150000x128, .f32⟩
  | .hbm, ⟨54, _⟩ => ⟨S500000x128, .f32⟩
  | _, _ => ⟨S4x1000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  bcast_S150000_S150000x1_0 : S150000.BroadcastsInDim S150000x1 (![0] : Fin 1 → Fin S150000x1.rank)
  bcast_S_S150000 : S_.BroadcastsInDim S150000 (![] : Fin 0 → Fin S150000.rank)
  bcast_S150000x1_S150000x128_0_1 : S150000x1.BroadcastsInDim S150000x128 (![0, 1] : Fin 2 → Fin S150000x128.rank)
  bcast_S128_S1x128_1 : S128.BroadcastsInDim S1x128 (![1] : Fin 1 → Fin S1x128.rank)
  bcast_S1x128_S150000x128_0_1 : S1x128.BroadcastsInDim S150000x128 (![0, 1] : Fin 2 → Fin S150000x128.rank)
  concatenates_S200000x128_S150000x128_S150000x128_S500000x128_d0 : Shape.Concatenates [S200000x128, S150000x128, S150000x128] S500000x128 0
  gather_S4x1000x128_S200000x2_S200000x128_1_01_n_n_01_1_11128_wf : GatherDims.WF S4x1000x128 S200000x2 S200000x128 [1] [0, 1] [] [0, 1] [] 1 ![1, 1, 128]
  gather_S4x128_S150000x1_S150000x128_1_0_n_n_0_1_1128_wf : GatherDims.WF S4x128 S150000x1 S150000x128 [1] [0] [] [0] [] 1 ![1, 128]
  dot_S150000x371_S371x128_S150000x128_1_0_0_1_n_n_wf : DotDims.WF S150000x371 S371x128 S150000x128 [1] [0] [0] [1] [] []

variable [Facts₀]

def gather_S4x1000x128_S200000x2_S200000x128_1_01_n_n_01_1_11128 : GatherDims S4x1000x128 S200000x2 S200000x128 where
  offsetDims := [1]
  collapsedSliceDims := [0, 1]
  operandBatchingDims := []
  startIndicesBatchingDims := []
  startIndexMap := [0, 1]
  indexVectorDim := 1
  sliceSizes := ![1, 1, 128]
  wf := gather_S4x1000x128_S200000x2_S200000x128_1_01_n_n_01_1_11128_wf
def gather_S4x128_S150000x1_S150000x128_1_0_n_n_0_1_1128 : GatherDims S4x128 S150000x1 S150000x128 where
  offsetDims := [1]
  collapsedSliceDims := [0]
  operandBatchingDims := []
  startIndicesBatchingDims := []
  startIndexMap := [0]
  indexVectorDim := 1
  sliceSizes := ![1, 128]
  wf := gather_S4x128_S150000x1_S150000x128_1_0_n_n_0_1_1128_wf
def dot_S150000x371_S371x128_S150000x128_1_0_0_1_n_n : DotDims S150000x371 S371x128 S150000x128 where
  lhsContracting := [1]
  rhsContracting := [0]
  lhsNonContracting := [0]
  rhsNonContracting := [1]
  lhsBatch := []
  rhsBatch := []
  wf := dot_S150000x371_S371x128_S150000x128_1_0_0_1_n_n_wf

class Facts : Prop extends Facts₀ where

variable [Facts]
-- ==== Proof.Kernel.Body0.lean ====
/-
  The first pallas_call (the categorical rows), at any float instance and at any contents `V` of the TensorCore's
  buffers when the region is entered. One grid point takes a block of 4096 type ids and 4096 value ids (each a
  4096 × 1 column) and the whole stack of four 1000 × 128 tables. It forms the 4096 × 1000 matrix whose entry (r, v) is
  1 where value id r equals v and 0 elsewhere, clears its 4096 × 128 output block, and for each table t in turn adds to
  the block the product of that matrix with table t, each row scaled by 1 where type id r equals t and by 0 elsewhere:
  five whole-block stores, each after the first reading the block back. The body also loads the block once before the
  first store; that value is never used, so the block's contents before the point do not matter. Stated here: what a
  window's block at a point is, the body's run on whole staging buffers with the stored pieces found by the run, the
  proof data of the pipeline (every input left in place, the output block at what the stores leave) and the body
  obligation at every point.
-/
import proofs.«407136_j58394375357022_3_alg».proof.Proof.Gen.Kernel.Launch
import proofs.«407136_j58394375357022_3_alg».proof.Proof.Gen.Kernel.Skeleton
import proofs.«407136_j58394375357022_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's run -/

/-- One staging buffer of the output window, through which its contents are stated (the choice does not matter). -/
abbrev VO0_3 : View sig .tc .vmem S4096x128 .f32 := (Memref.whole cc0_stg3_0 : Memref sig .tc .vmem S4096x128 .f32).view
/-- Each window's current staging memref at point `t`, as the pipeline passes it, and its wholeness. -/
abbrev ms0_0 (t : Fin cfg0.N) : Memref sig .tc .vmem S4096x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1000x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)

set_option maxHeartbeats 4000000 in
/-- What the body's stores leave in the output's staging memref, as pieces (last first), WITH the proof that on whole
    staging memrefs — the inputs' at their contents, the output's at anything — the body runs to the continuation
    holding the inputs' as they were and the output's buffer with the pieces written. The pieces are what the run finds. -/
noncomputable def kernelRun0 (c : Dev nD) (i : grid0.Coords)
    (arg1 : Memref sig .tc .vmem S4096x1 .i32) (harg1 : arg1.IsWhole) (arg2 : Memref sig .tc .vmem S4096x1 .i32) (harg2 : arg2.IsWhole) (arg3 : Memref sig .tc .vmem S4x1000x128 .bf16) (harg3 : arg3.IsWhole) (arg4 : Memref sig .tc .vmem S4096x128 .f32) (harg4 : arg4.IsWhole)
    (x0 : Vec F S4096x1 .i32) (x1 : Vec F S4096x1 .i32) (x2 : Vec F S4x1000x128 .bf16) :
    { L3 : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc0__cat_kernel i arg1 harg1 arg2 harg2 arg3 harg3 arg4 harg4) K } := by
  refine ⟨?_, fun E K => ?run⟩
  case run =>
    simp only [cc0__cat_kernel_eq_skeleton]; unfold cc0__cat_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## What the body leaves in the output block -/

/-- The run's pieces tile the output block, so they cover it. -/
theorem cover0_3 (c : Dev nD) (i : grid0.Coords)
    (arg1 : Memref sig .tc .vmem S4096x1 .i32) (harg1 : arg1.IsWhole) (arg2 : Memref sig .tc .vmem S4096x1 .i32) (harg2 : arg2.IsWhole) (arg3 : Memref sig .tc .vmem S4x1000x128 .bf16) (harg3 : arg3.IsWhole) (arg4 : Memref sig .tc .vmem S4096x128 .f32) (harg4 : arg4.IsWhole)
    (x0 : Vec F S4096x1 .i32) (x1 : Vec F S4096x1 .i32) (x2 : Vec F S4x1000x128 .bf16) (y : S4096x128.Idx) :
    ∃ pc ∈ (kernelRun0 c i arg1 harg1 arg2 harg2 arg3 harg3 arg4 harg4 x0 x1 x2).1, y ∈ pc.1.set :=
  View.cover_of_tiledL (kernelRun0 c i arg1 harg1 arg2 harg2 arg3 harg3 arg4 harg4 x0 x1 x2).1 S4096x128.size (by sl_kernel_rfl) y

/-- What the body leaves in the output's staging buffer: its pieces read back over junk. -/
def out0_3 (c : Dev nD) (i : grid0.Coords)
    (arg1 : Memref sig .tc .vmem S4096x1 .i32) (harg1 : arg1.IsWhole) (arg2 : Memref sig .tc .vmem S4096x1 .i32) (harg2 : arg2.IsWhole) (arg3 : Memref sig .tc .vmem S4x1000x128 .bf16) (harg3 : arg3.IsWhole) (arg4 : Memref sig .tc .vmem S4096x128 .f32) (harg4 : arg4.IsWhole)
    (x0 : Vec F S4096x1 .i32) (x1 : Vec F S4096x1 .i32) (x2 : Vec F S4x1000x128 .bf16) : Vec F S4096x128 .f32 :=
  VO0_3.read (Elt F) (VO0_3.writes (Elt F) VO0_3.junk (kernelRun0 c i arg1 harg1 arg2 harg2 arg3 harg3 arg4 harg4 x0 x1 x2).1)

/-- The output block after point `t`: the body's result on the point's staging memrefs and input blocks. -/
def outAt0 (c : Dev nD) (t : Fin cfg0.N) : Vec F S4096x128 .f32 :=
  out0_3 c (grid0.coords t) (ms0_0 t) (hs0_0 t) (ms0_1 t) (hs0_1 t) (ms0_2 t) (hs0_2 t) (ms0_3 t) (hs0_3 t)
    (iblk0 V c 0 t) (iblk0 V c 1 t) (iblk0 V c 2 t)

/-! ## The pipeline's proof data -/

/-- The proof data of this pipeline on core `c`: the arrays as the region finds them; after the body at point `t`
    each input's buffer at its block and the output's at `outAt0`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' memrefs hold their blocks, so the run applies; the invariant and the core's
    dues pass through unread; the output's buffer ends at its pieces read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Body1.lean ====
/-
  The second pallas_call (the continuous rows), at any float instance and at any contents `V` of the TensorCore's
  buffers when the region is entered. One grid point takes a block of 4096 type ids and 4096 values (each a 4096 × 1
  column) and the two whole 4 × 128 tables of weights and biases. It clears its 4096 × 128 output block and for each
  type t in turn adds to the block `value r * w[t] + b[t]` on every row r, scaled by 1 where type id r equals t and by
  0 elsewhere: five whole-block stores, each after the first reading the block back. The body also loads the block once
  before the first store; that value is never used, so the block's contents before the point do not matter. Stated
  here: what a window's block at a point is, the body's run on whole staging buffers with the stored pieces found by
  the run, the proof data of the pipeline (every input left in place, the output block at what the stores leave) and
  the body obligation at every point.
-/
import proofs.«407136_j58394375357022_3_alg».proof.Proof.Gen.Kernel.Launch
import proofs.«407136_j58394375357022_3_alg».proof.Proof.Gen.Kernel.Skeleton
import proofs.«407136_j58394375357022_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's run -/

/-- One staging buffer of the output window, through which its contents are stated (the choice does not matter). -/
abbrev VO1_4 : View sig .tc .vmem S4096x128 .f32 := (Memref.whole cc1_stg4_0 : Memref sig .tc .vmem S4096x128 .f32).view
/-- Each window's current staging memref at point `t`, as the pipeline passes it, and its wholeness. -/
abbrev ms1_0 (t : Fin cfg1.N) : Memref sig .tc .vmem S4096x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x128 .f32 := win1_4.stage (cfg1.slots t 4)
abbrev hs1_4 (t : Fin cfg1.N) : (ms1_4 t).IsWhole := hstage1_4 ((cfg1.slots t 4).cast nbuf1_4)

set_option maxHeartbeats 4000000 in
/-- What the body's stores leave in the output's staging memref, as pieces (last first), WITH the proof that on whole
    staging memrefs — the inputs' at their contents, the output's at anything — the body runs to the continuation
    holding the inputs' as they were and the output's buffer with the pieces written. The pieces are what the run finds. -/
noncomputable def kernelRun1 (c : Dev nD) (i : grid1.Coords)
    (arg1 : Memref sig .tc .vmem S4096x1 .i32) (harg1 : arg1.IsWhole) (arg2 : Memref sig .tc .vmem S4096x1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4096x128 .f32) (harg5 : arg5.IsWhole)
    (x0 : Vec F S4096x1 .i32) (x1 : Vec F S4096x1 .f32) (x2 : Vec F S4x128 .f32) (x3 : Vec F S4x128 .f32) :
    { L4 : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E (cc1__cont_kernel i arg1 harg1 arg2 harg2 arg3 harg3 arg4 harg4 arg5 harg5) K } := by
  refine ⟨?_, fun E K => ?run⟩
  case run =>
    simp only [cc1__cont_kernel_eq_skeleton]; unfold cc1__cont_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-! ## What the body leaves in the output block -/

/-- The run's pieces tile the output block, so they cover it. -/
theorem cover1_4 (c : Dev nD) (i : grid1.Coords)
    (arg1 : Memref sig .tc .vmem S4096x1 .i32) (harg1 : arg1.IsWhole) (arg2 : Memref sig .tc .vmem S4096x1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4096x128 .f32) (harg5 : arg5.IsWhole)
    (x0 : Vec F S4096x1 .i32) (x1 : Vec F S4096x1 .f32) (x2 : Vec F S4x128 .f32) (x3 : Vec F S4x128 .f32) (y : S4096x128.Idx) :
    ∃ pc ∈ (kernelRun1 c i arg1 harg1 arg2 harg2 arg3 harg3 arg4 harg4 arg5 harg5 x0 x1 x2 x3).1, y ∈ pc.1.set :=
  View.cover_of_tiledL (kernelRun1 c i arg1 harg1 arg2 harg2 arg3 harg3 arg4 harg4 arg5 harg5 x0 x1 x2 x3).1 S4096x128.size (by sl_kernel_rfl) y

/-- What the body leaves in the output's staging buffer: its pieces read back over junk. -/
def out1_4 (c : Dev nD) (i : grid1.Coords)
    (arg1 : Memref sig .tc .vmem S4096x1 .i32) (harg1 : arg1.IsWhole) (arg2 : Memref sig .tc .vmem S4096x1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4096x128 .f32) (harg5 : arg5.IsWhole)
    (x0 : Vec F S4096x1 .i32) (x1 : Vec F S4096x1 .f32) (x2 : Vec F S4x128 .f32) (x3 : Vec F S4x128 .f32) : Vec F S4096x128 .f32 :=
  VO1_4.read (Elt F) (VO1_4.writes (Elt F) VO1_4.junk (kernelRun1 c i arg1 harg1 arg2 harg2 arg3 harg3 arg4 harg4 arg5 harg5 x0 x1 x2 x3).1)

/-- The output block after point `t`: the body's result on the point's staging memrefs and input blocks. -/
def outAt1 (c : Dev nD) (t : Fin cfg1.N) : Vec F S4096x128 .f32 :=
  out1_4 c (grid1.coords t) (ms1_0 t) (hs1_0 t) (ms1_1 t) (hs1_1 t) (ms1_2 t) (hs1_2 t) (ms1_3 t) (hs1_3 t) (ms1_4 t) (hs1_4 t)
    (iblk1 V c 0 t) (iblk1 V c 1 t) (iblk1 V c 2 t) (iblk1 V c 3 t)

/-! ## The pipeline's proof data -/

/-- The proof data of this pipeline on core `c`: the arrays as the region finds them; after the body at point `t`
    each input's buffer at its block and the output's at `outAt1`; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 800000 in
/-- The body at any point: the inputs' memrefs hold their blocks, so the run applies; the invariant and the core's
    dues pass through unread; the output's buffer ends at its pieces read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold outAt1 out1_4
  iintro ⟨HΦ, Ho, ⟨%d0, H0⟩, ⟨%d1, H1⟩, ⟨%d2, H2⟩, ⟨%d3, H3⟩, ⟨%d4, H4⟩⟩
  iapply ((kernelRun1 c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_4 c _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Body2.lean ====
/-
  The third pallas_call (the transaction rows), at any float instance and at any contents `V` of the TensorCore's
  buffers when the region is entered. One grid point takes a block of 4096 rows of the padded feature matrix, the
  whole weight matrix and the bias row, and stores into its 4096 × 128 output block the one payload
  `matmul(block, W) + bias`. The body also loads its output block once before that store; the value is never used,
  so the block's contents before the point do not matter. Stated here: what a window's block at a point is, the
  body's run on whole staging buffers with the stored pieces found by the run, the proof data of the pipeline (every
  input left in place, the output block at what the store leaves) and the body obligation at every point.
-/
import proofs.«407136_j58394375357022_3_alg».proof.Proof.Gen.Kernel.Launch
import proofs.«407136_j58394375357022_3_alg».proof.Proof.Gen.Kernel.Skeleton
import proofs.«407136_j58394375357022_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not, for any proof data whose
    array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's run -/

/-- One staging buffer of the output window, through which its contents are stated (the choice does not matter). -/
abbrev VO2_3 : View sig .tc .vmem S4096x128 .f32 := (Memref.whole cc2_stg3_0 : Memref sig .tc .vmem S4096x128 .f32).view
/-- Each window's current staging memref at point `t`, as the pipeline passes it, and its wholeness. -/
abbrev ms2_0 (t : Fin cfg2.N) : Memref sig .tc .vmem S4096x371 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S371x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x128 .f32 := win2_3.stage (cfg2.slots t 3)
abbrev hs2_3 (t : Fin cfg2.N) : (ms2_3 t).IsWhole := hstage2_3 ((cfg2.slots t 3).cast nbuf2_3)

set_option maxHeartbeats 1000000 in
/-- What the body's store leaves in the output's staging memref, as pieces, WITH the proof that on whole staging
    memrefs — the inputs' at their contents, the output's at anything — the body runs to the continuation holding
    the inputs' as they were and the output's buffer with the pieces written. The pieces are what the run finds. -/
noncomputable def kernelRun2 (c : Dev nD) (i : grid2.Coords)
    (arg1 : Memref sig .tc .vmem S4096x371 .f32) (harg1 : arg1.IsWhole) (arg2 : Memref sig .tc .vmem S371x128 .bf16) (harg2 : arg2.IsWhole)
    (arg3 : Memref sig .tc .vmem S1x128 .f32) (harg3 : arg3.IsWhole) (arg4 : Memref sig .tc .vmem S4096x128 .f32) (harg4 : arg4.IsWhole)
    (x0 : Vec F S4096x371 .f32) (x1 : Vec F S371x128 .bf16) (x2 : Vec F S1x128 .f32) :
    { L3 : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc2__txn_kernel i arg1 harg1 arg2 harg2 arg3 harg3 arg4 harg4) K } := by
  refine ⟨?_, fun E K => ?run⟩
  case run =>
    simp only [cc2__txn_kernel_eq_skeleton]; unfold cc2__txn_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## What the body leaves in the output block -/

/-- The run's pieces tile the output block, so they cover it. -/
theorem cover2_3 (c : Dev nD) (i : grid2.Coords)
    (arg1 : Memref sig .tc .vmem S4096x371 .f32) (harg1 : arg1.IsWhole) (arg2 : Memref sig .tc .vmem S371x128 .bf16) (harg2 : arg2.IsWhole)
    (arg3 : Memref sig .tc .vmem S1x128 .f32) (harg3 : arg3.IsWhole) (arg4 : Memref sig .tc .vmem S4096x128 .f32) (harg4 : arg4.IsWhole)
    (x0 : Vec F S4096x371 .f32) (x1 : Vec F S371x128 .bf16) (x2 : Vec F S1x128 .f32) (y : S4096x128.Idx) :
    ∃ pc ∈ (kernelRun2 c i arg1 harg1 arg2 harg2 arg3 harg3 arg4 harg4 x0 x1 x2).1, y ∈ pc.1.set :=
  View.cover_of_tiledL (kernelRun2 c i arg1 harg1 arg2 harg2 arg3 harg3 arg4 harg4 x0 x1 x2).1 S4096x128.size (by sl_kernel_rfl) y

/-- What the body leaves in the output's staging buffer: its pieces read back over junk. -/
def out2_3 (c : Dev nD) (i : grid2.Coords)
    (arg1 : Memref sig .tc .vmem S4096x371 .f32) (harg1 : arg1.IsWhole) (arg2 : Memref sig .tc .vmem S371x128 .bf16) (harg2 : arg2.IsWhole)
    (arg3 : Memref sig .tc .vmem S1x128 .f32) (harg3 : arg3.IsWhole) (arg4 : Memref sig .tc .vmem S4096x128 .f32) (harg4 : arg4.IsWhole)
    (x0 : Vec F S4096x371 .f32) (x1 : Vec F S371x128 .bf16) (x2 : Vec F S1x128 .f32) : Vec F S4096x128 .f32 :=
  VO2_3.read (Elt F) (VO2_3.writes (Elt F) VO2_3.junk (kernelRun2 c i arg1 harg1 arg2 harg2 arg3 harg3 arg4 harg4 x0 x1 x2).1)

/-- The output block after point `t`: the body's result on the point's staging memrefs and input blocks. -/
def outAt2 (c : Dev nD) (t : Fin cfg2.N) : Vec F S4096x128 .f32 :=
  out2_3 c (grid2.coords t) (ms2_0 t) (hs2_0 t) (ms2_1 t) (hs2_1 t) (ms2_2 t) (hs2_2 t) (ms2_3 t) (hs2_3 t)
    (iblk2 V c 0 t) (iblk2 V c 1 t) (iblk2 V c 2 t)

/-! ## The pipeline's proof data -/

/-- The proof data of this pipeline on core `c`: the arrays as the region finds them; after the body at point `t`
    each input's buffer at its block and the output's at `outAt2`; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 800000 in
/-- The body at any point: the inputs' memrefs hold their blocks, so the run applies; the invariant and the core's
    dues pass through unread; the output's buffer ends at its pieces read back. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  unfold outAt2 out2_3
  iintro ⟨HΦ, Ho, ⟨%d0, H0⟩, ⟨%d1, H1⟩, ⟨%d2, H2⟩, ⟨%d3, H3⟩⟩
  iapply ((kernelRun2 c (grid2.coords t) _ _ _ _ _ _ _ _ (iblk2 V c 0 t) (iblk2 V c 1 t) (iblk2 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.RunCond.lean ====
/-
  The run of the whole program from its three regions' records. The program's @main is seventeen items: host
  stretches (pads, reshapes, conversions, slices, the final concatenation) around three pallas_calls. Between two
  items a core holds every unscoped buffer whole at a valuation: the launch contents, then each host stretch applied,
  then what a region leaves in its result array. Given one segment record per region, entered from the valuation
  before it and left at the one after it, the program runs to the end, and the final memory is the last valuation:
  the result buffer is read off it and each argument array is what the launch found. The host side (the items as
  segments, their chaining, the launch's first thread state) is the conditional frame's of the generated module this
  one imports; this statement differs from that one in also reading the result buffer at the end.
-/
import proofs.«407136_j58394375357022_3_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- THE RUN, GIVEN THE REGIONS' RECORDS. For any rest states `E` the launch makes on every core at once and that end
    owing nothing, any contents `outs` the regions leave and any proof data: given, per region, a segment record
    entered from the thread state before it and left at the one after it, every weakly fair execution of @main from
    memory `m` with zero counters terminates, and every final memory holds the result buffer at the last valuation
    `V17 m outs` (the launch contents carried through every host stretch and every region's `outs`) and each argument
    as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V15 m outs c) ∗ E 2 c) ⊢ R2.pre c)
    (hpost2 : ∀ c : Dev nD, R2.post c ⊢ iprop(StableHlo.held (c : Thread nD τ) (Pipeline.ucRefs τ sig) (V16 m outs c) ∗ E 3 c)) :
    θ_run defs (onTc (τ := τ) (main (F := F))) ⟨m, fun _ => 0, ρ⟩ (fun r => ∀ c : Dev nD,
      r.2.mem ((c.tc : Thread nD τ).loc main_v18) = V17 m outs c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V17 m outs c))
    (hch := fun c => ⟨.rfl, .rfl, .rfl, .rfl, .rfl, hpre0 c, hpost0 c, .rfl, .rfl, .rfl, .rfl, hpre1 c, hpost1 c, .rfl, .rfl, hpre2 c, hpost2 c, sep_mono .rfl (hE3 c)⟩)
    (hinit := ?_) (QY := fun c s => s.mem ((c.tc : Thread nD τ).loc main_v18) = V17 m outs c main_v18 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro
      exact ⟨h (Proc.devRef .tc main_v18) (Finset.mem_filter.mpr ⟨StableHlo.devRef_mem_tcRefs main_v18, by decide⟩),
        (h (Proc.devRef .tc main_arg0) (Finset.mem_filter.mpr ⟨StableHlo.devRef_mem_tcRefs main_arg0, by decide⟩)).trans (V17_main_arg0 m outs c),
        (h (Proc.devRef .tc main_arg1) (Finset.mem_filter.mpr ⟨StableHlo.devRef_mem_tcRefs main_arg1, by decide⟩)).trans (V17_main_arg1 m outs c),
        (h (Proc.devRef .tc main_arg2) (Finset.mem_filter.mpr ⟨StableHlo.devRef_mem_tcRefs main_arg2, by decide⟩)).trans (V17_main_arg2 m outs c),
        (h (Proc.devRef .tc main_arg3) (Finset.mem_filter.mpr ⟨StableHlo.devRef_mem_tcRefs main_arg3, by decide⟩)).trans (V17_main_arg3 m outs c),
        (h (Proc.devRef .tc main_arg4) (Finset.mem_filter.mpr ⟨StableHlo.devRef_mem_tcRefs main_arg4, by decide⟩)).trans (V17_main_arg4 m outs c),
        (h (Proc.devRef .tc main_arg5) (Finset.mem_filter.mpr ⟨StableHlo.devRef_mem_tcRefs main_arg5, by decide⟩)).trans (V17_main_arg5 m outs c),
        (h (Proc.devRef .tc main_arg6) (Finset.mem_filter.mpr ⟨StableHlo.devRef_mem_tcRefs main_arg6, by decide⟩)).trans (V17_main_arg6 m outs c),
        (h (Proc.devRef .tc main_arg7) (Finset.mem_filter.mpr ⟨StableHlo.devRef_mem_tcRefs main_arg7, by decide⟩)).trans (V17_main_arg7 m outs c),
        (h (Proc.devRef .tc main_arg8) (Finset.mem_filter.mpr ⟨StableHlo.devRef_mem_tcRefs main_arg8, by decide⟩)).trans (V17_main_arg8 m outs c),
        (h (Proc.devRef .tc main_arg9) (Finset.mem_filter.mpr ⟨StableHlo.devRef_mem_tcRefs main_arg9, by decide⟩)).trans (V17_main_arg9 m outs c)⟩
    · iexact HSI

end Cert.Kernel.Hand

end
-- ==== Proof.Kernel.Run.lean ====
/-
  The whole program's run from its three pallas_calls. Each region's proof data is taken at the buffer contents the
  region is entered from: the launch contents carried through the host stretches before it and through what the
  earlier regions left. What a region leaves in its result array is the pipeline's last write-back of that array;
  `OutsOk` says that the contents named `outs` are those, region by region. Under it each region is a segment
  from the valuation before it to the one after it, the program runs to the end, the result buffer ends at the last
  valuation and every argument array ends as launched.
-/
import proofs.«407136_j58394375357022_3_alg».proof.Proof.Kernel.Body0
import proofs.«407136_j58394375357022_3_alg».proof.Proof.Kernel.Body1
import proofs.«407136_j58394375357022_3_alg».proof.Proof.Kernel.Body2
import proofs.«407136_j58394375357022_3_alg».proof.Proof.Kernel.RunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-! ## The buffers' contents at each region's entry and exit, read at the TensorCore's references -/

abbrev VE0 : (c : Dev nD) → (b : Ref sig .tc) → Buf (Elt F) ((c : Thread nD τ).loc b) := fun c b => V5 m c b
abbrev VX0 : (c : Dev nD) → (b : Ref sig .tc) → Buf (Elt F) ((c : Thread nD τ).loc b) := fun c b => V6 m outs c b
abbrev VE1 : (c : Dev nD) → (b : Ref sig .tc) → Buf (Elt F) ((c : Thread nD τ).loc b) := fun c b => V11 m outs c b
abbrev VX1 : (c : Dev nD) → (b : Ref sig .tc) → Buf (Elt F) ((c : Thread nD τ).loc b) := fun c b => V12 m outs c b
abbrev VE2 : (c : Dev nD) → (b : Ref sig .tc) → Buf (Elt F) ((c : Thread nD τ).loc b) := fun c b => V15 m outs c b
abbrev VX2 : (c : Dev nD) → (b : Ref sig .tc) → Buf (Elt F) ((c : Thread nD τ).loc b) := fun c b => V16 m outs c b

/-- What the regions leave is what their pipelines write back: each region's result array, after the region, is the
    array its proof data computes from the contents the region was entered from. -/
structure OutsOk : Prop where
  h0 : ∀ c, outs 6 main_v5 c = (dat0 (VE0 m) c).arrAt 3 cfg0.N
  h1 : ∀ c, outs 12 main_v11 c = (dat1 (VE1 m outs) c).arrAt 4 cfg1.N
  h2 : ∀ c, outs 16 main_v16 c = (dat2 (VE2 m outs) c).arrAt 3 cfg2.N

/-- Every pipeline's proof data, each at its region's entry contents. -/
def pdats : (p : Fin 3) → (c : Dev nD) → Dat τ (Elt F) Unit ℕ (UR sig nD τ) ℕ (cfgs p) c
  | ⟨0, _⟩ => fun c => dat0 (VE0 m) c
  | ⟨1, _⟩ => fun c => dat1 (VE1 m outs) c
  | ⟨2, _⟩ => fun c => dat2 (VE2 m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)

/-- At region 0's exit each of its arrays holds what the pipeline leaves: an input array what it held at entry (no
    window writes it back), the result array what `outs` names, which is the pipeline's last write-back. -/
theorem hF0 (hO : OutsOk m outs) (c : Dev nD) (w : Fin cfg0.W) :
    (pdats m outs 0 c).arrAt w cfg0.N = VX0 m outs c (Pipeline.arrRef spec0 w) := by
  match w with
  | ⟨0, _⟩ => exact ((dat0 (VE0 m) c).arrAt_in 0 rfl _).trans ((A_eq0 (VE0 m) c 0).trans (V6_of m outs c _ (by decide)).symm)
  | ⟨1, _⟩ => exact ((dat0 (VE0 m) c).arrAt_in 1 rfl _).trans ((A_eq0 (VE0 m) c 1).trans (V6_of m outs c _ (by decide)).symm)
  | ⟨2, _⟩ => exact ((dat0 (VE0 m) c).arrAt_in 2 rfl _).trans ((A_eq0 (VE0 m) c 2).trans (V6_of m outs c _ (by decide)).symm)
  | ⟨3, _⟩ =>
    show (dat0 (VE0 m) c).arrAt 3 cfg0.N = Function.update (V5 m c) (Proc.devRef .tc main_v5) (outs 6 main_v5 c) (Proc.devRef .tc main_v5)
    rw [Function.update_self]; exact (hO.h0 c).symm
/-- and every other buffer what it held at entry. -/
theorem hrest0 (c : Dev nD) : ∀ b, b ∉ Finset.univ.image (Pipeline.arrRef spec0) → VX0 m outs c b = VE0 m c b :=
  fun b hb => V6_of m outs c b fun h => hb (by
    rw [List.mem_singleton] at h; subst h
    exact Finset.mem_image.mpr ⟨3, Finset.mem_univ _, rfl⟩)

set_option backward.isDefEq.respectTransparency.types false in
/-- REGION 0 over the thread state: entered from every unscoped buffer at `V5`, left at `V6`. Its arrays are
    split out of the unscoped buffers and put back at the exit contents; the generator register goes into the
    pipeline's invariant and comes out; nothing is owed; the kernel has no semaphore of its own. -/
def reg0 (hO : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (VE0 m c) (VX0 m outs c) ((pdats m outs 0 c).arrAt · cfg0.N) (hF0 m outs hO c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: an input array what it held at entry (no
    window writes it back), the result array what `outs` names, which is the pipeline's last write-back. -/
theorem hF1 (hO : OutsOk m outs) (c : Dev nD) (w : Fin cfg1.W) :
    (pdats m outs 1 c).arrAt w cfg1.N = VX1 m outs c (Pipeline.arrRef spec1 w) := by
  match w with
  | ⟨0, _⟩ => exact ((dat1 (VE1 m outs) c).arrAt_in 0 rfl _).trans ((A_eq1 (VE1 m outs) c 0).trans (V12_of m outs c _ (by decide)).symm)
  | ⟨1, _⟩ => exact ((dat1 (VE1 m outs) c).arrAt_in 1 rfl _).trans ((A_eq1 (VE1 m outs) c 1).trans (V12_of m outs c _ (by decide)).symm)
  | ⟨2, _⟩ => exact ((dat1 (VE1 m outs) c).arrAt_in 2 rfl _).trans ((A_eq1 (VE1 m outs) c 2).trans (V12_of m outs c _ (by decide)).symm)
  | ⟨3, _⟩ => exact ((dat1 (VE1 m outs) c).arrAt_in 3 rfl _).trans ((A_eq1 (VE1 m outs) c 3).trans (V12_of m outs c _ (by decide)).symm)
  | ⟨4, _⟩ =>
    show (dat1 (VE1 m outs) c).arrAt 4 cfg1.N = Function.update (V11 m outs c) (Proc.devRef .tc main_v11) (outs 12 main_v11 c) (Proc.devRef .tc main_v11)
    rw [Function.update_self]; exact (hO.h1 c).symm
/-- and every other buffer what it held at entry. -/
theorem hrest1 (c : Dev nD) : ∀ b, b ∉ Finset.univ.image (Pipeline.arrRef spec1) → VX1 m outs c b = VE1 m outs c b :=
  fun b hb => V12_of m outs c b fun h => hb (by
    rw [List.mem_singleton] at h; subst h
    exact Finset.mem_image.mpr ⟨4, Finset.mem_univ _, rfl⟩)

set_option backward.isDefEq.respectTransparency.types false in
/-- REGION 1 over the thread state: entered from every unscoped buffer at `V11`, left at `V12`. Its arrays are
    split out of the unscoped buffers and put back at the exit contents; the generator register goes into the
    pipeline's invariant and comes out; nothing is owed; the kernel has no semaphore of its own. -/
def reg1 (hO : OutsOk m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m outs) c).loose
  hwaits := Pipeline.hwaits_of_owed_zero _ _ _ _ L lv 1 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec1 c (VE1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (VE1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (VE1 m outs c) (VX1 m outs c) ((pdats m outs 1 c).arrAt · cfg1.N) (hF1 m outs hO c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves: an input array what it held at entry (no
    window writes it back), the result array what `outs` names, which is the pipeline's last write-back. -/
theorem hF2 (hO : OutsOk m outs) (c : Dev nD) (w : Fin cfg2.W) :
    (pdats m outs 2 c).arrAt w cfg2.N = VX2 m outs c (Pipeline.arrRef spec2 w) := by
  match w with
  | ⟨0, _⟩ => exact ((dat2 (VE2 m outs) c).arrAt_in 0 rfl _).trans ((A_eq2 (VE2 m outs) c 0).trans (V16_of m outs c _ (by decide)).symm)
  | ⟨1, _⟩ => exact ((dat2 (VE2 m outs) c).arrAt_in 1 rfl _).trans ((A_eq2 (VE2 m outs) c 1).trans (V16_of m outs c _ (by decide)).symm)
  | ⟨2, _⟩ => exact ((dat2 (VE2 m outs) c).arrAt_in 2 rfl _).trans ((A_eq2 (VE2 m outs) c 2).trans (V16_of m outs c _ (by decide)).symm)
  | ⟨3, _⟩ =>
    show (dat2 (VE2 m outs) c).arrAt 3 cfg2.N = Function.update (V15 m outs c) (Proc.devRef .tc main_v16) (outs 16 main_v16 c) (Proc.devRef .tc main_v16)
    rw [Function.update_self]; exact (hO.h2 c).symm
/-- and every other buffer what it held at entry. -/
theorem hrest2 (c : Dev nD) : ∀ b, b ∉ Finset.univ.image (Pipeline.arrRef spec2) → VX2 m outs c b = VE2 m outs c b :=
  fun b hb => V16_of m outs c b fun h => hb (by
    rw [List.mem_singleton] at h; subst h
    exact Finset.mem_image.mpr ⟨3, Finset.mem_univ _, rfl⟩)

set_option backward.isDefEq.respectTransparency.types false in
/-- REGION 2 over the thread state: entered from every unscoped buffer at `V15`, left at `V16`. Its arrays are
    split out of the unscoped buffers and put back at the exit contents; the generator register goes into the
    pipeline's invariant and comes out; nothing is owed; the kernel has no semaphore of its own. -/
def reg2 (hO : OutsOk m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m outs) c).loose
  hwaits := Pipeline.hwaits_of_owed_zero _ _ _ _ L lv 2 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec2 c (VE2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (VE2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (VE2 m outs c) (VX2 m outs c) ((pdats m outs 2 c).arrAt · cfg2.N) (hF2 m outs hO c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN. From any memory with zero counters, every weakly fair execution of @main terminates, the result buffer
    ends at the last valuation and every argument array as launched: the run from the regions' records at the
    launch's own algebra, no level assigned, nothing owed at launch, the generator register and the core's dues
    riding beside the buffers through every segment. -/
theorem run_main (hO : OutsOk m outs) :
    θ_run defs (onTc (τ := τ) (main (F := F))) ⟨m, fun _ => 0, ρ⟩ (fun r => ∀ c : Dev nD,
      r.2.mem ((c.tc : Thread nD τ).loc main_v18) = V17 m outs c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_cond m (Ix := Unit) (U := UR sig nD τ) (Lvl := ℕ) emb₁ () 𝒱₀ L lv (fun _ _ => rfl) ρ outs (pdats m outs) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, H⟩; iexact H)
    (reg0 m outs hO) (fun c => .rfl) (fun c => .rfl)
    (reg1 m outs hO) (fun c => .rfl) (fun c => .rfl)
    (reg2 m outs hO) (fun c => .rfl) (fun c => .rfl)

end Cert.Kernel.Hand

end
-- ==== Proof.Kernel.Outs.lean ====
/-
  Contents for the regions' result arrays exist. What region 0 leaves is computed from the launch contents alone;
  what region 1 leaves from the contents it is entered from, which read, of the regions' results, only region 0's;
  what region 2 leaves from contents that read only the first two. So the three are defined one after another, each
  from the valuations the earlier ones fix, and a valuation is unchanged when the contents it never reads change.
-/
import proofs.«407136_j58394375357022_3_alg».proof.Proof.Kernel.Run

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Region 1 is entered from contents that read, of `outs`, only region 0's result. -/
theorem V11_congr (o o' : Outs (F := F)) (h : ∀ c, o 6 main_v5 c = o' 6 main_v5 c) (c : Dev nD) : V11 m o c = V11 m o' c := by
  show StableHlo.after hostOps1_4 (StableHlo.after hostOps1_3 (StableHlo.after hostOps1_2 (StableHlo.after hostOps1_1 (StableHlo.after hostOps1
    (Function.update (V5 m c) (Proc.devRef .tc main_v5) (o 6 main_v5 c)))))) = _
  rw [h c]

/-- Region 2 is entered from contents that read only the first two regions' results. -/
theorem V15_congr (o o' : Outs (F := F)) (h : ∀ c, o 6 main_v5 c = o' 6 main_v5 c) (h' : ∀ c, o 12 main_v11 c = o' 12 main_v11 c)
    (c : Dev nD) : V15 m o c = V15 m o' c := by
  show StableHlo.after hostOps2_2 (StableHlo.after hostOps2_1 (StableHlo.after hostOps2
    (Function.update (V11 m o c) (Proc.devRef .tc main_v11) (o 12 main_v11 c)))) = _
  rw [h' c, V11_congr m o o' h c]

/-- Region 0's result named, every other buffer at its launch contents. -/
def outsA : Outs (F := F) := fun _ r c =>
  if h : r = main_v5 then h ▸ (show Buf (Elt F) ((c : Thread nD τ).loc main_v5) from (dat0 (VE0 m) c).arrAt 3 cfg0.N)
  else m ((c : Thread nD τ).loc r)

theorem outsA_v5 (J : ℕ) (c : Dev nD) : outsA m J main_v5 c = (dat0 (VE0 m) c).arrAt 3 cfg0.N := by
  unfold outsA; rw [dif_pos rfl]

/-- Region 1's result named too. -/
def outsB : Outs (F := F) := fun J r c =>
  if h : r = main_v11 then h ▸ (show Buf (Elt F) ((c : Thread nD τ).loc main_v11) from (dat1 (VE1 m (outsA m)) c).arrAt 4 cfg1.N)
  else outsA m J r c

theorem outsB_v5 (J : ℕ) (c : Dev nD) : outsB m J main_v5 c = (dat0 (VE0 m) c).arrAt 3 cfg0.N := by
  unfold outsB; rw [dif_neg (by decide)]; exact outsA_v5 m J c
theorem outsB_v11 (J : ℕ) (c : Dev nD) : outsB m J main_v11 c = (dat1 (VE1 m (outsA m)) c).arrAt 4 cfg1.N := by
  unfold outsB; rw [dif_pos rfl]

/-- All three regions' results named. -/
def outsC : Outs (F := F) := fun J r c =>
  if h : r = main_v16 then h ▸ (show Buf (Elt F) ((c : Thread nD τ).loc main_v16) from (dat2 (VE2 m (outsB m)) c).arrAt 3 cfg2.N)
  else outsB m J r c

theorem outsC_v5 (J : ℕ) (c : Dev nD) : outsC m J main_v5 c = (dat0 (VE0 m) c).arrAt 3 cfg0.N := by
  unfold outsC; rw [dif_neg (by decide)]; exact outsB_v5 m J c
theorem outsC_v11 (J : ℕ) (c : Dev nD) : outsC m J main_v11 c = (dat1 (VE1 m (outsA m)) c).arrAt 4 cfg1.N := by
  unfold outsC; rw [dif_neg (by decide)]; exact outsB_v11 m J c
theorem outsC_v16 (J : ℕ) (c : Dev nD) : outsC m J main_v16 c = (dat2 (VE2 m (outsB m)) c).arrAt 3 cfg2.N := by
  unfold outsC; rw [dif_pos rfl]

/-- The contents so defined are what the regions' pipelines write back. -/
theorem outsC_ok : OutsOk m (outsC m) where
  h0 c := outsC_v5 m 6 c
  h1 c := by
    rw [outsC_v11]
    have e : VE1 m (outsA m) = VE1 m (outsC m) := by
      funext c b
      exact congrFun (V11_congr m (outsA m) (outsC m) (fun c => (outsA_v5 m 6 c).trans (outsC_v5 m 6 c).symm) c) (Proc.devRef .tc b)
    rw [e]
  h2 c := by
    rw [outsC_v16]
    have e : VE2 m (outsB m) = VE2 m (outsC m) := by
      funext c b
      exact congrFun (V15_congr m (outsB m) (outsC m) (fun c => (outsB_v5 m 6 c).trans (outsC_v5 m 6 c).symm)
        (fun c => (outsB_v11 m 12 c).trans (outsC_v11 m 12 c).symm) c) (Proc.devRef .tc b)
    rw [e]

end Cert.Kernel.Hand

end
-- ==== Proof.KernelIdeal.Body0.lean ====
/-
  The first pallas_call (the categorical rows), at any float instance and at any contents `V` of the TensorCore's
  buffers when the region is entered. One grid point takes a block of 4096 type ids and 4096 value ids (each a
  4096 × 1 column) and the whole stack of four 1000 × 128 tables. It forms the 4096 × 1000 matrix whose entry (r, v) is
  1 where value id r equals v and 0 elsewhere, clears its 4096 × 128 output block, and for each table t in turn adds to
  the block the product of that matrix with table t, each row scaled by 1 where type id r equals t and by 0 elsewhere:
  five whole-block stores, each after the first reading the block back. The body also loads the block once before the
  first store; that value is never used, so the block's contents before the point do not matter. Stated here: what a
  window's block at a point is, the body's run on whole staging buffers with the stored pieces found by the run, the
  proof data of the pipeline (every input left in place, the output block at what the stores leave) and the body
  obligation at every point.
-/
import proofs.«407136_j58394375357022_3_alg».proof.Proof.Gen.KernelIdeal.Launch
import proofs.«407136_j58394375357022_3_alg».proof.Proof.Gen.KernelIdeal.Skeleton
import proofs.«407136_j58394375357022_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's run -/

/-- One staging buffer of the output window, through which its contents are stated (the choice does not matter). -/
abbrev VO0_3 : View sig .tc .vmem S4096x128 .f32 := (Memref.whole cc0_stg3_0 : Memref sig .tc .vmem S4096x128 .f32).view
/-- Each window's current staging memref at point `t`, as the pipeline passes it, and its wholeness. -/
abbrev ms0_0 (t : Fin cfg0.N) : Memref sig .tc .vmem S4096x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1000x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)

set_option maxHeartbeats 4000000 in
/-- What the body's stores leave in the output's staging memref, as pieces (last first), WITH the proof that on whole
    staging memrefs — the inputs' at their contents, the output's at anything — the body runs to the continuation
    holding the inputs' as they were and the output's buffer with the pieces written. The pieces are what the run finds. -/
noncomputable def kernelRun0 (c : Dev nD) (i : grid0.Coords)
    (arg1 : Memref sig .tc .vmem S4096x1 .i32) (harg1 : arg1.IsWhole) (arg2 : Memref sig .tc .vmem S4096x1 .i32) (harg2 : arg2.IsWhole) (arg3 : Memref sig .tc .vmem S4x1000x128 .bf16) (harg3 : arg3.IsWhole) (arg4 : Memref sig .tc .vmem S4096x128 .f32) (harg4 : arg4.IsWhole)
    (x0 : Vec F S4096x1 .i32) (x1 : Vec F S4096x1 .i32) (x2 : Vec F S4x1000x128 .bf16) :
    { L3 : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc0__cat_kernel i arg1 harg1 arg2 harg2 arg3 harg3 arg4 harg4) K } := by
  refine ⟨?_, fun E K => ?run⟩
  case run =>
    simp only [cc0__cat_kernel_eq_skeleton]; unfold cc0__cat_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## What the body leaves in the output block -/

/-- The run's pieces tile the output block, so they cover it. -/
theorem cover0_3 (c : Dev nD) (i : grid0.Coords)
    (arg1 : Memref sig .tc .vmem S4096x1 .i32) (harg1 : arg1.IsWhole) (arg2 : Memref sig .tc .vmem S4096x1 .i32) (harg2 : arg2.IsWhole) (arg3 : Memref sig .tc .vmem S4x1000x128 .bf16) (harg3 : arg3.IsWhole) (arg4 : Memref sig .tc .vmem S4096x128 .f32) (harg4 : arg4.IsWhole)
    (x0 : Vec F S4096x1 .i32) (x1 : Vec F S4096x1 .i32) (x2 : Vec F S4x1000x128 .bf16) (y : S4096x128.Idx) :
    ∃ pc ∈ (kernelRun0 c i arg1 harg1 arg2 harg2 arg3 harg3 arg4 harg4 x0 x1 x2).1, y ∈ pc.1.set :=
  View.cover_of_tiledL (kernelRun0 c i arg1 harg1 arg2 harg2 arg3 harg3 arg4 harg4 x0 x1 x2).1 S4096x128.size (by sl_kernel_rfl) y

/-- What the body leaves in the output's staging buffer: its pieces read back over junk. -/
def out0_3 (c : Dev nD) (i : grid0.Coords)
    (arg1 : Memref sig .tc .vmem S4096x1 .i32) (harg1 : arg1.IsWhole) (arg2 : Memref sig .tc .vmem S4096x1 .i32) (harg2 : arg2.IsWhole) (arg3 : Memref sig .tc .vmem S4x1000x128 .bf16) (harg3 : arg3.IsWhole) (arg4 : Memref sig .tc .vmem S4096x128 .f32) (harg4 : arg4.IsWhole)
    (x0 : Vec F S4096x1 .i32) (x1 : Vec F S4096x1 .i32) (x2 : Vec F S4x1000x128 .bf16) : Vec F S4096x128 .f32 :=
  VO0_3.read (Elt F) (VO0_3.writes (Elt F) VO0_3.junk (kernelRun0 c i arg1 harg1 arg2 harg2 arg3 harg3 arg4 harg4 x0 x1 x2).1)

/-- The output block after point `t`: the body's result on the point's staging memrefs and input blocks. -/
def outAt0 (c : Dev nD) (t : Fin cfg0.N) : Vec F S4096x128 .f32 :=
  out0_3 c (grid0.coords t) (ms0_0 t) (hs0_0 t) (ms0_1 t) (hs0_1 t) (ms0_2 t) (hs0_2 t) (ms0_3 t) (hs0_3 t)
    (iblk0 V c 0 t) (iblk0 V c 1 t) (iblk0 V c 2 t)

/-! ## The pipeline's proof data -/

/-- The proof data of this pipeline on core `c`: the arrays as the region finds them; after the body at point `t`
    each input's buffer at its block and the output's at `outAt0`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' memrefs hold their blocks, so the run applies; the invariant and the core's
    dues pass through unread; the output's buffer ends at its pieces read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Body1.lean ====
/-
  The second pallas_call (the continuous rows), at any float instance and at any contents `V` of the TensorCore's
  buffers when the region is entered. One grid point takes a block of 4096 type ids and 4096 values (each a 4096 × 1
  column) and the two whole 4 × 128 tables of weights and biases. It clears its 4096 × 128 output block and for each
  type t in turn adds to the block `value r * w[t] + b[t]` on every row r, scaled by 1 where type id r equals t and by
  0 elsewhere: five whole-block stores, each after the first reading the block back. The body also loads the block once
  before the first store; that value is never used, so the block's contents before the point do not matter. Stated
  here: what a window's block at a point is, the body's run on whole staging buffers with the stored pieces found by
  the run, the proof data of the pipeline (every input left in place, the output block at what the stores leave) and
  the body obligation at every point.
-/
import proofs.«407136_j58394375357022_3_alg».proof.Proof.Gen.KernelIdeal.Launch
import proofs.«407136_j58394375357022_3_alg».proof.Proof.Gen.KernelIdeal.Skeleton
import proofs.«407136_j58394375357022_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's run -/

/-- One staging buffer of the output window, through which its contents are stated (the choice does not matter). -/
abbrev VO1_4 : View sig .tc .vmem S4096x128 .f32 := (Memref.whole cc1_stg4_0 : Memref sig .tc .vmem S4096x128 .f32).view
/-- Each window's current staging memref at point `t`, as the pipeline passes it, and its wholeness. -/
abbrev ms1_0 (t : Fin cfg1.N) : Memref sig .tc .vmem S4096x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x128 .f32 := win1_4.stage (cfg1.slots t 4)
abbrev hs1_4 (t : Fin cfg1.N) : (ms1_4 t).IsWhole := hstage1_4 ((cfg1.slots t 4).cast nbuf1_4)

set_option maxHeartbeats 4000000 in
/-- What the body's stores leave in the output's staging memref, as pieces (last first), WITH the proof that on whole
    staging memrefs — the inputs' at their contents, the output's at anything — the body runs to the continuation
    holding the inputs' as they were and the output's buffer with the pieces written. The pieces are what the run finds. -/
noncomputable def kernelRun1 (c : Dev nD) (i : grid1.Coords)
    (arg1 : Memref sig .tc .vmem S4096x1 .i32) (harg1 : arg1.IsWhole) (arg2 : Memref sig .tc .vmem S4096x1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4096x128 .f32) (harg5 : arg5.IsWhole)
    (x0 : Vec F S4096x1 .i32) (x1 : Vec F S4096x1 .f32) (x2 : Vec F S4x128 .f32) (x3 : Vec F S4x128 .f32) :
    { L4 : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E (cc1__cont_kernel i arg1 harg1 arg2 harg2 arg3 harg3 arg4 harg4 arg5 harg5) K } := by
  refine ⟨?_, fun E K => ?run⟩
  case run =>
    simp only [cc1__cont_kernel_eq_skeleton]; unfold cc1__cont_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-! ## What the body leaves in the output block -/

/-- The run's pieces tile the output block, so they cover it. -/
theorem cover1_4 (c : Dev nD) (i : grid1.Coords)
    (arg1 : Memref sig .tc .vmem S4096x1 .i32) (harg1 : arg1.IsWhole) (arg2 : Memref sig .tc .vmem S4096x1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4096x128 .f32) (harg5 : arg5.IsWhole)
    (x0 : Vec F S4096x1 .i32) (x1 : Vec F S4096x1 .f32) (x2 : Vec F S4x128 .f32) (x3 : Vec F S4x128 .f32) (y : S4096x128.Idx) :
    ∃ pc ∈ (kernelRun1 c i arg1 harg1 arg2 harg2 arg3 harg3 arg4 harg4 arg5 harg5 x0 x1 x2 x3).1, y ∈ pc.1.set :=
  View.cover_of_tiledL (kernelRun1 c i arg1 harg1 arg2 harg2 arg3 harg3 arg4 harg4 arg5 harg5 x0 x1 x2 x3).1 S4096x128.size (by sl_kernel_rfl) y

/-- What the body leaves in the output's staging buffer: its pieces read back over junk. -/
def out1_4 (c : Dev nD) (i : grid1.Coords)
    (arg1 : Memref sig .tc .vmem S4096x1 .i32) (harg1 : arg1.IsWhole) (arg2 : Memref sig .tc .vmem S4096x1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4096x128 .f32) (harg5 : arg5.IsWhole)
    (x0 : Vec F S4096x1 .i32) (x1 : Vec F S4096x1 .f32) (x2 : Vec F S4x128 .f32) (x3 : Vec F S4x128 .f32) : Vec F S4096x128 .f32 :=
  VO1_4.read (Elt F) (VO1_4.writes (Elt F) VO1_4.junk (kernelRun1 c i arg1 harg1 arg2 harg2 arg3 harg3 arg4 harg4 arg5 harg5 x0 x1 x2 x3).1)

/-- The output block after point `t`: the body's result on the point's staging memrefs and input blocks. -/
def outAt1 (c : Dev nD) (t : Fin cfg1.N) : Vec F S4096x128 .f32 :=
  out1_4 c (grid1.coords t) (ms1_0 t) (hs1_0 t) (ms1_1 t) (hs1_1 t) (ms1_2 t) (hs1_2 t) (ms1_3 t) (hs1_3 t) (ms1_4 t) (hs1_4 t)
    (iblk1 V c 0 t) (iblk1 V c 1 t) (iblk1 V c 2 t) (iblk1 V c 3 t)

/-! ## The pipeline's proof data -/

/-- The proof data of this pipeline on core `c`: the arrays as the region finds them; after the body at point `t`
    each input's buffer at its block and the output's at `outAt1`; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 800000 in
/-- The body at any point: the inputs' memrefs hold their blocks, so the run applies; the invariant and the core's
    dues pass through unread; the output's buffer ends at its pieces read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold outAt1 out1_4
  iintro ⟨HΦ, Ho, ⟨%d0, H0⟩, ⟨%d1, H1⟩, ⟨%d2, H2⟩, ⟨%d3, H3⟩, ⟨%d4, H4⟩⟩
  iapply ((kernelRun1 c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_4 c _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Body2.lean ====
/-
  The third pallas_call (the transaction rows), at any float instance and at any contents `V` of the TensorCore's
  buffers when the region is entered. One grid point takes a block of 4096 rows of the padded feature matrix, the
  whole weight matrix and the bias row, and stores into its 4096 × 128 output block the one payload
  `matmul(block, W) + bias`. The body also loads its output block once before that store; the value is never used,
  so the block's contents before the point do not matter. Stated here: what a window's block at a point is, the
  body's run on whole staging buffers with the stored pieces found by the run, the proof data of the pipeline (every
  input left in place, the output block at what the store leaves) and the body obligation at every point.
-/
import proofs.«407136_j58394375357022_3_alg».proof.Proof.Gen.KernelIdeal.Launch
import proofs.«407136_j58394375357022_3_alg».proof.Proof.Gen.KernelIdeal.Skeleton
import proofs.«407136_j58394375357022_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not, for any proof data whose
    array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's run -/

/-- One staging buffer of the output window, through which its contents are stated (the choice does not matter). -/
abbrev VO2_3 : View sig .tc .vmem S4096x128 .f32 := (Memref.whole cc2_stg3_0 : Memref sig .tc .vmem S4096x128 .f32).view
/-- Each window's current staging memref at point `t`, as the pipeline passes it, and its wholeness. -/
abbrev ms2_0 (t : Fin cfg2.N) : Memref sig .tc .vmem S4096x371 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S371x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x128 .f32 := win2_3.stage (cfg2.slots t 3)
abbrev hs2_3 (t : Fin cfg2.N) : (ms2_3 t).IsWhole := hstage2_3 ((cfg2.slots t 3).cast nbuf2_3)

set_option maxHeartbeats 1000000 in
/-- What the body's store leaves in the output's staging memref, as pieces, WITH the proof that on whole staging
    memrefs — the inputs' at their contents, the output's at anything — the body runs to the continuation holding
    the inputs' as they were and the output's buffer with the pieces written. The pieces are what the run finds. -/
noncomputable def kernelRun2 (c : Dev nD) (i : grid2.Coords)
    (arg1 : Memref sig .tc .vmem S4096x371 .f32) (harg1 : arg1.IsWhole) (arg2 : Memref sig .tc .vmem S371x128 .bf16) (harg2 : arg2.IsWhole)
    (arg3 : Memref sig .tc .vmem S1x128 .f32) (harg3 : arg3.IsWhole) (arg4 : Memref sig .tc .vmem S4096x128 .f32) (harg4 : arg4.IsWhole)
    (x0 : Vec F S4096x371 .f32) (x1 : Vec F S371x128 .bf16) (x2 : Vec F S1x128 .f32) :
    { L3 : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc2__txn_kernel i arg1 harg1 arg2 harg2 arg3 harg3 arg4 harg4) K } := by
  refine ⟨?_, fun E K => ?run⟩
  case run =>
    simp only [cc2__txn_kernel_eq_skeleton]; unfold cc2__txn_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## What the body leaves in the output block -/

/-- The run's pieces tile the output block, so they cover it. -/
theorem cover2_3 (c : Dev nD) (i : grid2.Coords)
    (arg1 : Memref sig .tc .vmem S4096x371 .f32) (harg1 : arg1.IsWhole) (arg2 : Memref sig .tc .vmem S371x128 .bf16) (harg2 : arg2.IsWhole)
    (arg3 : Memref sig .tc .vmem S1x128 .f32) (harg3 : arg3.IsWhole) (arg4 : Memref sig .tc .vmem S4096x128 .f32) (harg4 : arg4.IsWhole)
    (x0 : Vec F S4096x371 .f32) (x1 : Vec F S371x128 .bf16) (x2 : Vec F S1x128 .f32) (y : S4096x128.Idx) :
    ∃ pc ∈ (kernelRun2 c i arg1 harg1 arg2 harg2 arg3 harg3 arg4 harg4 x0 x1 x2).1, y ∈ pc.1.set :=
  View.cover_of_tiledL (kernelRun2 c i arg1 harg1 arg2 harg2 arg3 harg3 arg4 harg4 x0 x1 x2).1 S4096x128.size (by sl_kernel_rfl) y

/-- What the body leaves in the output's staging buffer: its pieces read back over junk. -/
def out2_3 (c : Dev nD) (i : grid2.Coords)
    (arg1 : Memref sig .tc .vmem S4096x371 .f32) (harg1 : arg1.IsWhole) (arg2 : Memref sig .tc .vmem S371x128 .bf16) (harg2 : arg2.IsWhole)
    (arg3 : Memref sig .tc .vmem S1x128 .f32) (harg3 : arg3.IsWhole) (arg4 : Memref sig .tc .vmem S4096x128 .f32) (harg4 : arg4.IsWhole)
    (x0 : Vec F S4096x371 .f32) (x1 : Vec F S371x128 .bf16) (x2 : Vec F S1x128 .f32) : Vec F S4096x128 .f32 :=
  VO2_3.read (Elt F) (VO2_3.writes (Elt F) VO2_3.junk (kernelRun2 c i arg1 harg1 arg2 harg2 arg3 harg3 arg4 harg4 x0 x1 x2).1)

/-- The output block after point `t`: the body's result on the point's staging memrefs and input blocks. -/
def outAt2 (c : Dev nD) (t : Fin cfg2.N) : Vec F S4096x128 .f32 :=
  out2_3 c (grid2.coords t) (ms2_0 t) (hs2_0 t) (ms2_1 t) (hs2_1 t) (ms2_2 t) (hs2_2 t) (ms2_3 t) (hs2_3 t)
    (iblk2 V c 0 t) (iblk2 V c 1 t) (iblk2 V c 2 t)

/-! ## The pipeline's proof data -/

/-- The proof data of this pipeline on core `c`: the arrays as the region finds them; after the body at point `t`
    each input's buffer at its block and the output's at `outAt2`; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 800000 in
/-- The body at any point: the inputs' memrefs hold their blocks, so the run applies; the invariant and the core's
    dues pass through unread; the output's buffer ends at its pieces read back. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  unfold outAt2 out2_3
  iintro ⟨HΦ, Ho, ⟨%d0, H0⟩, ⟨%d1, H1⟩, ⟨%d2, H2⟩, ⟨%d3, H3⟩⟩
  iapply ((kernelRun2 c (grid2.coords t) _ _ _ _ _ _ _ _ (iblk2 V c 0 t) (iblk2 V c 1 t) (iblk2 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.RunCond.lean ====
/-
  The run of the whole program from its three regions' records. The program's @main is seventeen items: host
  stretches (pads, reshapes, conversions, slices, the final concatenation) around three pallas_calls. Between two
  items a core holds every unscoped buffer whole at a valuation: the launch contents, then each host stretch applied,
  then what a region leaves in its result array. Given one segment record per region, entered from the valuation
  before it and left at the one after it, the program runs to the end, and the final memory is the last valuation:
  the result buffer is read off it and each argument array is what the launch found. The host side (the items as
  segments, their chaining, the launch's first thread state) is the conditional frame's of the generated module this
  one imports; this statement differs from that one in also reading the result buffer at the end.
-/
import proofs.«407136_j58394375357022_3_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- THE RUN, GIVEN THE REGIONS' RECORDS. For any rest states `E` the launch makes on every core at once and that end
    owing nothing, any contents `outs` the regions leave and any proof data: given, per region, a segment record
    entered from the thread state before it and left at the one after it, every weakly fair execution of @main from
    memory `m` with zero counters terminates, and every final memory holds the result buffer at the last valuation
    `V17 m outs` (the launch contents carried through every host stretch and every region's `outs`) and each argument
    as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V15 m outs c) ∗ E 2 c) ⊢ R2.pre c)
    (hpost2 : ∀ c : Dev nD, R2.post c ⊢ iprop(StableHlo.held (c : Thread nD τ) (Pipeline.ucRefs τ sig) (V16 m outs c) ∗ E 3 c)) :
    θ_run defs (onTc (τ := τ) (main (F := F))) ⟨m, fun _ => 0, ρ⟩ (fun r => ∀ c : Dev nD,
      r.2.mem ((c.tc : Thread nD τ).loc main_v18) = V17 m outs c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V17 m outs c))
    (hch := fun c => ⟨.rfl, .rfl, .rfl, .rfl, .rfl, hpre0 c, hpost0 c, .rfl, .rfl, .rfl, .rfl, hpre1 c, hpost1 c, .rfl, .rfl, hpre2 c, hpost2 c, sep_mono .rfl (hE3 c)⟩)
    (hinit := ?_) (QY := fun c s => s.mem ((c.tc : Thread nD τ).loc main_v18) = V17 m outs c main_v18 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro
      exact ⟨h (Proc.devRef .tc main_v18) (Finset.mem_filter.mpr ⟨StableHlo.devRef_mem_tcRefs main_v18, by decide⟩),
        (h (Proc.devRef .tc main_arg0) (Finset.mem_filter.mpr ⟨StableHlo.devRef_mem_tcRefs main_arg0, by decide⟩)).trans (V17_main_arg0 m outs c),
        (h (Proc.devRef .tc main_arg1) (Finset.mem_filter.mpr ⟨StableHlo.devRef_mem_tcRefs main_arg1, by decide⟩)).trans (V17_main_arg1 m outs c),
        (h (Proc.devRef .tc main_arg2) (Finset.mem_filter.mpr ⟨StableHlo.devRef_mem_tcRefs main_arg2, by decide⟩)).trans (V17_main_arg2 m outs c),
        (h (Proc.devRef .tc main_arg3) (Finset.mem_filter.mpr ⟨StableHlo.devRef_mem_tcRefs main_arg3, by decide⟩)).trans (V17_main_arg3 m outs c),
        (h (Proc.devRef .tc main_arg4) (Finset.mem_filter.mpr ⟨StableHlo.devRef_mem_tcRefs main_arg4, by decide⟩)).trans (V17_main_arg4 m outs c),
        (h (Proc.devRef .tc main_arg5) (Finset.mem_filter.mpr ⟨StableHlo.devRef_mem_tcRefs main_arg5, by decide⟩)).trans (V17_main_arg5 m outs c),
        (h (Proc.devRef .tc main_arg6) (Finset.mem_filter.mpr ⟨StableHlo.devRef_mem_tcRefs main_arg6, by decide⟩)).trans (V17_main_arg6 m outs c),
        (h (Proc.devRef .tc main_arg7) (Finset.mem_filter.mpr ⟨StableHlo.devRef_mem_tcRefs main_arg7, by decide⟩)).trans (V17_main_arg7 m outs c),
        (h (Proc.devRef .tc main_arg8) (Finset.mem_filter.mpr ⟨StableHlo.devRef_mem_tcRefs main_arg8, by decide⟩)).trans (V17_main_arg8 m outs c),
        (h (Proc.devRef .tc main_arg9) (Finset.mem_filter.mpr ⟨StableHlo.devRef_mem_tcRefs main_arg9, by decide⟩)).trans (V17_main_arg9 m outs c)⟩
    · iexact HSI

end Cert.KernelIdeal.Hand

end
-- ==== Proof.KernelIdeal.Run.lean ====
/-
  The whole program's run from its three pallas_calls. Each region's proof data is taken at the buffer contents the
  region is entered from: the launch contents carried through the host stretches before it and through what the
  earlier regions left. What a region leaves in its result array is the pipeline's last write-back of that array;
  `OutsOk` says that the contents named `outs` are those, region by region. Under it each region is a segment
  from the valuation before it to the one after it, the program runs to the end, the result buffer ends at the last
  valuation and every argument array ends as launched.
-/
import proofs.«407136_j58394375357022_3_alg».proof.Proof.KernelIdeal.Body0
import proofs.«407136_j58394375357022_3_alg».proof.Proof.KernelIdeal.Body1
import proofs.«407136_j58394375357022_3_alg».proof.Proof.KernelIdeal.Body2
import proofs.«407136_j58394375357022_3_alg».proof.Proof.KernelIdeal.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-! ## The buffers' contents at each region's entry and exit, read at the TensorCore's references -/

abbrev VE0 : (c : Dev nD) → (b : Ref sig .tc) → Buf (Elt F) ((c : Thread nD τ).loc b) := fun c b => V5 m c b
abbrev VX0 : (c : Dev nD) → (b : Ref sig .tc) → Buf (Elt F) ((c : Thread nD τ).loc b) := fun c b => V6 m outs c b
abbrev VE1 : (c : Dev nD) → (b : Ref sig .tc) → Buf (Elt F) ((c : Thread nD τ).loc b) := fun c b => V11 m outs c b
abbrev VX1 : (c : Dev nD) → (b : Ref sig .tc) → Buf (Elt F) ((c : Thread nD τ).loc b) := fun c b => V12 m outs c b
abbrev VE2 : (c : Dev nD) → (b : Ref sig .tc) → Buf (Elt F) ((c : Thread nD τ).loc b) := fun c b => V15 m outs c b
abbrev VX2 : (c : Dev nD) → (b : Ref sig .tc) → Buf (Elt F) ((c : Thread nD τ).loc b) := fun c b => V16 m outs c b

/-- What the regions leave is what their pipelines write back: each region's result array, after the region, is the
    array its proof data computes from the contents the region was entered from. -/
structure OutsOk : Prop where
  h0 : ∀ c, outs 6 main_v5 c = (dat0 (VE0 m) c).arrAt 3 cfg0.N
  h1 : ∀ c, outs 12 main_v11 c = (dat1 (VE1 m outs) c).arrAt 4 cfg1.N
  h2 : ∀ c, outs 16 main_v16 c = (dat2 (VE2 m outs) c).arrAt 3 cfg2.N

/-- Every pipeline's proof data, each at its region's entry contents. -/
def pdats : (p : Fin 3) → (c : Dev nD) → Dat τ (Elt F) Unit ℕ (UR sig nD τ) ℕ (cfgs p) c
  | ⟨0, _⟩ => fun c => dat0 (VE0 m) c
  | ⟨1, _⟩ => fun c => dat1 (VE1 m outs) c
  | ⟨2, _⟩ => fun c => dat2 (VE2 m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)

/-- At region 0's exit each of its arrays holds what the pipeline leaves: an input array what it held at entry (no
    window writes it back), the result array what `outs` names, which is the pipeline's last write-back. -/
theorem hF0 (hO : OutsOk m outs) (c : Dev nD) (w : Fin cfg0.W) :
    (pdats m outs 0 c).arrAt w cfg0.N = VX0 m outs c (Pipeline.arrRef spec0 w) := by
  match w with
  | ⟨0, _⟩ => exact ((dat0 (VE0 m) c).arrAt_in 0 rfl _).trans ((A_eq0 (VE0 m) c 0).trans (V6_of m outs c _ (by decide)).symm)
  | ⟨1, _⟩ => exact ((dat0 (VE0 m) c).arrAt_in 1 rfl _).trans ((A_eq0 (VE0 m) c 1).trans (V6_of m outs c _ (by decide)).symm)
  | ⟨2, _⟩ => exact ((dat0 (VE0 m) c).arrAt_in 2 rfl _).trans ((A_eq0 (VE0 m) c 2).trans (V6_of m outs c _ (by decide)).symm)
  | ⟨3, _⟩ =>
    show (dat0 (VE0 m) c).arrAt 3 cfg0.N = Function.update (V5 m c) (Proc.devRef .tc main_v5) (outs 6 main_v5 c) (Proc.devRef .tc main_v5)
    rw [Function.update_self]; exact (hO.h0 c).symm
/-- and every other buffer what it held at entry. -/
theorem hrest0 (c : Dev nD) : ∀ b, b ∉ Finset.univ.image (Pipeline.arrRef spec0) → VX0 m outs c b = VE0 m c b :=
  fun b hb => V6_of m outs c b fun h => hb (by
    rw [List.mem_singleton] at h; subst h
    exact Finset.mem_image.mpr ⟨3, Finset.mem_univ _, rfl⟩)

set_option backward.isDefEq.respectTransparency.types false in
/-- REGION 0 over the thread state: entered from every unscoped buffer at `V5`, left at `V6`. Its arrays are
    split out of the unscoped buffers and put back at the exit contents; the generator register goes into the
    pipeline's invariant and comes out; nothing is owed; the kernel has no semaphore of its own. -/
def reg0 (hO : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (VE0 m c) (VX0 m outs c) ((pdats m outs 0 c).arrAt · cfg0.N) (hF0 m outs hO c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: an input array what it held at entry (no
    window writes it back), the result array what `outs` names, which is the pipeline's last write-back. -/
theorem hF1 (hO : OutsOk m outs) (c : Dev nD) (w : Fin cfg1.W) :
    (pdats m outs 1 c).arrAt w cfg1.N = VX1 m outs c (Pipeline.arrRef spec1 w) := by
  match w with
  | ⟨0, _⟩ => exact ((dat1 (VE1 m outs) c).arrAt_in 0 rfl _).trans ((A_eq1 (VE1 m outs) c 0).trans (V12_of m outs c _ (by decide)).symm)
  | ⟨1, _⟩ => exact ((dat1 (VE1 m outs) c).arrAt_in 1 rfl _).trans ((A_eq1 (VE1 m outs) c 1).trans (V12_of m outs c _ (by decide)).symm)
  | ⟨2, _⟩ => exact ((dat1 (VE1 m outs) c).arrAt_in 2 rfl _).trans ((A_eq1 (VE1 m outs) c 2).trans (V12_of m outs c _ (by decide)).symm)
  | ⟨3, _⟩ => exact ((dat1 (VE1 m outs) c).arrAt_in 3 rfl _).trans ((A_eq1 (VE1 m outs) c 3).trans (V12_of m outs c _ (by decide)).symm)
  | ⟨4, _⟩ =>
    show (dat1 (VE1 m outs) c).arrAt 4 cfg1.N = Function.update (V11 m outs c) (Proc.devRef .tc main_v11) (outs 12 main_v11 c) (Proc.devRef .tc main_v11)
    rw [Function.update_self]; exact (hO.h1 c).symm
/-- and every other buffer what it held at entry. -/
theorem hrest1 (c : Dev nD) : ∀ b, b ∉ Finset.univ.image (Pipeline.arrRef spec1) → VX1 m outs c b = VE1 m outs c b :=
  fun b hb => V12_of m outs c b fun h => hb (by
    rw [List.mem_singleton] at h; subst h
    exact Finset.mem_image.mpr ⟨4, Finset.mem_univ _, rfl⟩)

set_option backward.isDefEq.respectTransparency.types false in
/-- REGION 1 over the thread state: entered from every unscoped buffer at `V11`, left at `V12`. Its arrays are
    split out of the unscoped buffers and put back at the exit contents; the generator register goes into the
    pipeline's invariant and comes out; nothing is owed; the kernel has no semaphore of its own. -/
def reg1 (hO : OutsOk m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m outs) c).loose
  hwaits := Pipeline.hwaits_of_owed_zero _ _ _ _ L lv 1 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec1 c (VE1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (VE1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (VE1 m outs c) (VX1 m outs c) ((pdats m outs 1 c).arrAt · cfg1.N) (hF1 m outs hO c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves: an input array what it held at entry (no
    window writes it back), the result array what `outs` names, which is the pipeline's last write-back. -/
theorem hF2 (hO : OutsOk m outs) (c : Dev nD) (w : Fin cfg2.W) :
    (pdats m outs 2 c).arrAt w cfg2.N = VX2 m outs c (Pipeline.arrRef spec2 w) := by
  match w with
  | ⟨0, _⟩ => exact ((dat2 (VE2 m outs) c).arrAt_in 0 rfl _).trans ((A_eq2 (VE2 m outs) c 0).trans (V16_of m outs c _ (by decide)).symm)
  | ⟨1, _⟩ => exact ((dat2 (VE2 m outs) c).arrAt_in 1 rfl _).trans ((A_eq2 (VE2 m outs) c 1).trans (V16_of m outs c _ (by decide)).symm)
  | ⟨2, _⟩ => exact ((dat2 (VE2 m outs) c).arrAt_in 2 rfl _).trans ((A_eq2 (VE2 m outs) c 2).trans (V16_of m outs c _ (by decide)).symm)
  | ⟨3, _⟩ =>
    show (dat2 (VE2 m outs) c).arrAt 3 cfg2.N = Function.update (V15 m outs c) (Proc.devRef .tc main_v16) (outs 16 main_v16 c) (Proc.devRef .tc main_v16)
    rw [Function.update_self]; exact (hO.h2 c).symm
/-- and every other buffer what it held at entry. -/
theorem hrest2 (c : Dev nD) : ∀ b, b ∉ Finset.univ.image (Pipeline.arrRef spec2) → VX2 m outs c b = VE2 m outs c b :=
  fun b hb => V16_of m outs c b fun h => hb (by
    rw [List.mem_singleton] at h; subst h
    exact Finset.mem_image.mpr ⟨3, Finset.mem_univ _, rfl⟩)

set_option backward.isDefEq.respectTransparency.types false in
/-- REGION 2 over the thread state: entered from every unscoped buffer at `V15`, left at `V16`. Its arrays are
    split out of the unscoped buffers and put back at the exit contents; the generator register goes into the
    pipeline's invariant and comes out; nothing is owed; the kernel has no semaphore of its own. -/
def reg2 (hO : OutsOk m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m outs) c).loose
  hwaits := Pipeline.hwaits_of_owed_zero _ _ _ _ L lv 2 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec2 c (VE2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (VE2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (VE2 m outs c) (VX2 m outs c) ((pdats m outs 2 c).arrAt · cfg2.N) (hF2 m outs hO c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN. From any memory with zero counters, every weakly fair execution of @main terminates, the result buffer
    ends at the last valuation and every argument array as launched: the run from the regions' records at the
    launch's own algebra, no level assigned, nothing owed at launch, the generator register and the core's dues
    riding beside the buffers through every segment. -/
theorem run_main (hO : OutsOk m outs) :
    θ_run defs (onTc (τ := τ) (main (F := F))) ⟨m, fun _ => 0, ρ⟩ (fun r => ∀ c : Dev nD,
      r.2.mem ((c.tc : Thread nD τ).loc main_v18) = V17 m outs c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_cond m (Ix := Unit) (U := UR sig nD τ) (Lvl := ℕ) emb₁ () 𝒱₀ L lv (fun _ _ => rfl) ρ outs (pdats m outs) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, H⟩; iexact H)
    (reg0 m outs hO) (fun c => .rfl) (fun c => .rfl)
    (reg1 m outs hO) (fun c => .rfl) (fun c => .rfl)
    (reg2 m outs hO) (fun c => .rfl) (fun c => .rfl)

end Cert.KernelIdeal.Hand

end
-- ==== Proof.KernelIdeal.Outs.lean ====
/-
  Contents for the regions' result arrays exist. What region 0 leaves is computed from the launch contents alone;
  what region 1 leaves from the contents it is entered from, which read, of the regions' results, only region 0's;
  what region 2 leaves from contents that read only the first two. So the three are defined one after another, each
  from the valuations the earlier ones fix, and a valuation is unchanged when the contents it never reads change.
-/
import proofs.«407136_j58394375357022_3_alg».proof.Proof.KernelIdeal.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Region 1 is entered from contents that read, of `outs`, only region 0's result. -/
theorem V11_congr (o o' : Outs (F := F)) (h : ∀ c, o 6 main_v5 c = o' 6 main_v5 c) (c : Dev nD) : V11 m o c = V11 m o' c := by
  show StableHlo.after hostOps1_4 (StableHlo.after hostOps1_3 (StableHlo.after hostOps1_2 (StableHlo.after hostOps1_1 (StableHlo.after hostOps1
    (Function.update (V5 m c) (Proc.devRef .tc main_v5) (o 6 main_v5 c)))))) = _
  rw [h c]

/-- Region 2 is entered from contents that read only the first two regions' results. -/
theorem V15_congr (o o' : Outs (F := F)) (h : ∀ c, o 6 main_v5 c = o' 6 main_v5 c) (h' : ∀ c, o 12 main_v11 c = o' 12 main_v11 c)
    (c : Dev nD) : V15 m o c = V15 m o' c := by
  show StableHlo.after hostOps2_2 (StableHlo.after hostOps2_1 (StableHlo.after hostOps2
    (Function.update (V11 m o c) (Proc.devRef .tc main_v11) (o 12 main_v11 c)))) = _
  rw [h' c, V11_congr m o o' h c]

/-- Region 0's result named, every other buffer at its launch contents. -/
def outsA : Outs (F := F) := fun _ r c =>
  if h : r = main_v5 then h ▸ (show Buf (Elt F) ((c : Thread nD τ).loc main_v5) from (dat0 (VE0 m) c).arrAt 3 cfg0.N)
  else m ((c : Thread nD τ).loc r)

theorem outsA_v5 (J : ℕ) (c : Dev nD) : outsA m J main_v5 c = (dat0 (VE0 m) c).arrAt 3 cfg0.N := by
  unfold outsA; rw [dif_pos rfl]

/-- Region 1's result named too. -/
def outsB : Outs (F := F) := fun J r c =>
  if h : r = main_v11 then h ▸ (show Buf (Elt F) ((c : Thread nD τ).loc main_v11) from (dat1 (VE1 m (outsA m)) c).arrAt 4 cfg1.N)
  else outsA m J r c

theorem outsB_v5 (J : ℕ) (c : Dev nD) : outsB m J main_v5 c = (dat0 (VE0 m) c).arrAt 3 cfg0.N := by
  unfold outsB; rw [dif_neg (by decide)]; exact outsA_v5 m J c
theorem outsB_v11 (J : ℕ) (c : Dev nD) : outsB m J main_v11 c = (dat1 (VE1 m (outsA m)) c).arrAt 4 cfg1.N := by
  unfold outsB; rw [dif_pos rfl]

/-- All three regions' results named. -/
def outsC : Outs (F := F) := fun J r c =>
  if h : r = main_v16 then h ▸ (show Buf (Elt F) ((c : Thread nD τ).loc main_v16) from (dat2 (VE2 m (outsB m)) c).arrAt 3 cfg2.N)
  else outsB m J r c

theorem outsC_v5 (J : ℕ) (c : Dev nD) : outsC m J main_v5 c = (dat0 (VE0 m) c).arrAt 3 cfg0.N := by
  unfold outsC; rw [dif_neg (by decide)]; exact outsB_v5 m J c
theorem outsC_v11 (J : ℕ) (c : Dev nD) : outsC m J main_v11 c = (dat1 (VE1 m (outsA m)) c).arrAt 4 cfg1.N := by
  unfold outsC; rw [dif_neg (by decide)]; exact outsB_v11 m J c
theorem outsC_v16 (J : ℕ) (c : Dev nD) : outsC m J main_v16 c = (dat2 (VE2 m (outsB m)) c).arrAt 3 cfg2.N := by
  unfold outsC; rw [dif_pos rfl]

/-- The contents so defined are what the regions' pipelines write back. -/
theorem outsC_ok : OutsOk m (outsC m) where
  h0 c := outsC_v5 m 6 c
  h1 c := by
    rw [outsC_v11]
    have e : VE1 m (outsA m) = VE1 m (outsC m) := by
      funext c b
      exact congrFun (V11_congr m (outsA m) (outsC m) (fun c => (outsA_v5 m 6 c).trans (outsC_v5 m 6 c).symm) c) (Proc.devRef .tc b)
    rw [e]
  h2 c := by
    rw [outsC_v16]
    have e : VE2 m (outsB m) = VE2 m (outsC m) := by
      funext c b
      exact congrFun (V15_congr m (outsB m) (outsC m) (fun c => (outsB_v5 m 6 c).trans (outsC_v5 m 6 c).symm)
        (fun c => (outsB_v11 m 12 c).trans (outsC_v11 m 12 c).symm) c) (Proc.devRef .tc b)
    rw [e]

end Cert.KernelIdeal.Hand

end
-- ==== Proof.KernelIdeal.Val0.lean ====
/-
  The first pallas_call (the categorical rows), read as a VALUE on the extended reals: where the two ids of row `r` are
  in range, row `r` of the output array is the row of the stack of tables that the pair (type id, value id) names.

  One grid point takes a block of 4096 type ids, 4096 value ids and the whole stack of four 1000 × 128 tables. It forms
  the 4096 × 1000 matrix whose entry (r, v) is 1 where value id r equals v and 0 elsewhere, clears the output block, and
  for each table t adds the product of that matrix with table t, each row scaled by 1 where type id r equals t and by 0
  elsewhere. So entry (r, k) of the block is  ∑ₜ [type r = t] · ∑ᵥ [value r = v] · table t v k  (`catSum`). On the extended
  reals `0 · x = 0`, `1 · x = x` and `0 + x = x` hold for every `x`, so no finiteness is asked: with the type id below 4
  and the value id below 1000 the outer sum keeps the one type the row names, the inner sum the one table row its value id
  names (`catSum_of_lt`); an id out of range would leave 0, which is why the two ranges are hypotheses.

  In order: the body's five whole-block stores leave the last one's payload, each load of the block in between reading
  the store before it (`out0_3_eq`); each payload at an index — comparisons, the widened and converted bit, the column
  and row broadcasts, the matrix product as a sum over the contracted axis (`catBlk4_apply`); every point writes back its
  block of ONE function `catArr` of the arrays the region finds (`flushed0_eq`: a block's coordinate is the block index
  times the block size plus the coordinate inside the block), the blocks cover the array (the point that covers row r is
  r / 4096), so the array ends at `catArr` (`arr0_eq`), read at a row whose ids are in range (`arr0_apply`).
-/
import proofs.«407136_j58394375357022_3_alg».proof.Proof.Gen.KernelIdeal.Launch
import proofs.«407136_j58394375357022_3_alg».proof.Proof.Gen.KernelIdeal.Skeleton
import proofs.«407136_j58394375357022_3_alg».proof.Proof.Gen.KernelIdeal.Points
import proofs.«407136_j58394375357022_3_alg».proof.Proof.KernelIdeal.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The output block as a term of the input blocks -/

theorem hz_cat : (![0, 0] : Fin 2 → Nat) = fun _ => 0 := funext fun a => by fin_cases a <;> rfl

/-- A load through the whole-shape rectangle at zero offsets of what a list of stores left, the LAST of them through
    that rectangle, reads the last store's payload whatever the earlier stores were. -/
theorem readCov_cons_unit0 {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- Table `t` of the stack, as the body loads it: a `1 × 1000 × 128` slab. -/
def catSlab0 (x2 : Vec F S4x1000x128 .bf16) : Vec F S1x1000x128 .bf16 :=
  View.ld x2 (Rect.unit (s := S4x1000x128) ![0, 0, 0] S1x1000x128.size inb_S4x1000x128_S1x1000x128_0_0_0)
def catSlab1 (x2 : Vec F S4x1000x128 .bf16) : Vec F S1x1000x128 .bf16 :=
  View.ld x2 (Rect.unit (s := S4x1000x128) ![1, 0, 0] S1x1000x128.size inb_S4x1000x128_S1x1000x128_1_0_0)
def catSlab2 (x2 : Vec F S4x1000x128 .bf16) : Vec F S1x1000x128 .bf16 :=
  View.ld x2 (Rect.unit (s := S4x1000x128) ![2, 0, 0] S1x1000x128.size inb_S4x1000x128_S1x1000x128_2_0_0)
def catSlab3 (x2 : Vec F S4x1000x128 .bf16) : Vec F S1x1000x128 .bf16 :=
  View.ld x2 (Rect.unit (s := S4x1000x128) ![3, 0, 0] S1x1000x128.size inb_S4x1000x128_S1x1000x128_3_0_0)

/-- The block after the store of table 0's term: the cleared block plus the masked product with table 0. -/
def catBlk1 (x0 x1 : Vec F S4096x1 .i32) (x2 : Vec F S4x1000x128 .bf16) : Vec F S4096x128 .f32 :=
  k0_pay4 x1 (catSlab0 x2) x0 k0_pay3
/-- After table 1's. -/
def catBlk2 (x0 x1 : Vec F S4096x1 .i32) (x2 : Vec F S4x1000x128 .bf16) : Vec F S4096x128 .f32 :=
  k0_pay7 (k0_pay5 x1 (catSlab1 x2)) (k0_pay6 x0) (catBlk1 x0 x1 x2)
/-- After table 2's. -/
def catBlk3 (x0 x1 : Vec F S4096x1 .i32) (x2 : Vec F S4x1000x128 .bf16) : Vec F S4096x128 .f32 :=
  k0_pay8 (k0_pay2 x1) (catSlab2 x2) x0 (catBlk2 x0 x1 x2)
/-- After table 3's: what the body leaves. -/
def catBlk4 (x0 x1 : Vec F S4096x1 .i32) (x2 : Vec F S4x1000x128 .bf16) : Vec F S4096x128 .f32 :=
  k0_pay1 (k0_pay9 (k0_pay2 x1) (catSlab3 x2)) (k0_pay10 (catBlk3 x0 x1 x2)) (k0_pay11 x0)

set_option maxHeartbeats 1600000 in
/-- The body's five whole-block stores leave the last one's payload, each load of the block in between reading the
    store before it. -/
theorem out0_3_eq (c : Dev nD) (i : grid0.Coords)
    (arg1 : Memref sig .tc .vmem S4096x1 .i32) (harg1 : arg1.IsWhole) (arg2 : Memref sig .tc .vmem S4096x1 .i32) (harg2 : arg2.IsWhole) (arg3 : Memref sig .tc .vmem S4x1000x128 .bf16) (harg3 : arg3.IsWhole) (arg4 : Memref sig .tc .vmem S4096x128 .f32) (harg4 : arg4.IsWhole)
    (x0 : Vec F S4096x1 .i32) (x1 : Vec F S4096x1 .i32) (x2 : Vec F S4x1000x128 .bf16) :
    out0_3 c i arg1 harg1 arg2 harg2 arg3 harg3 arg4 harg4 x0 x1 x2 = catBlk4 x0 x1 x2 := by
  unfold out0_3
  rw [View.read_writes_eq_canon _ _ _ (cover0_3 c i arg1 harg1 arg2 harg2 arg3 harg3 arg4 harg4 x0 x1 x2)]
  unfold kernelRun0
  dsimp only
  sl_unfold_words
  rw [View.canon_cons_unit_zero (S := S4096x128) hz_cat]
  simp only [readCov_cons_unit0 (S := S4096x128) _ hz_cat, View.readCov_unit_zero (S := S4096x128) _ hz_cat,
    View.readAt_eq_ld, harg1.read_unread, harg2.read_unread, harg3.read_unread, View.ld_unit_zero (S := S4096x1) hz_cat]
  rfl

/-! ## The payloads at an index, on the extended reals -/

/-- `1` where two words are equal, `0` elsewhere. -/
def ind0 (a b : BitVec 32) : EReal := if a = b then 1 else 0

theorem bit_toInt0 : ∀ b : BitVec 1, ((b.setWidth 32).toInt : ℤ) = if b = 1#1 then 1 else 0 := by decide

/-- A comparison's bit, widened to a word and converted, is `1` where the words are equal and `0` elsewhere. -/
theorem cmp_val0 (a b : BitVec 32) : ((((IntOp.cmpi .eq a b).setWidth 32).toInt : ℝ) : EReal) = ind0 a b := by
  rw [bit_toInt0]
  unfold ind0
  by_cases h : a = b
  · rw [if_pos (StableHlo.Predicate.cmpi_eq_iff.mpr h), if_pos h]; norm_num
  · rw [if_neg (fun hc => h (StableHlo.Predicate.cmpi_eq_iff.mp hc)), if_neg h]; norm_num

/-- A column `[a, 1]` broadcast to `[a, b]` reads, at `(p, c)`, the column at `p`. -/
theorem broadcastTo_a1_ab_apply0 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The one-hot matrix: entry `(r, v)` is `1` where value id `r` is `v`. -/
theorem cat_pay2_apply (x1 : Vec Ideal S4096x1 .i32) (r : Fin 4096) (v : Fin 1000) :
    k0_pay2 (F := Ideal) x1 (ix2 r v) = ind0 (x1 (ix2 r 0)) (BitVec.ofNat 32 v.val) := by
  unfold k0_pay2
  show ((((IntOp.cmpi .eq
      (broadcastTo S4096x1000 (shapeCast S4096x1 x1 shapeCasts_S4096x1_S4096x1) broadcasts_S4096x1_S4096x1000 (ix2 r v))
      (broadcastTo S4096x1000 (iota .tc S1x1000 32 [1] iota_S1x1000_d1_w32) broadcasts_S1x1000_S4096x1000 (ix2 r v))).setWidth 32).toInt : ℝ) : EReal) = _
  rw [broadcastTo_a1_ab_apply0, broadcastTo_1b_ab_apply, iota_single_apply, shapeCast_self]
  exact cmp_val0 _ _

/-- A type id's mask column broadcast along the row. -/
theorem cat_maskcol_apply (x0 : Vec Ideal S4096x1 .i32) (w : BitVec 32) (r : Fin 4096) (k : Fin 128) :
    broadcastTo S4096x128 (sitofp (F := Ideal) .f32 (extui 32 (cmpi .eq (shapeCast S4096x1 x0 shapeCasts_S4096x1_S4096x1) (broadcast S4096x1 w)) natLt_1_32))
      broadcasts_S4096x1_S4096x128 (ix2 r k) = ind0 (x0 (ix2 r 0)) w := by
  rw [broadcastTo_a1_ab_apply0]
  show ((((IntOp.cmpi .eq (shapeCast S4096x1 x0 shapeCasts_S4096x1_S4096x1 (ix2 r (0 : Fin 1))) w).setWidth 32).toInt : ℝ) : EReal) = _
  rw [shapeCast_self]
  exact cmp_val0 _ _

/-! ### The matrix product -/

theorem lhs0_0 (i : S4096x128.Idx) (q : dot_S4096x1000_S1000x128_S4096x128_1_0_0_1_n_n.contr.Idx) :
    (dot_S4096x1000_S1000x128_S4096x128_1_0_0_1_n_n.lhsIdx i q 0).val = (i 0).val := by
  unfold DotDims.lhsIdx
  rw [dif_neg (show ¬(0 : Fin S4096x1000.rank) ∈ dot_S4096x1000_S1000x128_S4096x128_1_0_0_1_n_n.lhsBatch by decide), dif_pos (show (0 : Fin S4096x1000.rank) ∈ dot_S4096x1000_S1000x128_S4096x128_1_0_0_1_n_n.lhsNonContracting by decide)]
  rfl
theorem lhs0_1 (i : S4096x128.Idx) (q : dot_S4096x1000_S1000x128_S4096x128_1_0_0_1_n_n.contr.Idx) :
    (dot_S4096x1000_S1000x128_S4096x128_1_0_0_1_n_n.lhsIdx i q 1).val = (q ⟨0, by decide⟩).val :=
  dot_S4096x1000_S1000x128_S4096x128_1_0_0_1_n_n.lhsIdx_val_of_single rfl i q
theorem rhs0_0 (i : S4096x128.Idx) (q : dot_S4096x1000_S1000x128_S4096x128_1_0_0_1_n_n.contr.Idx) :
    (dot_S4096x1000_S1000x128_S4096x128_1_0_0_1_n_n.rhsIdx i q 0).val = (q ⟨0, by decide⟩).val :=
  dot_S4096x1000_S1000x128_S4096x128_1_0_0_1_n_n.rhsIdx_val_of_single rfl i q
theorem rhs0_1 (i : S4096x128.Idx) (q : dot_S4096x1000_S1000x128_S4096x128_1_0_0_1_n_n.contr.Idx) :
    (dot_S4096x1000_S1000x128_S4096x128_1_0_0_1_n_n.rhsIdx i q 1).val = (i 1).val := by
  unfold DotDims.rhsIdx
  rw [dif_neg (show ¬(1 : Fin S1000x128.rank) ∈ dot_S4096x1000_S1000x128_S4096x128_1_0_0_1_n_n.rhsBatch by decide), dif_pos (show (1 : Fin S1000x128.rank) ∈ dot_S4096x1000_S1000x128_S4096x128_1_0_0_1_n_n.rhsNonContracting by decide)]
  rfl

/-- The matrix unit's product into a zero accumulator, at `(r, k)`: the sum over the contracted axis. -/
theorem matmul0_apply (A : FVec Ideal S4096x1000 .bf16) (B : FVec Ideal S1000x128 .bf16) (r : Fin 4096) (k : Fin 128) :
    FloatOps.matmul dot_S4096x1000_S1000x128_S4096x128_1_0_0_1_n_n none A B (constant (F := Ideal) S4096x128 .f32 0x00000000#32) (ix2 r k)
      = ∑ v : Fin 1000, A (ix2 r v) * B (ix2 v k) := by
  rw [Ideal.matmul_constant_zero_apply, ← Equiv.sum_comp (ValueIdx.contrEquiv1 dot_S4096x1000_S1000x128_S4096x128_1_0_0_1_n_n 1000 rfl rfl).symm]
  refine Finset.sum_congr rfl fun v _ => ?_
  have hk := ValueIdx.contrEquiv1_symm_val dot_S4096x1000_S1000x128_S4096x128_1_0_0_1_n_n 1000 rfl rfl v
  have el : dot_S4096x1000_S1000x128_S4096x128_1_0_0_1_n_n.lhsIdx (ix2 r k) ((ValueIdx.contrEquiv1 dot_S4096x1000_S1000x128_S4096x128_1_0_0_1_n_n 1000 rfl rfl).symm v) = ix2 r v := funext fun a => Fin.ext (by
    match a with
    | ⟨0, _⟩ => exact lhs0_0 _ _
    | ⟨1, _⟩ => exact (lhs0_1 _ _).trans hk)
  have er : dot_S4096x1000_S1000x128_S4096x128_1_0_0_1_n_n.rhsIdx (ix2 r k) ((ValueIdx.contrEquiv1 dot_S4096x1000_S1000x128_S4096x128_1_0_0_1_n_n 1000 rfl rfl).symm v) = ix2 v k := funext fun a => Fin.ext (by
    match a with
    | ⟨0, _⟩ => exact (rhs0_0 _ _).trans hk
    | ⟨1, _⟩ => exact rhs0_1 _ _)
  rw [el, er]

/-- The product with a loaded slab viewed as a `1000 × 128` table. -/
theorem matslab0_apply (A : FVec Ideal S4096x1000 .bf16) (L : FVec Ideal S1x1000x128 .bf16) (r : Fin 4096) (k : Fin 128) :
    FloatOps.matmul dot_S4096x1000_S1000x128_S4096x128_1_0_0_1_n_n none A (shapeCast S1000x128 L shapeCasts_S1x1000x128_S1000x128)
        (constant (F := Ideal) S4096x128 .f32 0x00000000#32) (ix2 r k)
      = ∑ v : Fin 1000, A (ix2 r v) * L (ix3 (0 : Fin 1) v k) := by
  rw [matmul0_apply]
  refine Finset.sum_congr rfl fun v _ => ?_
  rw [shapeCast_1ab_ab_apply]

/-! ### The stores' payloads -/

/-- The cleared block. -/
theorem cat_pay3_apply (r : Fin 4096) (k : Fin 128) : k0_pay3 (F := Ideal) (ix2 r k) = 0 := by
  unfold k0_pay3
  show Ideal.ofBits .f32 0x00000000#32 = 0
  exact Ideal.ofBits_zero_f32

/-- Table 0's term added onto the block. -/
theorem cat_pay4_apply (x1 : Vec Ideal S4096x1 .i32) (L : FVec Ideal S1x1000x128 .bf16) (x0 : Vec Ideal S4096x1 .i32)
    (B : FVec Ideal S4096x128 .f32) (r : Fin 4096) (k : Fin 128) :
    k0_pay4 (F := Ideal) x1 L x0 B (ix2 r k)
      = B (ix2 r k) + ind0 (x0 (ix2 r 0)) 0#32 * ∑ v : Fin 1000, ind0 (x1 (ix2 r 0)) (BitVec.ofNat 32 v.val) * L (ix3 (0 : Fin 1) v k) := by
  unfold k0_pay4
  show shapeCast S4096x128 B shapeCasts_S4096x128_S4096x128 (ix2 r k)
      + broadcastTo S4096x128 (sitofp (F := Ideal) .f32 (extui 32 (cmpi .eq (shapeCast S4096x1 x0 shapeCasts_S4096x1_S4096x1) (broadcast S4096x1 0#32)) natLt_1_32))
          broadcasts_S4096x1_S4096x128 (ix2 r k)
        * FloatOps.matmul dot_S4096x1000_S1000x128_S4096x128_1_0_0_1_n_n none (k0_pay2 (F := Ideal) x1) (shapeCast S1000x128 L shapeCasts_S1x1000x128_S1000x128)
            (constant (F := Ideal) S4096x128 .f32 0x00000000#32) (ix2 r k) = _
  rw [shapeCast_self, cat_maskcol_apply, matslab0_apply]
  simp only [cat_pay2_apply]

/-- Table 1's product. -/
theorem cat_pay5_apply (x1 : Vec Ideal S4096x1 .i32) (L : FVec Ideal S1x1000x128 .bf16) (r : Fin 4096) (k : Fin 128) :
    k0_pay5 (F := Ideal) x1 L (ix2 r k) = ∑ v : Fin 1000, ind0 (x1 (ix2 r 0)) (BitVec.ofNat 32 v.val) * L (ix3 (0 : Fin 1) v k) := by
  unfold k0_pay5
  show FloatOps.matmul dot_S4096x1000_S1000x128_S4096x128_1_0_0_1_n_n none (k0_pay2 (F := Ideal) x1) (shapeCast S1000x128 L shapeCasts_S1x1000x128_S1000x128)
      (constant (F := Ideal) S4096x128 .f32 0x00000000#32) (ix2 r k) = _
  rw [matslab0_apply]
  simp only [cat_pay2_apply]

/-- Table 1's term added onto the block; the mask word arrives already widened. -/
theorem cat_pay7_apply (v28 : FVec Ideal S4096x128 .f32) (x0 : Vec Ideal S4096x1 .i32) (B : FVec Ideal S4096x128 .f32)
    (r : Fin 4096) (k : Fin 128) :
    k0_pay7 (F := Ideal) v28 (k0_pay6 (F := Ideal) x0) B (ix2 r k) = B (ix2 r k) + ind0 (x0 (ix2 r 0)) 1#32 * v28 (ix2 r k) := by
  unfold k0_pay7 k0_pay6
  show shapeCast S4096x128 B shapeCasts_S4096x128_S4096x128 (ix2 r k)
      + broadcastTo S4096x128 (sitofp (F := Ideal) .f32 (extui 32 (cmpi .eq (shapeCast S4096x1 x0 shapeCasts_S4096x1_S4096x1) (broadcast S4096x1 1#32)) natLt_1_32))
          broadcasts_S4096x1_S4096x128 (ix2 r k)
        * v28 (ix2 r k) = _
  rw [shapeCast_self, cat_maskcol_apply]

/-- Table 2's term added onto the block. -/
theorem cat_pay8_apply (v8 : FVec Ideal S4096x1000 .bf16) (L : FVec Ideal S1x1000x128 .bf16) (x0 : Vec Ideal S4096x1 .i32)
    (B : FVec Ideal S4096x128 .f32) (r : Fin 4096) (k : Fin 128) :
    k0_pay8 (F := Ideal) v8 L x0 B (ix2 r k)
      = B (ix2 r k) + ind0 (x0 (ix2 r 0)) 2#32 * ∑ v : Fin 1000, v8 (ix2 r v) * L (ix3 (0 : Fin 1) v k) := by
  unfold k0_pay8
  show shapeCast S4096x128 B shapeCasts_S4096x128_S4096x128 (ix2 r k)
      + broadcastTo S4096x128 (sitofp (F := Ideal) .f32 (extui 32 (cmpi .eq (shapeCast S4096x1 x0 shapeCasts_S4096x1_S4096x1) (broadcast S4096x1 2#32)) natLt_1_32))
          broadcasts_S4096x1_S4096x128 (ix2 r k)
        * FloatOps.matmul dot_S4096x1000_S1000x128_S4096x128_1_0_0_1_n_n none v8 (shapeCast S1000x128 L shapeCasts_S1x1000x128_S1000x128)
            (constant (F := Ideal) S4096x128 .f32 0x00000000#32) (ix2 r k) = _
  rw [shapeCast_self, cat_maskcol_apply, matslab0_apply]

/-- Table 3's product. -/
theorem cat_pay9_apply (v8 : FVec Ideal S4096x1000 .bf16) (L : FVec Ideal S1x1000x128 .bf16) (r : Fin 4096) (k : Fin 128) :
    k0_pay9 (F := Ideal) v8 L (ix2 r k) = ∑ v : Fin 1000, v8 (ix2 r v) * L (ix3 (0 : Fin 1) v k) := by
  unfold k0_pay9
  show FloatOps.matmul dot_S4096x1000_S1000x128_S4096x128_1_0_0_1_n_n none v8 (shapeCast S1000x128 L shapeCasts_S1x1000x128_S1000x128)
      (constant (F := Ideal) S4096x128 .f32 0x00000000#32) (ix2 r k) = _
  rw [matslab0_apply]

/-- The block read back. -/
theorem cat_pay10_eq (B : FVec Ideal S4096x128 .f32) : k0_pay10 (F := Ideal) B = B := by
  unfold k0_pay10
  exact shapeCast_self _ _

/-- Type 3's mask broadcast along the row. -/
theorem cat_pay11_apply (x0 : Vec Ideal S4096x1 .i32) (r : Fin 4096) (k : Fin 128) :
    k0_pay11 (F := Ideal) x0 (ix2 r k) = ind0 (x0 (ix2 r 0)) 3#32 := by
  unfold k0_pay11
  exact cat_maskcol_apply x0 3#32 r k

/-- Table 3's term added onto the block. -/
theorem cat_pay1_apply (v58 v66 v67 : FVec Ideal S4096x128 .f32) (r : Fin 4096) (k : Fin 128) :
    k0_pay1 (F := Ideal) v58 v66 v67 (ix2 r k) = v66 (ix2 r k) + v67 (ix2 r k) * v58 (ix2 r k) := by
  unfold k0_pay1
  rfl

/-- A slab's entry is the stack's at its table. -/
theorem catSlab0_apply (x2 : Vec Ideal S4x1000x128 .bf16) (v : Fin 1000) (k : Fin 128) :
    catSlab0 (F := Ideal) x2 (ix3 (0 : Fin 1) v k) = x2 (ix3 (0 : Fin 4) v k) := by
  unfold catSlab0
  show x2 _ = x2 _
  refine congrArg x2 (funext fun a => Fin.ext ?_)
  match a with
  | ⟨0, _⟩ => rfl
  | ⟨1, _⟩ => show 0 + 1 * v.val = v.val; omega
  | ⟨2, _⟩ => show 0 + 1 * k.val = k.val; omega
theorem catSlab1_apply (x2 : Vec Ideal S4x1000x128 .bf16) (v : Fin 1000) (k : Fin 128) :
    catSlab1 (F := Ideal) x2 (ix3 (0 : Fin 1) v k) = x2 (ix3 (1 : Fin 4) v k) := by
  unfold catSlab1
  show x2 _ = x2 _
  refine congrArg x2 (funext fun a => Fin.ext ?_)
  match a with
  | ⟨0, _⟩ => rfl
  | ⟨1, _⟩ => show 0 + 1 * v.val = v.val; omega
  | ⟨2, _⟩ => show 0 + 1 * k.val = k.val; omega
theorem catSlab2_apply (x2 : Vec Ideal S4x1000x128 .bf16) (v : Fin 1000) (k : Fin 128) :
    catSlab2 (F := Ideal) x2 (ix3 (0 : Fin 1) v k) = x2 (ix3 (2 : Fin 4) v k) := by
  unfold catSlab2
  show x2 _ = x2 _
  refine congrArg x2 (funext fun a => Fin.ext ?_)
  match a with
  | ⟨0, _⟩ => rfl
  | ⟨1, _⟩ => show 0 + 1 * v.val = v.val; omega
  | ⟨2, _⟩ => show 0 + 1 * k.val = k.val; omega
theorem catSlab3_apply (x2 : Vec Ideal S4x1000x128 .bf16) (v : Fin 1000) (k : Fin 128) :
    catSlab3 (F := Ideal) x2 (ix3 (0 : Fin 1) v k) = x2 (ix3 (3 : Fin 4) v k) := by
  unfold catSlab3
  show x2 _ = x2 _
  refine congrArg x2 (funext fun a => Fin.ext ?_)
  match a with
  | ⟨0, _⟩ => rfl
  | ⟨1, _⟩ => show 0 + 1 * v.val = v.val; omega
  | ⟨2, _⟩ => show 0 + 1 * k.val = k.val; omega

/-- The masked sum over the four tables of the one-hot row times the table's column: what a row of the block is, as a
    function of the row's two ids (`ty`, `vl`) and of the tables' entries in the column (`f t v`). -/
def catSum (ty vl : BitVec 32) (f : Fin 4 → Fin 1000 → EReal) : EReal :=
  0 + ind0 ty 0#32 * (∑ v : Fin 1000, ind0 vl (BitVec.ofNat 32 v.val) * f 0 v)
    + ind0 ty 1#32 * (∑ v : Fin 1000, ind0 vl (BitVec.ofNat 32 v.val) * f 1 v)
    + ind0 ty 2#32 * (∑ v : Fin 1000, ind0 vl (BitVec.ofNat 32 v.val) * f 2 v)
    + ind0 ty 3#32 * (∑ v : Fin 1000, ind0 vl (BitVec.ofNat 32 v.val) * f 3 v)

/-- WHAT THE BODY LEAVES, at `(r, k)`: the masked sum at row `r`'s ids over column `k` of the tables. -/
theorem catBlk4_apply (x0 x1 : Vec Ideal S4096x1 .i32) (x2 : Vec Ideal S4x1000x128 .bf16) (r : Fin 4096) (k : Fin 128) :
    catBlk4 (F := Ideal) x0 x1 x2 (ix2 r k) = catSum (x0 (ix2 r 0)) (x1 (ix2 r 0)) (fun t v => x2 (ix3 t v k)) := by
  unfold catBlk4 catBlk3 catBlk2 catBlk1 catSum
  rw [cat_pay1_apply, cat_pay10_eq, cat_pay11_apply, cat_pay9_apply, cat_pay8_apply, cat_pay7_apply, cat_pay5_apply, cat_pay4_apply, cat_pay3_apply]
  simp only [cat_pay2_apply, catSlab0_apply, catSlab1_apply, catSlab2_apply, catSlab3_apply]

/-- Where both ids are in range the masked sum is ONE entry: the mask over the types keeps the one type the row
    names, the one-hot row the one table row its value id names. An id out of range would leave `0`. -/
theorem catSum_of_lt (ty vl : BitVec 32) (f : Fin 4 → Fin 1000 → EReal) (hT : ty.toNat < 4) (hV : vl.toNat < 1000) :
    catSum ty vl f = f ⟨ty.toNat, hT⟩ ⟨vl.toNat, hV⟩ := by
  have hs : ∀ t : Fin 4, (∑ v : Fin 1000, ind0 vl (BitVec.ofNat 32 v.val) * f t v) = f t ⟨vl.toNat, hV⟩ := fun t => by
    rw [Finset.sum_eq_single (⟨vl.toNat, hV⟩ : Fin 1000)]
    · have e : vl = BitVec.ofNat 32 vl.toNat :=
        BitVec.eq_of_toNat_eq (by rw [BitVec.toNat_ofNat, Nat.mod_eq_of_lt (by omega)])
      unfold ind0
      rw [if_pos e, one_mul]
    · intro v _ hne
      unfold ind0
      rw [if_neg, zero_mul]
      intro h
      apply hne
      apply Fin.ext
      have h' := congrArg BitVec.toNat h
      rw [BitVec.toNat_ofNat] at h'
      have hv := v.isLt
      show v.val = vl.toNat
      omega
    · intro h; exact absurd (Finset.mem_univ _) h
  have hm : ∀ (n : Nat) (hn : n < 4), ind0 ty (BitVec.ofNat 32 n) = if (⟨ty.toNat, hT⟩ : Fin 4) = ⟨n, hn⟩ then 1 else 0 := fun n hn => by
    unfold ind0
    refine if_congr ⟨fun h => Fin.ext ?_, fun h => ?_⟩ rfl rfl
    · have h' := congrArg BitVec.toNat h
      rw [BitVec.toNat_ofNat] at h'
      show ty.toNat = n
      omega
    · have h' : ty.toNat = n := congrArg Fin.val h
      exact BitVec.eq_of_toNat_eq (by rw [BitVec.toNat_ofNat, h', Nat.mod_eq_of_lt (by omega)])
  unfold catSum
  rw [hs 0, hs 1, hs 2, hs 3, hm 0 (by omega), hm 1 (by omega), hm 2 (by omega), hm 3 (by omega)]
  generalize (⟨ty.toNat, hT⟩ : Fin 4) = T
  fin_cases T <;> simp [Fin.ext_iff]

/-! ## From blocks to the array -/

section Array

-- the TensorCore's buffer contents when the region is entered, on the extended reals
variable (V : (c : Dev nD) → (b : Ref sig .tc) → Buf (Elt Ideal) ((c : Thread nD τ).loc b))

/-- The type ids, the value ids and the stack of tables as the region finds them, at their literal types. -/
abbrev tyArr0 (c : Dev nD) : IVec S200704x1 32 := V c main_v1
abbrev vlArr0 (c : Dev nD) : IVec S200704x1 32 := V c main_v3
abbrev tabArr0 (c : Dev nD) : FVec Ideal S4x1000x128 .bf16 := V c main_v4

/-- Row `r`, column `k` of what the output array ends holding: the masked sum at row `r`'s ids. -/
def catRow (c : Dev nD) (r : Fin 200704) (k : Fin 128) : EReal :=
  catSum (tyArr0 V c (ix2 r 0)) (vlArr0 V c (ix2 r 0)) (fun t v => tabArr0 V c (ix3 t v k))

/-- WHAT THE OUTPUT ARRAY ENDS HOLDING, as one function of the arrays the region finds. -/
def catArr (c : Dev nD) : FVec Ideal S200704x128 .f32 := fun i => catRow V c ⟨(i 0).val, (i 0).isLt⟩ ⟨(i 1).val, (i 1).isLt⟩

/-- The printed index maps, decided over the grid: the id columns and the output move one block of rows per point, the
    stack of tables stays. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- The type ids' block at point `t`, row `p`: the array's row `4096 t + p`. -/
theorem iblk0_0_apply (c : Dev nD) (t : Fin cfg0.N) (p : Fin 4096) (R : Fin 200704) (hR : R.val = t.val * 4096 + p.val) :
    (iblk0 V c 0 t : Vec Ideal S4096x1 .i32) (ix2 p 0) = tyArr0 V c (ix2 R 0) := by
  obtain ⟨e0, e1, -⟩ := idx_facts0 t
  unfold iblk0
  rw [View.read_apply]
  show V c main_v1 _ = V c main_v1 _
  congr 1
  funext a
  apply Fin.ext
  match a with
  | ⟨0, _⟩ => show win0_0.index t 0 * 4096 + 1 * p.val = R.val; rw [e0, hR]; omega
  | ⟨1, _⟩ => show win0_0.index t 1 * 1 + 1 * 0 = 0; rw [e1]

/-- The value ids' block likewise. -/
theorem iblk0_1_apply (c : Dev nD) (t : Fin cfg0.N) (p : Fin 4096) (R : Fin 200704) (hR : R.val = t.val * 4096 + p.val) :
    (iblk0 V c 1 t : Vec Ideal S4096x1 .i32) (ix2 p 0) = vlArr0 V c (ix2 R 0) := by
  obtain ⟨-, -, e0, e1, -⟩ := idx_facts0 t
  unfold iblk0
  rw [View.read_apply]
  show V c main_v3 _ = V c main_v3 _
  congr 1
  funext a
  apply Fin.ext
  match a with
  | ⟨0, _⟩ => show win0_1.index t 0 * 4096 + 1 * p.val = R.val; rw [e0, hR]; omega
  | ⟨1, _⟩ => show win0_1.index t 1 * 1 + 1 * 0 = 0; rw [e1]

/-- The tables' block at every point is the whole stack. -/
theorem iblk0_2_apply (c : Dev nD) (t : Fin cfg0.N) (u : Fin 4) (v : Fin 1000) (k : Fin 128) :
    (iblk0 V c 2 t : Vec Ideal S4x1000x128 .bf16) (ix3 u v k) = tabArr0 V c (ix3 u v k) := by
  obtain ⟨-, -, -, -, e0, e1, e2, -⟩ := idx_facts0 t
  unfold iblk0
  rw [View.read_apply]
  show V c main_v4 _ = V c main_v4 _
  congr 1
  funext a
  apply Fin.ext
  match a with
  | ⟨0, _⟩ => show win0_2.index t 0 * 4 + 1 * u.val = u.val; rw [e0]; omega
  | ⟨1, _⟩ => show win0_2.index t 1 * 1000 + 1 * v.val = v.val; rw [e1]; omega
  | ⟨2, _⟩ => show win0_2.index t 2 * 128 + 1 * k.val = k.val; rw [e2]; omega

/-- Two functions of a rank-2 index that agree at every pair of coordinates are equal. -/
theorem funext_ix2_cat {α : Type} {A B : ℕ} (f g : (⟨2, ![A, B]⟩ : Shape).Idx → α) (h : ∀ p q, f (ix2 p q) = g (ix2 p q)) : f = g :=
  funext fun j => by rw [eq_ix2 j]; exact h _ _

/-- Rows and columns with equal numbers give equal entries. -/
theorem catRow_congr (c : Dev nD) {r r' : Fin 200704} {k k' : Fin 128} (hr : r.val = r'.val) (hk : k.val = k'.val) :
    catRow V c r k = catRow V c r' k' := by
  obtain rfl := Fin.ext hr
  obtain rfl := Fin.ext hk
  rfl

/-- Block `t` of `catArr`, at `(p, q)`: row `4096 t + p`, column `q`. -/
theorem catArr_blk (c : Dev nD) (t : Fin cfg0.N) (p : Fin 4096) (q : Fin 128) (R : Fin 200704) (hR : R.val = t.val * 4096 + p.val) :
    ((cfg0.win 3).blk t).view.read (Elt Ideal) (catArr V c) (ix2 p q) = catRow V c R q := by
  obtain ⟨-, -, -, -, -, -, -, e0, e1⟩ := idx_facts0 t
  rw [View.read_apply]
  unfold catArr
  refine catRow_congr V c ?_ ?_
  · show win0_3.index t 0 * 4096 + 1 * p.val = R.val
    rw [e0, hR]; omega
  · show win0_3.index t 1 * 128 + 1 * q.val = q.val
    rw [e1]; omega

/-- WHAT POINT `t` WRITES BACK is block `t` of `catArr`. -/
theorem flushed0_eq (c : Dev nD) (t : Fin cfg0.N) :
    (dat0 V c).flushed 3 t = ((cfg0.win 3).blk t).view.read (Elt Ideal) (catArr V c) := by
  show (cfg0.win 3).cut (grid0.coords t) ((dat0 V c).after 3 t) = _
  rw [after0_3]
  unfold outAt0
  rw [out0_3_eq c (grid0.coords t) (ms0_0 t) (hs0_0 t) (ms0_1 t) (hs0_1 t) (ms0_2 t) (hs0_2 t) (ms0_3 t) (hs0_3 t) (iblk0 V c 0 t) (iblk0 V c 1 t) (iblk0 V c 2 t)]
  obtain ⟨-, -, -, -, -, -, -, e0, e1⟩ := idx_facts0 t
  have hN : t.val < 49 := lt_of_lt_of_eq t.isLt N_0
  refine funext_ix2_cat (A := 4096) (B := 128) _ _ fun p q => ?_
  refine (catBlk4_apply (iblk0 V c 0 t) (iblk0 V c 1 t) (iblk0 V c 2 t) p q).trans ?_
  refine Eq.trans ?_ (catArr_blk V c t p q ⟨t.val * 4096 + p.val, by omega⟩ rfl).symm
  have hA := iblk0_0_apply V c t p ⟨t.val * 4096 + p.val, by omega⟩ rfl
  have hB := iblk0_1_apply V c t p ⟨t.val * 4096 + p.val, by omega⟩ rfl
  have hC : (fun u v => (iblk0 V c 2 t : Vec Ideal S4x1000x128 .bf16) (ix3 u v q)) = fun u v => tabArr0 V c (ix3 u v q) :=
    funext fun u => funext fun v => iblk0_2_apply V c t u v q
  unfold catRow
  rw [hA, hB, hC]

/-- An index of the array is in point `t`'s block iff each coordinate is in the block's range on its axis. -/
theorem mem_blk0 (t : Fin cfg0.N) (i : S200704x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v5).slice (win0_3.rect t)).set ↔ _
  rw [View.set_slice_whole, Rect.mem_set_unit]
  exact Iff.rfl

/-- Every block of rows is some point's. -/
theorem idx_onto0 : ∀ q : Fin 49, ∃ t : Fin cfg0.N, win0_3.index t (0 : Fin 2) = q.val ∧ win0_3.index t (1 : Fin 2) = 0 :=
  (by decide +kernel : ∀ q : Fin 49, ∃ t : Fin grid0.N, win0_3.index t (0 : Fin 2) = q.val ∧ win0_3.index t (1 : Fin 2) = 0)

/-- THE ARRAY after the region: `catArr`. The point that covers row `r` is `r / 4096`. -/
theorem arr0_eq (c : Dev nD) : (dat0 V c).arrAt 3 cfg0.N = catArr V c :=
  (dat0 V c).arrAt_eq_of_cover 3 (catArr V c) (fun t _ => flushed0_eq V c t) fun i => by
    have hi0 : (i 0).val < 200704 := (i 0).isLt
    have hi1 : (i 1).val < 128 := (i 1).isLt
    obtain ⟨t, q0, q1⟩ := idx_onto0 ⟨(i 0).val / 4096, by omega⟩
    refine ⟨t, flush0_3 t, ?_⟩
    rw [mem_blk0]
    intro a
    match a with
    | ⟨0, _⟩ => show win0_3.index t (0 : Fin 2) * 4096 ≤ (i 0).val ∧ (i 0).val < win0_3.index t (0 : Fin 2) * 4096 + 4096; rw [q0]; dsimp only; omega
    | ⟨1, _⟩ => show win0_3.index t (1 : Fin 2) * 128 ≤ (i 1).val ∧ (i 1).val < win0_3.index t (1 : Fin 2) * 128 + 128; rw [q1]; omega

/-- THE CATEGORICAL ROWS: where row `r`'s two ids are in range, row `r` of the output array is the row of the tables
    the pair of ids names. -/
theorem arr0_apply (c : Dev nD) (r : Fin 200704) (k : Fin 128)
    (hT : ((V c main_v1 : IVec S200704x1 32) (ix2 r 0)).toNat < 4) (hV : ((V c main_v3 : IVec S200704x1 32) (ix2 r 0)).toNat < 1000) :
    ((dat0 (F := Ideal) V c).arrAt 3 cfg0.N : Vec Ideal S200704x128 .f32) (ix2 r k)
      = (V c main_v4 : Vec Ideal S4x1000x128 .bf16) (ix3 ⟨_, hT⟩ ⟨_, hV⟩ k) := by
  rw [arr0_eq]
  show catRow V c ⟨r.val, _⟩ ⟨k.val, _⟩ = _
  exact catSum_of_lt _ _ _ hT hV

end Array

end Cert.KernelIdeal.Hand

end
-- ==== Proof.KernelIdeal.Val1.lean ====
/-
  The value of the second pallas_call (the continuous rows) at the ideal instance. One grid point clears its
  4096 × 128 output block and adds, for each type t = 0, 1, 2, 3 in turn, the term
  [type id r = t] * (value r * w[t] + b[t]) on every row r. Over the extended reals 0 * x = 0, 1 * x = x and
  0 + x = x hold for every x, so where the type id of row r is T < 4 the masked sum is value r * w[T] + b[T].
  The 37 blocks tile the 151552 rows; the block that holds row r is r / 4096.
-/
import proofs.«407136_j58394375357022_3_alg».proof.Proof.Gen.KernelIdeal.Launch
import proofs.«407136_j58394375357022_3_alg».proof.Proof.Gen.KernelIdeal.Skeleton
import proofs.«407136_j58394375357022_3_alg».proof.Proof.Gen.KernelIdeal.Points
import proofs.«407136_j58394375357022_3_alg».proof.Proof.KernelIdeal.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## What the body's stores leave, as one term of the payloads -/

theorem hz2 : (![0, 0] : Fin 2 → Nat) = fun _ => 0 := funext fun a => by fin_cases a <;> rfl

/-- A load of the whole block after a whole-block store, whatever was stored before, reads the stored payload. -/
theorem readCov_cons_whole {S : Shape} {e : EltTy} {Val : EltTy → Type} [∀ e, Nonempty (Val e)] {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- Row `t` of a 4 × 128 table, as the 1 × 128 vector a load of that row reads. -/
abbrev tabRow0 (x : Vec F S4x128 .f32) : Vec F S1x128 .f32 := View.ld x (Rect.unit (s := S4x128) ![0, 0] S1x128.size inb_S4x128_S1x128_0_0)
abbrev tabRow1 (x : Vec F S4x128 .f32) : Vec F S1x128 .f32 := View.ld x (Rect.unit (s := S4x128) ![1, 0] S1x128.size inb_S4x128_S1x128_1_0)
abbrev tabRow2 (x : Vec F S4x128 .f32) : Vec F S1x128 .f32 := View.ld x (Rect.unit (s := S4x128) ![2, 0] S1x128.size inb_S4x128_S1x128_2_0)
abbrev tabRow3 (x : Vec F S4x128 .f32) : Vec F S1x128 .f32 := View.ld x (Rect.unit (s := S4x128) ![3, 0] S1x128.size inb_S4x128_S1x128_3_0)

/-- The block the body leaves: the zero block, then the four masked terms added in turn, each on the block read back. -/
def blockVal1 (x0 : Vec F S4096x1 .i32) (x1 : Vec F S4096x1 .f32) (x2 : Vec F S4x128 .f32) (x3 : Vec F S4x128 .f32) : FVec F S4096x128 .f32 :=
  k1_pay1 (k1_pay2 x1) (k1_pay10 (tabRow3 x2)) (tabRow3 x3) x0
    (k1_pay9 (k1_pay2 x1) (tabRow2 x2) (tabRow2 x3) x0
      (k1_pay8 (k1_pay2 x1) (k1_pay5 (tabRow1 x2)) (k1_pay6 (tabRow1 x3)) (k1_pay7 x0)
        (k1_pay4 x1 (tabRow0 x2) (tabRow0 x3) x0 (k1_pay3 (F := F)))))

set_option maxHeartbeats 1000000 in
/-- The run's pieces, read back: the last store covers the block, and every load of the block reads the store before it. -/
theorem out1_4_eq (c : Dev nD) (i : grid1.Coords)
    (arg1 : Memref sig .tc .vmem S4096x1 .i32) (harg1 : arg1.IsWhole) (arg2 : Memref sig .tc .vmem S4096x1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4096x128 .f32) (harg5 : arg5.IsWhole)
    (x0 : Vec F S4096x1 .i32) (x1 : Vec F S4096x1 .f32) (x2 : Vec F S4x128 .f32) (x3 : Vec F S4x128 .f32) :
    out1_4 c i arg1 harg1 arg2 harg2 arg3 harg3 arg4 harg4 arg5 harg5 x0 x1 x2 x3 = blockVal1 x0 x1 x2 x3 := by
  unfold out1_4
  rw [View.read_writes_eq_canon _ _ _ (cover1_4 c i arg1 harg1 arg2 harg2 arg3 harg3 arg4 harg4 arg5 harg5 x0 x1 x2 x3)]
  unfold kernelRun1
  dsimp only
  sl_unfold_words
  rw [View.canon_cons_unit_zero (S := S4096x128) hz2]
  unfold blockVal1
  simp only [readCov_cons_whole (S := S4096x128) _ hz2, View.readCov_unit_zero (S := S4096x128) _ hz2, View.readAt_eq_ld,
    harg1.read_unread, harg2.read_unread, harg3.read_unread, harg4.read_unread,
    View.ld_unit_zero (S := S4096x1) hz2]

/-! ## The block at an index, on the extended reals -/

/-- The factor of type `t` on a row whose type id is `ty`: the 1-bit comparison, widened, read as a real. -/
def typeMask (t ty : BitVec 32) : EReal := (((BitVec.setWidth 32 (IntOp.cmpi .eq ty t)).toInt : ℝ) : EReal)

/-- It is 1 on the rows of type `t`, -/
theorem typeMask_self (t : BitVec 32) : typeMask t t = 1 := by
  have e : IntOp.cmpi .eq t t = 1#1 := by simp [IntOp.cmpi]
  have e1 : (BitVec.setWidth 32 (1#1 : BitVec 1)).toInt = 1 := by decide
  unfold typeMask
  rw [e, e1]
  simp

/-- and 0 on every other row. -/
theorem typeMask_ne (t ty : BitVec 32) (h : ty ≠ t) : typeMask t ty = 0 := by
  have hb : (ty == t) = false := beq_false_of_ne h
  have e : IntOp.cmpi .eq ty t = 0#1 := by simp [IntOp.cmpi, hb]
  have e0 : (BitVec.setWidth 32 (0#1 : BitVec 1)).toInt = 0 := by decide
  unfold typeMask
  rw [e, e0]
  simp

/-- A 4096 × 1 column broadcast along the lanes reads, at `(p, q)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One step of the body at an index: the block read back plus the masked term of type `t`. -/
theorem step_apply (v1 : FVec Ideal S4096x1 .f32) (w b : FVec Ideal S1x128 .f32) (ty : IVec S4096x1 32)
    (acc : FVec Ideal S4096x128 .f32) (t : BitVec 32) (p : Fin 4096) (q : Fin 128) :
    addf acc
        (mulf (broadcastTo S4096x128 (sitofp .f32 (extui 32 (cmpi .eq ty (broadcast S4096x1 t)) natLt_1_32) : FVec Ideal S4096x1 .f32) broadcasts_S4096x1_S4096x128)
          (addf (mulf (broadcastTo S4096x128 v1 broadcasts_S4096x1_S4096x128) (broadcastTo S4096x128 w broadcasts_S1x128_S4096x128))
            (broadcastTo S4096x128 b broadcasts_S1x128_S4096x128))) (ix2 p q)
      = acc (ix2 p q) + typeMask t (ty (ix2 p 0)) * (v1 (ix2 p 0) * w (ix2 0 q) + b (ix2 0 q)) := by
  show acc (ix2 p q) + (broadcastTo S4096x128 _ broadcasts_S4096x1_S4096x128 (ix2 p q)) * (broadcastTo S4096x128 v1 broadcasts_S4096x1_S4096x128 (ix2 p q) * broadcastTo S4096x128 w broadcasts_S1x128_S4096x128 (ix2 p q) + broadcastTo S4096x128 b broadcasts_S1x128_S4096x128 (ix2 p q)) = _
  rw [broadcastTo_a1_ab_apply, broadcastTo_a1_ab_apply, broadcastTo_1b_ab_apply, broadcastTo_1b_ab_apply]
  rfl

theorem pay2_eq (v0 : Vec F S4096x1 .f32) : k1_pay2 v0 = v0 := by unfold k1_pay2; exact shapeCast_self _ _
theorem pay7_eq (v33 : Vec F S4096x1 .i32) : k1_pay7 (F := F) v33 = v33 := by unfold k1_pay7; exact shapeCast_self _ _
theorem pay5_eq (v27 : Vec F S1x128 .f32) : k1_pay5 v27 = v27 := by unfold k1_pay5; exact shapeCast_shapeCast _ _ _
theorem pay6_eq (v30 : Vec F S1x128 .f32) : k1_pay6 v30 = v30 := by unfold k1_pay6; exact shapeCast_shapeCast _ _ _

/-- The cleared block reads 0 everywhere. -/
theorem pay3_apply (p : Fin 4096) (q : Fin 128) : k1_pay3 (F := Ideal) (ix2 p q) = 0 := by
  unfold k1_pay3
  exact Ideal.ofBits_zero_f32

theorem pay4_apply (v0 : Vec Ideal S4096x1 .f32) (v4 v7 : Vec Ideal S1x128 .f32) (v10 : Vec Ideal S4096x1 .i32) (v21 : Vec Ideal S4096x128 .f32)
    (p : Fin 4096) (q : Fin 128) :
    k1_pay4 v0 v4 v7 v10 v21 (ix2 p q)
      = v21 (ix2 p q) + typeMask 0#32 (v10 (ix2 p 0)) * (v0 (ix2 p 0) * v4 (ix2 0 q) + v7 (ix2 0 q)) := by
  simp only [k1_pay4, k1_pay2, shapeCast_self, shapeCast_shapeCast]
  exact step_apply v0 v4 v7 v10 v21 0#32 p q

theorem pay8_apply (v1 : FVec Ideal S4096x1 .f32) (v29 v32 : FVec Ideal S1x128 .f32) (v34 : IVec S4096x1 32) (v44 : Vec Ideal S4096x128 .f32)
    (p : Fin 4096) (q : Fin 128) :
    k1_pay8 v1 v29 v32 v34 v44 (ix2 p q)
      = v44 (ix2 p q) + typeMask 1#32 (v34 (ix2 p 0)) * (v1 (ix2 p 0) * v29 (ix2 0 q) + v32 (ix2 0 q)) := by
  simp only [k1_pay8, shapeCast_self]
  exact step_apply v1 v29 v32 v34 v44 1#32 p q

theorem pay9_apply (v1 : FVec Ideal S4096x1 .f32) (v50 v53 : Vec Ideal S1x128 .f32) (v56 : Vec Ideal S4096x1 .i32) (v67 : Vec Ideal S4096x128 .f32)
    (p : Fin 4096) (q : Fin 128) :
    k1_pay9 v1 v50 v53 v56 v67 (ix2 p q)
      = v67 (ix2 p q) + typeMask 2#32 (v56 (ix2 p 0)) * (v1 (ix2 p 0) * v50 (ix2 0 q) + v53 (ix2 0 q)) := by
  simp only [k1_pay9, shapeCast_self, shapeCast_shapeCast]
  exact step_apply v1 v50 v53 v56 v67 2#32 p q

theorem pay1_apply (v1 : FVec Ideal S4096x1 .f32) (v73 v76 : Vec Ideal S1x128 .f32) (v79 : Vec Ideal S4096x1 .i32) (v90 : Vec Ideal S4096x128 .f32)
    (p : Fin 4096) (q : Fin 128) :
    k1_pay1 v1 (k1_pay10 v73) v76 v79 v90 (ix2 p q)
      = v90 (ix2 p q) + typeMask 3#32 (v79 (ix2 p 0)) * (v1 (ix2 p 0) * v73 (ix2 0 q) + v76 (ix2 0 q)) := by
  simp only [k1_pay1, k1_pay10, shapeCast_self, shapeCast_shapeCast]
  exact step_apply v1 v73 v76 v79 v90 3#32 p q

/-- What the masked sum comes to on a row with type id `ty` and value `v`, the tables' columns being `w` and `b`. -/
def rowVal (ty : BitVec 32) (v : EReal) (w b : Fin 4 → EReal) : EReal :=
  0 + typeMask 0#32 ty * (v * w 0 + b 0) + typeMask 1#32 ty * (v * w 1 + b 1) + typeMask 2#32 ty * (v * w 2 + b 2)
    + typeMask 3#32 ty * (v * w 3 + b 3)

/-- Where the type id is `T < 4` only the term of type `T` is left: 0 * x = 0, 1 * x = x and 0 + x = x for every
    extended real x. -/
theorem rowVal_of_lt (ty : BitVec 32) (v : EReal) (w b : Fin 4 → EReal) (h : ty.toNat < 4) :
    rowVal ty v w b = v * w ⟨ty.toNat, h⟩ + b ⟨ty.toNat, h⟩ := by
  have hty : ty = 0#32 ∨ ty = 1#32 ∨ ty = 2#32 ∨ ty = 3#32 := by
    rcases (by omega : ty.toNat = 0 ∨ ty.toNat = 1 ∨ ty.toNat = 2 ∨ ty.toNat = 3) with e | e | e | e
    · exact Or.inl (BitVec.eq_of_toNat_eq e)
    · exact Or.inr (Or.inl (BitVec.eq_of_toNat_eq e))
    · exact Or.inr (Or.inr (Or.inl (BitVec.eq_of_toNat_eq e)))
    · exact Or.inr (Or.inr (Or.inr (BitVec.eq_of_toNat_eq e)))
  unfold rowVal
  rcases hty with rfl | rfl | rfl | rfl
  · rw [typeMask_self, typeMask_ne 1#32 0#32 (by decide), typeMask_ne 2#32 0#32 (by decide), typeMask_ne 3#32 0#32 (by decide)]
    simp only [zero_mul, one_mul, zero_add, add_zero]
    rfl
  · rw [typeMask_self, typeMask_ne 0#32 1#32 (by decide), typeMask_ne 2#32 1#32 (by decide), typeMask_ne 3#32 1#32 (by decide)]
    simp only [zero_mul, one_mul, zero_add, add_zero]
    rfl
  · rw [typeMask_self, typeMask_ne 0#32 2#32 (by decide), typeMask_ne 1#32 2#32 (by decide), typeMask_ne 3#32 2#32 (by decide)]
    simp only [zero_mul, one_mul, zero_add, add_zero]
    rfl
  · rw [typeMask_self, typeMask_ne 0#32 3#32 (by decide), typeMask_ne 1#32 3#32 (by decide), typeMask_ne 2#32 3#32 (by decide)]
    simp only [zero_mul, one_mul, zero_add, add_zero]
    rfl

/-- A row load of a table reads, at lane `q`, the table at that row and lane. -/
theorem tabRow0_apply (x : Vec F S4x128 .f32) (q : Fin 128) : tabRow0 x (ix2 (0 : Fin 1) q) = x (ix2 (0 : Fin 4) q) := by
  show x _ = x _
  refine congrArg x (funext fun a => Fin.ext ?_)
  match a with
  | ⟨0, _⟩ => rfl
  | ⟨1, _⟩ => show 0 + 1 * q.val = q.val; omega
theorem tabRow1_apply (x : Vec F S4x128 .f32) (q : Fin 128) : tabRow1 x (ix2 (0 : Fin 1) q) = x (ix2 (1 : Fin 4) q) := by
  show x _ = x _
  refine congrArg x (funext fun a => Fin.ext ?_)
  match a with
  | ⟨0, _⟩ => rfl
  | ⟨1, _⟩ => show 0 + 1 * q.val = q.val; omega
theorem tabRow2_apply (x : Vec F S4x128 .f32) (q : Fin 128) : tabRow2 x (ix2 (0 : Fin 1) q) = x (ix2 (2 : Fin 4) q) := by
  show x _ = x _
  refine congrArg x (funext fun a => Fin.ext ?_)
  match a with
  | ⟨0, _⟩ => rfl
  | ⟨1, _⟩ => show 0 + 1 * q.val = q.val; omega
theorem tabRow3_apply (x : Vec F S4x128 .f32) (q : Fin 128) : tabRow3 x (ix2 (0 : Fin 1) q) = x (ix2 (3 : Fin 4) q) := by
  show x _ = x _
  refine congrArg x (funext fun a => Fin.ext ?_)
  match a with
  | ⟨0, _⟩ => rfl
  | ⟨1, _⟩ => show 0 + 1 * q.val = q.val; omega

/-- The block the body leaves, at row `p` and lane `q`: the masked sum of that row. -/
theorem blockVal1_apply (x0 : Vec Ideal S4096x1 .i32) (x1 : Vec Ideal S4096x1 .f32) (x2 x3 : Vec Ideal S4x128 .f32)
    (p : Fin 4096) (q : Fin 128) :
    blockVal1 x0 x1 x2 x3 (ix2 p q)
      = rowVal (x0 (ix2 p 0)) (x1 (ix2 p 0)) (fun T => x2 (ix2 T q)) (fun T => x3 (ix2 T q)) := by
  unfold blockVal1
  rw [pay2_eq, pay5_eq, pay6_eq, pay7_eq, pay1_apply, pay9_apply, pay8_apply, pay4_apply, pay3_apply,
    tabRow0_apply, tabRow0_apply, tabRow1_apply, tabRow1_apply, tabRow2_apply, tabRow2_apply, tabRow3_apply, tabRow3_apply]
  rfl

/-! ## From the blocks to the array -/

-- the TensorCore's buffer contents when the region is entered, on the extended reals
variable (V : (c : Dev nD) → (b : Ref sig .tc) → Buf (Elt Ideal) ((c : Thread nD τ).loc b))

/-- The four arrays the region reads, at their literal types. -/
abbrev tyArr (c : Dev nD) : IVec S151552x1 32 := V c main_v8
abbrev valArr (c : Dev nD) : Vec Ideal S151552x1 .f32 := V c main_v10
abbrev wArr (c : Dev nD) : Vec Ideal S4x128 .f32 := V c main_arg1
abbrev bArr (c : Dev nD) : Vec Ideal S4x128 .f32 := V c main_arg2

/-- Their blocks at a grid point, at their literal types. -/
abbrev tyBlk (c : Dev nD) (t : Fin cfg1.N) : Vec Ideal S4096x1 .i32 := iblk1 V c 0 t
abbrev valBlk (c : Dev nD) (t : Fin cfg1.N) : Vec Ideal S4096x1 .f32 := iblk1 V c 1 t
abbrev wBlk (c : Dev nD) (t : Fin cfg1.N) : Vec Ideal S4x128 .f32 := iblk1 V c 2 t
abbrev bBlk (c : Dev nD) (t : Fin cfg1.N) : Vec Ideal S4x128 .f32 := iblk1 V c 3 t

/-- The masked sum of row `r` at lane `k`, of the arrays as the region finds them. -/
def specAt1 (c : Dev nD) (r : Fin 151552) (k : Fin 128) : EReal :=
  rowVal (tyArr V c (ix2 r 0)) (valArr V c (ix2 r 0)) (fun T => wArr V c (ix2 T k)) (fun T => bArr V c (ix2 T k))

/-- The output array the region leaves: the masked sum, row by row and lane by lane. -/
def specArr1 (c : Dev nD) : Vec Ideal S151552x128 .f32 := fun i => specAt1 V c (i 0) (i 1)

/-- The printed index maps, decided over the grid: the row windows sit at block `t`, the tables at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the type ids' block at point `t` is row `4096 t + p` of the array. -/
theorem tyBlk_apply (c : Dev nD) (t : Fin cfg1.N) (p : Fin 4096) (r : Fin 151552) (hr : r.val = t.val * 4096 + p.val) :
    tyBlk V c t (ix2 p 0) = tyArr V c (ix2 r 0) := by
  obtain ⟨e0, e1, -⟩ := idx_facts1 t
  unfold tyBlk tyArr iblk1
  rw [View.read_apply]
  show V c main_v8 _ = V c main_v8 _
  refine congrArg (V c main_v8) (funext fun a => Fin.ext ?_)
  match a with
  | ⟨0, _⟩ => show win1_0.index t (0 : Fin 2) * 4096 + 1 * p.val = r.val; omega
  | ⟨1, _⟩ => show win1_0.index t (1 : Fin 2) * 1 + 1 * 0 = 0; omega

/-- The same for the values' block. -/
theorem valBlk_apply (c : Dev nD) (t : Fin cfg1.N) (p : Fin 4096) (r : Fin 151552) (hr : r.val = t.val * 4096 + p.val) :
    valBlk V c t (ix2 p 0) = valArr V c (ix2 r 0) := by
  obtain ⟨-, -, e0, e1, -⟩ := idx_facts1 t
  unfold valBlk valArr iblk1
  rw [View.read_apply]
  show V c main_v10 _ = V c main_v10 _
  refine congrArg (V c main_v10) (funext fun a => Fin.ext ?_)
  match a with
  | ⟨0, _⟩ => show win1_1.index t (0 : Fin 2) * 4096 + 1 * p.val = r.val; omega
  | ⟨1, _⟩ => show win1_1.index t (1 : Fin 2) * 1 + 1 * 0 = 0; omega

/-- The tables' blocks are the tables. -/
theorem wBlk_apply (c : Dev nD) (t : Fin cfg1.N) (T : Fin 4) (q : Fin 128) : wBlk V c t (ix2 T q) = wArr V c (ix2 T q) := by
  obtain ⟨-, -, -, -, e0, e1, -⟩ := idx_facts1 t
  unfold wBlk wArr iblk1
  rw [View.read_apply]
  show V c main_arg1 _ = V c main_arg1 _
  refine congrArg (V c main_arg1) (funext fun a => Fin.ext ?_)
  match a with
  | ⟨0, _⟩ => show win1_2.index t (0 : Fin 2) * 4 + 1 * T.val = T.val; omega
  | ⟨1, _⟩ => show win1_2.index t (1 : Fin 2) * 128 + 1 * q.val = q.val; omega
theorem bBlk_apply (c : Dev nD) (t : Fin cfg1.N) (T : Fin 4) (q : Fin 128) : bBlk V c t (ix2 T q) = bArr V c (ix2 T q) := by
  obtain ⟨-, -, -, -, -, -, e0, e1, -⟩ := idx_facts1 t
  unfold bBlk bArr iblk1
  rw [View.read_apply]
  show V c main_arg2 _ = V c main_arg2 _
  refine congrArg (V c main_arg2) (funext fun a => Fin.ext ?_)
  match a with
  | ⟨0, _⟩ => show win1_3.index t (0 : Fin 2) * 4 + 1 * T.val = T.val; omega
  | ⟨1, _⟩ => show win1_3.index t (1 : Fin 2) * 128 + 1 * q.val = q.val; omega

/-- The output block after point `t` is the body's block of that point's input blocks. -/
theorem outAt1_eq (c : Dev nD) (t : Fin cfg1.N) :
    outAt1 V c t = blockVal1 (tyBlk V c t) (valBlk V c t) (wBlk V c t) (bBlk V c t) :=
  out1_4_eq c (grid1.coords t) (ms1_0 t) (hs1_0 t) (ms1_1 t) (hs1_1 t) (ms1_2 t) (hs1_2 t) (ms1_3 t) (hs1_3 t) (ms1_4 t) (hs1_4 t)
    (tyBlk V c t) (valBlk V c t) (wBlk V c t) (bBlk V c t)

/-- At row `p` and lane `q` it is the masked sum of row `4096 t + p` of the arrays. -/
theorem outAt1_apply (c : Dev nD) (t : Fin cfg1.N) (p : Fin 4096) (q : Fin 128) (r : Fin 151552) (hr : r.val = t.val * 4096 + p.val) :
    outAt1 V c t (ix2 p q) = specAt1 V c r q := by
  refine (congrFun (outAt1_eq V c t) (ix2 p q)).trans ?_
  refine (blockVal1_apply (tyBlk V c t) (valBlk V c t) (wBlk V c t) (bBlk V c t) p q).trans ?_
  unfold specAt1
  rw [tyBlk_apply V c t p r hr, valBlk_apply V c t p r hr,
    show (fun T => wBlk V c t (ix2 T q)) = fun T => wArr V c (ix2 T q) from funext fun T => wBlk_apply V c t T q,
    show (fun T => bBlk V c t (ix2 T q)) = fun T => bArr V c (ix2 T q) from funext fun T => bBlk_apply V c t T q]

/-- What point `t` writes back is block `t` of the masked sums. -/
theorem flushed1_eq (c : Dev nD) (t : Fin cfg1.N) :
    (dat1 (F := Ideal) V c).flushed 4 t = ((cfg1.win 4).blk t).view.read (Elt Ideal) (specArr1 V c) := by
  show (cfg1.win 4).cut (grid1.coords t) ((dat1 V c).after 4 t) = _
  rw [after1_4]
  obtain ⟨-, -, -, -, -, -, -, -, e0, e1⟩ := idx_facts1 t
  funext j
  have h0 : (j 0).val < 4096 := (j 0).isLt
  have h1 : (j 1).val < 128 := (j 1).isLt
  have ht : t.val < 37 := t.isLt
  have hj : (cfg1.win 4).xinj (grid1.coords t) j = ix2 (⟨(j 0).val, h0⟩ : Fin 4096) (⟨(j 1).val, h1⟩ : Fin 128) :=
    funext fun a => match a with | ⟨0, _⟩ => rfl | ⟨1, _⟩ => rfl
  have he : ((cfg1.win 4).blk t).view.emb j
      = ix2 (⟨t.val * 4096 + (j 0).val, by omega⟩ : Fin 151552) (⟨(j 1).val, h1⟩ : Fin 128) := by
    funext a; apply Fin.ext
    match a with
    | ⟨0, _⟩ => show win1_4.index t (0 : Fin 2) * 4096 + 1 * (j 0).val = t.val * 4096 + (j 0).val; omega
    | ⟨1, _⟩ => show win1_4.index t (1 : Fin 2) * 128 + 1 * (j 1).val = (j 1).val; omega
  show outAt1 V c t ((cfg1.win 4).xinj (grid1.coords t) j) = specArr1 V c (((cfg1.win 4).blk t).view.emb j)
  refine (congrArg (outAt1 V c t) hj).trans ?_
  refine Eq.trans ?_ (congrArg (specArr1 V c) he).symm
  exact outAt1_apply V c t ⟨(j 0).val, h0⟩ ⟨(j 1).val, h1⟩ ⟨t.val * 4096 + (j 0).val, by omega⟩ rfl

/-- An index of the array is in point `t`'s block iff each coordinate is in the block's range on its axis. -/
theorem mem_blk1 (t : Fin cfg1.N) (i : S151552x128.Idx) :
    i ∈ ((cfg1.win 4).blk t).view.set ↔ ∀ a : Fin 2, win1_4.index t a * S4096x128.size a ≤ (i a).val ∧ (i a).val < win1_4.index t a * S4096x128.size a + S4096x128.size a := by
  show i ∈ ((View.whole main_v11).slice (win1_4.rect t)).set ↔ _
  rw [View.set_slice_whole, Rect.mem_set_unit]
  exact Iff.rfl

/-- The 37 blocks of 4096 rows tile the 151552 rows: row `r` is in the block of point `r / 4096`. -/
theorem cover1 (i : S151552x128.Idx) :
    ∃ t : Fin cfg1.N, (cfg1.win 4).flush t = true ∧ i ∈ ((cfg1.win 4).blk t).view.set := by
  have hi0 : (i 0).val < 151552 := (i 0).isLt
  have hi1 : (i 1).val < 128 := (i 1).isLt
  refine ⟨⟨(i 0).val / 4096, by show _ < 37; omega⟩, flush1_4 _, ?_⟩
  rw [mem_blk1]
  obtain ⟨-, -, -, -, -, -, -, -, e0, e1⟩ := idx_facts1 ⟨(i 0).val / 4096, by show _ < 37; omega⟩
  have e0' : win1_4.index ⟨(i 0).val / 4096, by show _ < 37; omega⟩ (0 : Fin 2) = (i 0).val / 4096 := e0
  intro a
  match a with
  | ⟨0, _⟩ =>
    show win1_4.index _ (0 : Fin 2) * 4096 ≤ (i 0).val ∧ (i 0).val < win1_4.index _ (0 : Fin 2) * 4096 + 4096
    rw [e0']; omega
  | ⟨1, _⟩ =>
    show win1_4.index _ (1 : Fin 2) * 128 ≤ (i 1).val ∧ (i 1).val < win1_4.index _ (1 : Fin 2) * 128 + 128
    rw [e1]; omega

/-- So the output array ends at the masked sums. -/
theorem arr1_eq (c : Dev nD) : (dat1 (F := Ideal) V c).arrAt 4 cfg1.N = specArr1 V c :=
  (dat1 (F := Ideal) V c).arrAt_eq_of_cover 4 (specArr1 V c) (fun t _ => flushed1_eq V c t) cover1

/-- On a row whose type id `T` is in range, the masked sum is `value r * w[T] + b[T]`. -/
theorem specArr1_apply (c : Dev nD) (r : Fin 151552) (k : Fin 128) (hT : (tyArr V c (ix2 r 0)).toNat < 4) :
    specArr1 V c (ix2 r k) = valArr V c (ix2 r 0) * wArr V c (ix2 ⟨_, hT⟩ k) + bArr V c (ix2 ⟨_, hT⟩ k) :=
  rowVal_of_lt (tyArr V c (ix2 r 0)) (valArr V c (ix2 r 0)) (fun T => wArr V c (ix2 T k)) (fun T => bArr V c (ix2 T k)) hT

/-- THE VALUE OF THE REGION: on a row whose type id `T` is in range, the output is `value r * w[T] + b[T]`. -/
theorem arr1_apply (c : Dev nD) (r : Fin 151552) (k : Fin 128) (hT : (tyArr V c (ix2 r 0)).toNat < 4) :
    ((dat1 (F := Ideal) V c).arrAt 4 cfg1.N : Vec Ideal S151552x128 .f32) (ix2 r k)
      = valArr V c (ix2 r 0) * wArr V c (ix2 ⟨_, hT⟩ k) + bArr V c (ix2 ⟨_, hT⟩ k) :=
  (congrFun (arr1_eq V c) (ix2 r k)).trans (specArr1_apply V c r k hT)

end Cert.KernelIdeal.Hand

end
-- ==== Proof.KernelIdeal.Val2.lean ====
/-
  The value of the third pallas_call (the transaction rows) at the ideal instance. One grid point stores into its
  4096 × 128 output block the product of its block of 4096 feature rows with the whole weight matrix, plus the bias
  row on every row. The 37 blocks tile the 151552 rows, so the output array ends, at row r and column k, at
  the sum over j of feature (r, j) times weight (j, k), plus bias k: whatever the buffers held before.
-/
import proofs.«407136_j58394375357022_3_alg».proof.Proof.Gen.KernelIdeal.Launch
import proofs.«407136_j58394375357022_3_alg».proof.Proof.Gen.KernelIdeal.Skeleton
import proofs.«407136_j58394375357022_3_alg».proof.Proof.Gen.KernelIdeal.Points
import proofs.«407136_j58394375357022_3_alg».proof.Proof.KernelIdeal.Body2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Generic

variable {F : FTy → Type} [FloatOps F]

/-- The zero offsets of a whole-block access. -/
theorem hz2 : (![0, 0] : Fin 2 → Nat) = fun _ => 0 := funext fun a => by fin_cases a <;> rfl

/-- What the body leaves in the output block is its one payload of the three input blocks. -/
theorem out2_3_eq (c : Dev nD) (i : grid2.Coords)
    (arg1 : Memref sig .tc .vmem S4096x371 .f32) (harg1 : arg1.IsWhole) (arg2 : Memref sig .tc .vmem S371x128 .bf16) (harg2 : arg2.IsWhole)
    (arg3 : Memref sig .tc .vmem S1x128 .f32) (harg3 : arg3.IsWhole) (arg4 : Memref sig .tc .vmem S4096x128 .f32) (harg4 : arg4.IsWhole)
    (x0 : Vec F S4096x371 .f32) (x1 : Vec F S371x128 .bf16) (x2 : Vec F S1x128 .f32) :
    out2_3 c i arg1 harg1 arg2 harg2 arg3 harg3 arg4 harg4 x0 x1 x2 = k2_pay1 x0 x1 x2 := by
  unfold out2_3
  rw [View.read_writes_eq_canon _ _ _ (cover2_3 c i arg1 harg1 arg2 harg2 arg3 harg3 arg4 harg4 x0 x1 x2)]
  unfold kernelRun2
  dsimp only
  try sl_unfold_words
  rw [View.canon_unit_zero hz2]
  simp only [View.readAt_eq_ld, harg1.read_unread, harg2.read_unread, harg3.read_unread,
    View.ld_unit_zero (S := S4096x371) hz2, View.ld_unit_zero (S := S371x128) hz2, View.ld_unit_zero (S := S1x128) hz2]

end Generic

/-! ## The payload at an index, at the ideal values -/

/-- The dot's operand indices at output index i and contraction index q: the left operand's row is i's row, -/
theorem lhs2_0 (i : S4096x128.Idx) (q : dot_S4096x371_S371x128_S4096x128_1_0_0_1_n_n.contr.Idx) :
    (dot_S4096x371_S371x128_S4096x128_1_0_0_1_n_n.lhsIdx i q 0).val = (i 0).val := by
  unfold DotDims.lhsIdx
  rw [dif_neg (show ¬(0 : Fin S4096x371.rank) ∈ dot_S4096x371_S371x128_S4096x128_1_0_0_1_n_n.lhsBatch by decide), dif_pos (show (0 : Fin S4096x371.rank) ∈ dot_S4096x371_S371x128_S4096x128_1_0_0_1_n_n.lhsNonContracting by decide)]
  rfl
/-- its column the contraction index; -/
theorem lhs2_1 (i : S4096x128.Idx) (q : dot_S4096x371_S371x128_S4096x128_1_0_0_1_n_n.contr.Idx) :
    (dot_S4096x371_S371x128_S4096x128_1_0_0_1_n_n.lhsIdx i q 1).val = (q ⟨0, by decide⟩).val :=
  dot_S4096x371_S371x128_S4096x128_1_0_0_1_n_n.lhsIdx_val_of_single rfl i q
/-- the right operand's row is the contraction index, -/
theorem rhs2_0 (i : S4096x128.Idx) (q : dot_S4096x371_S371x128_S4096x128_1_0_0_1_n_n.contr.Idx) :
    (dot_S4096x371_S371x128_S4096x128_1_0_0_1_n_n.rhsIdx i q 0).val = (q ⟨0, by decide⟩).val :=
  dot_S4096x371_S371x128_S4096x128_1_0_0_1_n_n.rhsIdx_val_of_single rfl i q
/-- its column i's column. -/
theorem rhs2_1 (i : S4096x128.Idx) (q : dot_S4096x371_S371x128_S4096x128_1_0_0_1_n_n.contr.Idx) :
    (dot_S4096x371_S371x128_S4096x128_1_0_0_1_n_n.rhsIdx i q 1).val = (i 1).val := by
  unfold DotDims.rhsIdx
  rw [dif_neg (show ¬(1 : Fin S371x128.rank) ∈ dot_S4096x371_S371x128_S4096x128_1_0_0_1_n_n.rhsBatch by decide), dif_pos (show (1 : Fin S371x128.rank) ∈ dot_S4096x371_S371x128_S4096x128_1_0_0_1_n_n.rhsNonContracting by decide)]
  rfl

/-- The matrix product into the zero accumulator, at row p and column k: the sum over the 371 contracted positions. -/
theorem matmul2_apply (l : FVec Ideal S4096x371 .bf16) (r : FVec Ideal S371x128 .bf16) (p : Fin 4096) (k : Fin 128) :
    FloatOps.matmul dot_S4096x371_S371x128_S4096x128_1_0_0_1_n_n none l r (constant S4096x128 .f32 0x00000000#32) (ix2 p k)
      = ∑ j : Fin 371, l (ix2 p j) * r (ix2 j k) := by
  rw [Ideal.matmul_constant_zero_apply, ← Equiv.sum_comp (contrEquiv1 dot_S4096x371_S371x128_S4096x128_1_0_0_1_n_n 371 rfl rfl).symm]
  refine Finset.sum_congr rfl fun j _ => ?_
  have hk := contrEquiv1_symm_val dot_S4096x371_S371x128_S4096x128_1_0_0_1_n_n 371 rfl rfl j
  have el : dot_S4096x371_S371x128_S4096x128_1_0_0_1_n_n.lhsIdx (ix2 p k) ((contrEquiv1 dot_S4096x371_S371x128_S4096x128_1_0_0_1_n_n 371 rfl rfl).symm j) = ix2 p j := funext fun a => Fin.ext (by
    match a with
    | ⟨0, _⟩ => exact lhs2_0 _ _
    | ⟨1, _⟩ => exact (lhs2_1 _ _).trans hk)
  have er : dot_S4096x371_S371x128_S4096x128_1_0_0_1_n_n.rhsIdx (ix2 p k) ((contrEquiv1 dot_S4096x371_S371x128_S4096x128_1_0_0_1_n_n 371 rfl rfl).symm j) = ix2 j k := funext fun a => Fin.ext (by
    match a with
    | ⟨0, _⟩ => exact (rhs2_0 _ _).trans hk
    | ⟨1, _⟩ => exact rhs2_1 _ _)
  rw [el, er]

/-- The payload at row p and column k: the product's entry plus the bias row's entry of the column. -/
theorem pay2_apply (x0 : Vec Ideal S4096x371 .f32) (x1 : Vec Ideal S371x128 .bf16) (x2 : Vec Ideal S1x128 .f32) (p : Fin 4096) (k : Fin 128) :
    k2_pay1 (F := Ideal) x0 x1 x2 (ix2 p k) = (∑ j : Fin 371, x0 (ix2 p j) * x1 (ix2 j k)) + x2 (ix2 (0 : Fin 1) k) := by
  unfold k2_pay1
  refine (addf_apply _ _ (ix2 p k)).trans ?_
  refine congrArg₂ (· + ·) ?_ ?_
  · refine (matmul2_apply _ _ p k).trans ?_
    refine Finset.sum_congr rfl fun j _ => ?_
    rw [shapeCast_self, shapeCast_self]
    rfl
  · refine (broadcastTo_1b_ab_apply _ _ p k).trans ?_
    rw [shapeCast_self]

/-! ## From the blocks to the array -/

/-- The entry of the result at row r and column k, of the feature matrix A0, the weights A1 and the bias row A2. -/
def entry2 (A0 : Vec Ideal S151552x371 .f32) (A1 : Vec Ideal S371x128 .bf16) (A2 : Vec Ideal S1x128 .f32) (r : Fin 151552) (k : Fin 128) : Elt Ideal .f32 :=
  (∑ j : Fin 371, A0 (ix2 r j) * A1 (ix2 j k)) + A2 (ix2 (0 : Fin 1) k)

/-- The whole result array, index by index. -/
def result2 (A0 : Vec Ideal S151552x371 .f32) (A1 : Vec Ideal S371x128 .bf16) (A2 : Vec Ideal S1x128 .f32) : Vec Ideal S151552x128 .f32 :=
  fun i => entry2 A0 A1 A2 ⟨(i 0).val, idx2_lt0 i⟩ ⟨(i 1).val, idx2_lt1 i⟩

/-- One point's payload is the result's block whose first row is `base`: when the feature block x0 is rows
    base … base + 4095 of A0 and the other two blocks are the whole arrays, the payload at y is the result at the
    index whose row is base plus y's row and whose column is y's. -/
theorem point2 (x0 : Vec Ideal S4096x371 .f32) (x1 : Vec Ideal S371x128 .bf16) (x2 : Vec Ideal S1x128 .f32)
    (A0 : Vec Ideal S151552x371 .f32) (A1 : Vec Ideal S371x128 .bf16) (A2 : Vec Ideal S1x128 .f32) (base : Nat)
    (h0 : ∀ (p : Fin 4096) (j : Fin 371) (i : S151552x371.Idx), (i 0).val = base + p.val → (i 1).val = j.val → x0 (ix2 p j) = A0 i)
    (h1 : x1 = A1) (h2 : x2 = A2)
    (y : S4096x128.Idx) (i : S151552x128.Idx) (hi0 : (i 0).val = base + (y 0).val) (hi1 : (i 1).val = (y 1).val) :
    k2_pay1 (F := Ideal) x0 x1 x2 y = result2 A0 A1 A2 i := by
  subst h1 h2
  obtain ⟨p, k, rfl⟩ : ∃ (p : Fin 4096) (k : Fin 128), y = ix2 p k := ⟨y 0, y 1, eq_ix2 y⟩
  rw [pay2_apply]
  unfold result2 entry2
  have hk : (⟨(i 1).val, idx2_lt1 i⟩ : Fin 128) = k := Fin.ext hi1
  rw [hk]
  refine congrArg₂ (· + ·) (Finset.sum_congr rfl fun j _ => ?_) rfl
  rw [h0 p j (ix2 ⟨(i 0).val, idx2_lt0 i⟩ j) hi0 rfl]

section AtIdeal

-- the TensorCore's buffer contents when the region is entered
variable (V : (c : Dev nD) → (b : Ref sig .tc) → Buf (Elt Ideal) ((c : Thread nD τ).loc b))

/-- The three input arrays and the result, at their literal types. -/
abbrev feat2 (c : Dev nD) : Vec Ideal S151552x371 .f32 := V c main_v13
abbrev wts2 (c : Dev nD) : Vec Ideal S371x128 .bf16 := V c main_v14
abbrev bias2 (c : Dev nD) : Vec Ideal S1x128 .f32 := V c main_v15
abbrev res2 (c : Dev nD) : Vec Ideal S151552x128 .f32 := result2 (feat2 V c) (wts2 V c) (bias2 V c)

/-- The printed index maps over the grid: the feature and output blocks step by one block of rows per point, the
    weights and the bias stay at their one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The feature block at point t is rows 4096 t … 4096 t + 4095 of the feature matrix. -/
theorem iblk2_0_apply (c : Dev nD) (t : Fin cfg2.N) (p : Fin 4096) (j : Fin 371) (i : S151552x371.Idx)
    (hi0 : (i 0).val = t.val * 4096 + p.val) (hi1 : (i 1).val = j.val) :
    (iblk2 V c 0 t : Vec Ideal S4096x371 .f32) (ix2 p j) = feat2 V c i := by
  obtain ⟨e0, e1, -⟩ := idx_facts2 t
  unfold iblk2
  rw [View.read_apply]
  show V c main_v13 _ = V c main_v13 _
  congr 1
  funext a
  apply Fin.ext
  match a with
  | ⟨0, _⟩ => show win2_0.index t (0 : Fin 2) * 4096 + 1 * p.val = (i 0).val; rw [e0, hi0]; omega
  | ⟨1, _⟩ => show win2_0.index t (1 : Fin 2) * 371 + 1 * j.val = (i 1).val; rw [e1, hi1]; omega

/-- The weights' block at every point is the whole weight matrix. -/
theorem iblk2_1_eq (c : Dev nD) (t : Fin cfg2.N) : (iblk2 V c 1 t : Vec Ideal S371x128 .bf16) = wts2 V c := by
  obtain ⟨-, -, e0, e1, -⟩ := idx_facts2 t
  funext y
  unfold iblk2
  rw [View.read_apply]
  show V c main_v14 _ = V c main_v14 y
  congr 1
  funext a
  apply Fin.ext
  match a with
  | ⟨0, _⟩ => show win2_1.index t (0 : Fin 2) * 371 + 1 * (y 0).val = (y 0).val; rw [e0]; omega
  | ⟨1, _⟩ => show win2_1.index t (1 : Fin 2) * 128 + 1 * (y 1).val = (y 1).val; rw [e1]; omega

/-- The bias block at every point is the whole bias row. -/
theorem iblk2_2_eq (c : Dev nD) (t : Fin cfg2.N) : (iblk2 V c 2 t : Vec Ideal S1x128 .f32) = bias2 V c := by
  obtain ⟨-, -, -, -, e0, e1, -⟩ := idx_facts2 t
  funext y
  unfold iblk2
  rw [View.read_apply]
  show V c main_v15 _ = V c main_v15 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- What point t writes back is block t of the result. -/
theorem flushed2_eq (c : Dev nD) (t : Fin cfg2.N) :
    (dat2 (F := Ideal) V c).flushed 3 t = ((cfg2.win 3).blk t).view.read (Elt Ideal) (res2 V c) := by
  show (cfg2.win 3).cut (grid2.coords t) ((dat2 V c).after 3 t) = _
  rw [after2_3]
  unfold outAt2
  rw [out2_3_eq]
  obtain ⟨-, -, -, -, -, -, e0, e1⟩ := idx_facts2 t
  funext y
  exact point2 (iblk2 V c 0 t) (iblk2 V c 1 t) (iblk2 V c 2 t) (feat2 V c) (wts2 V c) (bias2 V c) (t.val * 4096)
    (fun p j i h0 h1 => iblk2_0_apply V c t p j i h0 h1) (iblk2_1_eq V c t) (iblk2_2_eq V c t)
    ((cfg2.win 3).xinj (grid2.coords t) y) (((cfg2.win 3).blk t).view.emb y)
    (by show win2_3.index t (0 : Fin 2) * 4096 + 1 * (y 0).val = t.val * 4096 + (y 0).val; rw [e0]; omega)
    (by show win2_3.index t (1 : Fin 2) * 128 + 1 * (y 1).val = (y 1).val; rw [e1]; omega)

/-- An index of the result is in point t's block when each coordinate is in the block's range on its axis. -/
theorem mem_blk2 (t : Fin cfg2.N) (i : S151552x128.Idx) :
    i ∈ ((cfg2.win 3).blk t).view.set ↔ ∀ a : Fin 2, win2_3.index t a * S4096x128.size a ≤ (i a).val ∧ (i a).val < win2_3.index t a * S4096x128.size a + S4096x128.size a := by
  show i ∈ ((View.whole main_v16).slice (win2_3.rect t)).set ↔ _
  rw [View.set_slice_whole, Rect.mem_set_unit]
  exact Iff.rfl

/-- The 37 blocks of 4096 rows tile the 151552 rows: row r is in the block of point r / 4096. -/
theorem cover2 (i : S151552x128.Idx) : ∃ t : Fin cfg2.N, (cfg2.win 3).flush t = true ∧ i ∈ ((cfg2.win 3).blk t).view.set := by
  have hi0 : (i 0).val < 151552 := (i 0).isLt
  have hi1 : (i 1).val < 128 := (i 1).isLt
  have hN : cfg2.N = 37 := N_2
  obtain ⟨t, ht⟩ : ∃ t : Fin cfg2.N, t.val = (i 0).val / 4096 := ⟨⟨(i 0).val / 4096, by rw [hN]; omega⟩, rfl⟩
  obtain ⟨-, -, -, -, -, -, e0, e1⟩ := idx_facts2 t
  refine ⟨t, flush2_3 t, ?_⟩
  rw [mem_blk2]
  intro a
  match a with
  | ⟨0, _⟩ => show win2_3.index t (0 : Fin 2) * 4096 ≤ (i 0).val ∧ (i 0).val < win2_3.index t (0 : Fin 2) * 4096 + 4096; rw [e0, ht]; omega
  | ⟨1, _⟩ => show win2_3.index t (1 : Fin 2) * 128 ≤ (i 1).val ∧ (i 1).val < win2_3.index t (1 : Fin 2) * 128 + 128; rw [e1]; omega

/-- The output array after the region is the result, whatever it held before. -/
theorem arr2_eq (c : Dev nD) : (dat2 (F := Ideal) V c).arrAt 3 cfg2.N = res2 V c :=
  (dat2 (F := Ideal) V c).arrAt_eq_of_cover 3 (res2 V c) (fun t _ => flushed2_eq V c t) cover2

/-- THE VALUE: the output array at row r and column k is the sum over j of feature (r, j) times weight (j, k), plus
    bias k. -/
theorem arr2_apply (c : Dev nD) (r : Fin 151552) (k : Fin 128) :
    ((dat2 (F := Ideal) V c).arrAt 3 cfg2.N : Vec Ideal S151552x128 .f32) (ix2 r k)
      = (∑ j : Fin 371, feat2 V c (ix2 r j) * wts2 V c (ix2 j k)) + bias2 V c (ix2 0 k) :=
  congrFun (arr2_eq V c) (ix2 r k)

end AtIdeal

end Cert.KernelIdeal.Hand

end
-- ==== Proof.KernelIdeal.HostReads.lean ====
/-
  The host side of the program, read at an index. Before its first region the program pads each of the two index
  vectors of 200000 entries with 704 zeros and recasts it as a one-column matrix of 200704 rows, and narrows the
  embedding tables to bf16, which at the ideal instance changes nothing. So row r < 200000 of either column holds
  entry r of its vector, and the tables are the launch's. After its last region it cuts each region's result back
  to the rows that are real (200000, 150000 and 150000 of them) and stacks the three: the program's result is that
  concatenation of slices of what the regions leave, whatever that is. A slice that starts at the origin reads, at
  (r, k), the array at (r, k).
-/
import proofs.«407136_j58394375357022_3_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal

noncomputable section

namespace Cert.KernelIdeal.Hand

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (outs : Outs (F := Ideal))

/-! ## A padded vector recast as a column, read at an index -/

/-- A vector of `n` entries padded at its end to `N` entries and recast as a one-column matrix has, in row `r < n`,
    entry `r` of the vector. -/
private theorem pad_col_apply {α : Type} {n N : ℕ} (hi : Fin 1 → ℕ) (x : (⟨1, ![n]⟩ : Shape).Idx → α) {u : Shape} (v : u.Idx → α)
    (hp : (⟨1, ![n]⟩ : Shape).Pads ![0] hi ![0] ⟨1, ![N]⟩) (hu : 0 < u.numel)
    (hc : (⟨1, ![N]⟩ : Shape).ShapeCasts ⟨2, ![N, 1]⟩) (r : Fin N) (z : Fin 1) (hr : r.val < n) :
    shapeCast ⟨2, ![N, 1]⟩ (pad ⟨1, ![N]⟩ ![0] hi ![0] x v hp hu) hc (ix2 r z) = x (ix1 ⟨r.val, hr⟩) := by
  refine (shapeCast_apply _ hc (ix2 r z) (ix1 r) ?_).trans ?_
  · have hz := z.isLt
    rw [Shape.rowMajor_val_one, Shape.rowMajor_val_two]
    show r.val = r.val * 1 + z.val
    omega
  · exact pad_apply_of_inside _ _ _ x v hp hu (ix1 r) (ix1 ⟨r.val, hr⟩)
      (fun a => match a with | ⟨0, _⟩ => by show r.val = 0 + r.val * (0 + 1); omega)

/-! ## The slices of the regions' results read at an index -/

/-- The leading 200000 rows of an array of 200704 rows, read at `(r, k)`, are the array there. -/
theorem slice0_apply (a : Vec Ideal S200704x128 .f32) (r : Fin 200000) (k : Fin 128) :
    extractStridedSlice S200000x128 ![0, 0] a slices_S200704x128_S200000x128_0_0 (ix2 r k) = a (ix2 ⟨r.val, by omega⟩ k) :=
  extractStridedSlice_apply _ a _ (ix2 r k) (ix2 ⟨r.val, by omega⟩ k)
    (fun b => match b with
      | ⟨0, _⟩ => by show r.val = 0 + r.val; omega
      | ⟨1, _⟩ => by show k.val = 0 + k.val; omega)

/-- The leading 150000 rows of an array of 151552 rows, read at `(r, k)`, are the array there. -/
theorem slice1_apply (a : Vec Ideal S151552x128 .f32) (r : Fin 150000) (k : Fin 128) :
    extractStridedSlice S150000x128 ![0, 0] a slices_S151552x128_S150000x128_0_0 (ix2 r k) = a (ix2 ⟨r.val, by omega⟩ k) :=
  extractStridedSlice_apply _ a _ (ix2 r k) (ix2 ⟨r.val, by omega⟩ k)
    (fun b => match b with
      | ⟨0, _⟩ => by show r.val = 0 + r.val; omega
      | ⟨1, _⟩ => by show k.val = 0 + k.val; omega)

/-! ## The first region's entry arrays -/

/-- The first index column whole: the first index vector padded by 704 zeros, as a column. -/
private theorem V5_main_v1 (c : Dev nD) :
    (V5 m c main_v1 : IVec S200704x1 32)
      = shapeCast S200704x1 (pad S200704 ![0] ![704] ![0] (m ((c : Thread nD τ).loc main_arg7) : IVec S200000 32)
          (constantI S_ 32 0#32) pads_S200000_S200704_07040 h_S_) shapeCasts_S200704_S200704x1 := by
  show StableHlo.after hostOps0_4 (V4 m c) (Proc.devRef .tc main_v1) = _
  after_results
  rfl

/-- The second index column whole: the second index vector padded by 704 zeros, as a column. -/
private theorem V5_main_v3 (c : Dev nD) :
    (V5 m c main_v3 : IVec S200704x1 32)
      = shapeCast S200704x1 (pad S200704 ![0] ![704] ![0] (m ((c : Thread nD τ).loc main_arg8) : IVec S200000 32)
          (constantI S_ 32 0#32) pads_S200000_S200704_07040 h_S_) shapeCasts_S200704_S200704x1 := by
  show StableHlo.after hostOps0_4 (V4 m c) (Proc.devRef .tc main_v3) = _
  after_results
  rfl

/-- The tables whole: the launch's tables narrowed to bf16. -/
private theorem V5_main_v4 (c : Dev nD) :
    (V5 m c main_v4 : FVec Ideal S4x1000x128 .bf16)
      = truncf (F := Ideal) .bf16 (m ((c : Thread nD τ).loc main_arg0) : FVec Ideal S4x1000x128 .f32) bitsLt_bf16_f32 := by
  show StableHlo.after hostOps0_4 (V4 m c) (Proc.devRef .tc main_v4) = _
  after_results

/-- Row `r < 200000` of the first index column is entry `r` of the first index vector. -/
theorem entry0_type (c : Dev nD) (r : Fin 200704) (hr : r.val < 200000) :
    (V5 m c main_v1 : IVec S200704x1 32) (ix2 r 0) = (m ((c : Thread nD τ).loc main_arg7) : IVec S200000 32) (ix1 ⟨r.val, hr⟩) := by
  rw [V5_main_v1]
  exact pad_col_apply _ _ _ _ _ _ r 0 hr

/-- Row `r < 200000` of the second index column is entry `r` of the second index vector. -/
theorem entry0_value (c : Dev nD) (r : Fin 200704) (hr : r.val < 200000) :
    (V5 m c main_v3 : IVec S200704x1 32) (ix2 r 0) = (m ((c : Thread nD τ).loc main_arg8) : IVec S200000 32) (ix1 ⟨r.val, hr⟩) := by
  rw [V5_main_v3]
  exact pad_col_apply _ _ _ _ _ _ r 0 hr

/-- The tables the first region reads are the launch's, entry by entry: narrowing to bf16 is the identity on ideal values. -/
theorem entry0_table (c : Dev nD) (i : S4x1000x128.Idx) :
    (V5 m c main_v4 : Vec Ideal S4x1000x128 .bf16) i = (m ((c : Thread nD τ).loc main_arg0) : Vec Ideal S4x1000x128 .f32) i := by
  rw [V5_main_v4]
  rfl

/-! ## The result: the three regions' results, cut back to their rows and stacked -/

/-- What the first region leaves, cut back to its 200000 rows: written right after that region, untouched since. -/
private theorem V16_main_v6 (c : Dev nD) :
    (V16 m outs c main_v6 : Vec Ideal S200000x128 .f32)
      = extractStridedSlice S200000x128 ![0, 0] (outs 6 main_v5 c : Vec Ideal S200704x128 .f32) slices_S200704x128_S200000x128_0_0 := by
  refine ((V16_of m outs c main_v6 (by decide)).trans <| (V15_of m outs c main_v6 (by decide)).trans <| (V14_of m outs c main_v6 (by decide)).trans <| (V13_of m outs c main_v6 (by decide)).trans <| (V12_of m outs c main_v6 (by decide)).trans <| (V11_of m outs c main_v6 (by decide)).trans <| (V10_of m outs c main_v6 (by decide)).trans <| (V9_of m outs c main_v6 (by decide)).trans <| (V8_of m outs c main_v6 (by decide))).trans ?_
  show StableHlo.after hostOps1 (V6 m outs c) (Proc.devRef .tc main_v6) = _
  after_results
  rw [show V6 m outs c (Proc.devRef .tc main_v5) = outs 6 main_v5 c from Function.update_self _ _ _]

/-- What the second region leaves, cut back to its 150000 rows: written right after that region, untouched since. -/
private theorem V16_main_v12 (c : Dev nD) :
    (V16 m outs c main_v12 : Vec Ideal S150000x128 .f32)
      = extractStridedSlice S150000x128 ![0, 0] (outs 12 main_v11 c : Vec Ideal S151552x128 .f32) slices_S151552x128_S150000x128_0_0 := by
  refine ((V16_of m outs c main_v12 (by decide)).trans <| (V15_of m outs c main_v12 (by decide)).trans <| (V14_of m outs c main_v12 (by decide))).trans ?_
  show StableHlo.after hostOps2 (V12 m outs c) (Proc.devRef .tc main_v12) = _
  after_results
  rw [show V12 m outs c (Proc.devRef .tc main_v11) = outs 12 main_v11 c from Function.update_self _ _ _]

/-- What the third region leaves, whole. -/
private theorem V16_main_v16 (c : Dev nD) : V16 m outs c main_v16 = outs 16 main_v16 c := Function.update_self _ _ _

/-- The program's result: the leading 200000, 150000 and 150000 rows of what the three regions leave, stacked. -/
theorem result_eq (c : Dev nD) :
    (V17 m outs c main_v18 : Vec Ideal S500000x128 .f32)
      = concatenate S500000x128 0
          [⟨S200000x128, extractStridedSlice S200000x128 ![0, 0] (outs 6 main_v5 c : Vec Ideal S200704x128 .f32) slices_S200704x128_S200000x128_0_0⟩,
           ⟨S150000x128, extractStridedSlice S150000x128 ![0, 0] (outs 12 main_v11 c : Vec Ideal S151552x128 .f32) slices_S151552x128_S150000x128_0_0⟩,
           ⟨S150000x128, extractStridedSlice S150000x128 ![0, 0] (outs 16 main_v16 c : Vec Ideal S151552x128 .f32) slices_S151552x128_S150000x128_0_0⟩]
          concatenates_S200000x128_S150000x128_S150000x128_S500000x128_d0 := by
  show StableHlo.after hostOps3 (V16 m outs c) (Proc.devRef .tc main_v18) = _
  simp only [after_cons, after_nil]
  rw [nary_result]
  show concatenate S500000x128 0
      [⟨S200000x128, (StableHlo.unary main_v16 main_v17 _ _ _).result (V16 m outs c) (Proc.devRef .tc main_v6)⟩,
       ⟨S150000x128, (StableHlo.unary main_v16 main_v17 _ _ _).result (V16 m outs c) (Proc.devRef .tc main_v12)⟩,
       ⟨S150000x128, (StableHlo.unary main_v16 main_v17 _ _ _).result (V16 m outs c) (Proc.devRef .tc main_v17)⟩] _ = _
  rw [unary_result_ne (r := main_v6), unary_result_ne (r := main_v12), unary_result, V16_main_v6, V16_main_v12, V16_main_v16]
  · decide
  · decide

end Cert.KernelIdeal.Hand

end
-- ==== Proof.KernelIdeal.HostReads12.lean ====
/-
  The arrays the second and third pallas_calls find when they are entered, read at an index from the arguments.
  Before the second call the type ids and the values, 150000 entries each, are padded with 1552 zeros and laid
  as columns [151552, 1]; the two small tables are the arguments untouched. Before the third call the feature
  matrix is padded with 1552 zero rows, the weights change format only (the identity on ideal values) and the
  bias vector is laid as one row. Only entries below the unpadded extent are read here.
-/
import proofs.«407136_j58394375357022_3_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.ValueIdx

variable (m : (ℓ : Loc nD τ sig) → Buf (Elt Ideal) ℓ) (outs : Outs (F := Ideal))

/-! ## What no item writes -/

/-- A buffer that nothing up to the first call writes holds, after it, its launch contents. -/
theorem kept6 (c : Dev nD) (r : Ref sig .tc)
    (h : r ∉ hostOps0_W ∧ r ∉ hostOps0_1_W ∧ r ∉ hostOps0_2_W ∧ r ∉ hostOps0_3_W ∧ r ∉ hostOps0_4_W
      ∧ r ∉ ([main_v5] : List (Ref sig .tc))) :
    V6 m outs c r = m ((c : Thread nD τ).loc r) :=
  (V6_of m outs c r h.2.2.2.2.2).trans <| (V5_of m c r h.2.2.2.2.1).trans <|
    (V4_of m c r h.2.2.2.1).trans <| (V3_of m c r h.2.2.1).trans <| (V2_of m c r h.2.1).trans <| (V1_of m c r h.1).trans rfl

/-- A buffer that nothing up to the second call's entry writes holds, there, its launch contents. -/
theorem kept11 (c : Dev nD) (r : Ref sig .tc)
    (h6 : r ∉ hostOps0_W ∧ r ∉ hostOps0_1_W ∧ r ∉ hostOps0_2_W ∧ r ∉ hostOps0_3_W ∧ r ∉ hostOps0_4_W
      ∧ r ∉ ([main_v5] : List (Ref sig .tc)))
    (h : r ∉ hostOps1_W ∧ r ∉ hostOps1_1_W ∧ r ∉ hostOps1_2_W ∧ r ∉ hostOps1_3_W ∧ r ∉ hostOps1_4_W) :
    V11 m outs c r = m ((c : Thread nD τ).loc r) :=
  (V11_of m outs c r h.2.2.2.2).trans <| (V10_of m outs c r h.2.2.2.1).trans <| (V9_of m outs c r h.2.2.1).trans <|
    (V8_of m outs c r h.2.1).trans <| (V7_of m outs c r h.1).trans (kept6 m outs c r h6)

/-- A buffer that nothing up to the second call writes holds, after it, its launch contents. -/
theorem kept12 (c : Dev nD) (r : Ref sig .tc)
    (h6 : r ∉ hostOps0_W ∧ r ∉ hostOps0_1_W ∧ r ∉ hostOps0_2_W ∧ r ∉ hostOps0_3_W ∧ r ∉ hostOps0_4_W
      ∧ r ∉ ([main_v5] : List (Ref sig .tc)))
    (h11 : r ∉ hostOps1_W ∧ r ∉ hostOps1_1_W ∧ r ∉ hostOps1_2_W ∧ r ∉ hostOps1_3_W ∧ r ∉ hostOps1_4_W)
    (h : r ∉ ([main_v11] : List (Ref sig .tc))) :
    V12 m outs c r = m ((c : Thread nD τ).loc r) :=
  (V12_of m outs c r h).trans (kept11 m outs c r h6 h11)

/-! ## The second call's entry arrays -/

/-- The type ids as the second call finds them: below the unpadded extent, the argument's entries down a column. -/
theorem entry1_type (c : Dev nD) (r : Fin 151552) (hr : r.val < 150000) :
    (V11 m outs c main_v8 : IVec S151552x1 32) (ix2 r 0) = (m ((c : Thread nD τ).loc main_arg9) : IVec S150000 32) (ix1 ⟨r.val, hr⟩) := by
  have e : V11 m outs c main_v8 = shapeCast S151552x1 (pad S151552 ![0] ![1552] ![0] (V6 m outs c main_arg9 : IVec S150000 32)
      (constantI S_ 32 0#32) pads_S150000_S151552_015520 h_S_) shapeCasts_S151552_S151552x1 := by
    rw [V11_of m outs c main_v8 (by decide), V10_of m outs c main_v8 (by decide)]
    show StableHlo.after hostOps1_2 (V8 m outs c) (Proc.devRef .tc main_v8) = _
    after_results
    rfl
  refine (congrFun e (ix2 r 0)).trans ?_
  refine (shapeCast_apply _ _ (ix2 r 0) (ix1 r) (by rw [Shape.rowMajor_val_one, Shape.rowMajor_val_two]; show r.val = r.val * 1 + 0; omega)).trans ?_
  refine (pad_apply_of_inside _ _ _ _ _ _ _ (ix1 r) (ix1 ⟨r.val, hr⟩) (fun a => by
    match a with
    | ⟨0, _⟩ => show r.val = 0 + r.val * (0 + 1); omega)).trans ?_
  exact congrFun (kept6 m outs c main_arg9 (by decide)) _

/-- The values as the second call finds them: below the unpadded extent, the argument's entries down a column. -/
theorem entry1_value (c : Dev nD) (r : Fin 151552) (hr : r.val < 150000) :
    (V11 m outs c main_v10 : Vec Ideal S151552x1 .f32) (ix2 r 0) = (m ((c : Thread nD τ).loc main_arg6) : Vec Ideal S150000 .f32) (ix1 ⟨r.val, hr⟩) := by
  have e : V11 m outs c main_v10 = shapeCast S151552x1 (pad S151552 ![0] ![1552] ![0] (V6 m outs c main_arg6 : Vec Ideal S150000 .f32)
      (sitofp (F := Ideal) .f32 (constantI S_ 32 0#32)) pads_S150000_S151552_015520 h_S_) shapeCasts_S151552_S151552x1 := by
    show StableHlo.after hostOps1_4 (V10 m outs c) (Proc.devRef .tc main_v10) = _
    after_results
    rfl
  refine (congrFun e (ix2 r 0)).trans ?_
  refine (shapeCast_apply _ _ (ix2 r 0) (ix1 r) (by rw [Shape.rowMajor_val_one, Shape.rowMajor_val_two]; show r.val = r.val * 1 + 0; omega)).trans ?_
  refine (pad_apply_of_inside _ _ _ _ _ _ _ (ix1 r) (ix1 ⟨r.val, hr⟩) (fun a => by
    match a with
    | ⟨0, _⟩ => show r.val = 0 + r.val * (0 + 1); omega)).trans ?_
  exact congrFun (kept6 m outs c main_arg6 (by decide)) _

/-- The two small tables reach the second call as launched. -/
theorem entry1_w (c : Dev nD) : V11 m outs c main_arg1 = m ((c : Thread nD τ).loc main_arg1) :=
  kept11 m outs c main_arg1 (by decide) (by decide)
theorem entry1_b (c : Dev nD) : V11 m outs c main_arg2 = m ((c : Thread nD τ).loc main_arg2) :=
  kept11 m outs c main_arg2 (by decide) (by decide)

/-! ## The third call's entry arrays -/

/-- The feature matrix as the third call finds it: below the unpadded extent, the argument's rows. -/
theorem entry2_feats (c : Dev nD) (r : Fin 151552) (hr : r.val < 150000) (j : Fin 371) :
    (V15 m outs c main_v13 : Vec Ideal S151552x371 .f32) (ix2 r j) = (m ((c : Thread nD τ).loc main_arg5) : Vec Ideal S150000x371 .f32) (ix2 ⟨r.val, hr⟩ j) := by
  have e : V15 m outs c main_v13 = pad S151552x371 ![0, 0] ![1552, 0] ![0, 0] (V12 m outs c main_arg5 : Vec Ideal S150000x371 .f32)
      (sitofp (F := Ideal) .f32 (constantI S_ 32 0#32)) pads_S150000x371_S151552x371_015520_000 h_S_ := by
    rw [V15_of m outs c main_v13 (by decide)]
    show StableHlo.after hostOps2_1 (V13 m outs c) (Proc.devRef .tc main_v13) = _
    after_results
    rfl
  refine (congrFun e (ix2 r j)).trans ?_
  refine (pad_apply_of_inside _ _ _ _ _ _ _ (ix2 r j) (ix2 ⟨r.val, hr⟩ j) (fun a => by
    match a with
    | ⟨0, _⟩ => show r.val = 0 + r.val * (0 + 1); omega
    | ⟨1, _⟩ => show j.val = 0 + j.val * (0 + 1); omega)).trans ?_
  exact congrFun (kept12 m outs c main_arg5 (by decide) (by decide) (by decide)) _

/-- The weights as the third call finds them: the argument's, the change of format being the identity on ideal values. -/
theorem entry2_w (c : Dev nD) (i : S371x128.Idx) :
    (V15 m outs c main_v14 : Vec Ideal S371x128 .bf16) i = (m ((c : Thread nD τ).loc main_arg3) : Vec Ideal S371x128 .f32) i := by
  have e : (V15 m outs c main_v14 : Vec Ideal S371x128 .bf16)
      = truncf (F := Ideal) (s := S371x128) (φ := .f32) .bf16 (V12 m outs c main_arg3 : Vec Ideal S371x128 .f32) bitsLt_bf16_f32 := by
    show StableHlo.after hostOps2_2 (V14 m outs c) (Proc.devRef .tc main_v14) = _
    after_results
  refine (congrFun e i).trans ?_
  exact congrFun (kept12 m outs c main_arg3 (by decide) (by decide) (by decide)) i

/-- The bias as the third call finds it: the argument's entries along one row. -/
theorem entry2_bias (c : Dev nD) (k : Fin 128) :
    (V15 m outs c main_v15 : Vec Ideal S1x128 .f32) (ix2 0 k) = (m ((c : Thread nD τ).loc main_arg4) : Vec Ideal S128 .f32) (ix1 k) := by
  have e : V15 m outs c main_v15 = shapeCast S1x128 (V12 m outs c main_arg4 : Vec Ideal S128 .f32) shapeCasts_S128_S1x128 := by
    show StableHlo.after hostOps2_2 (V14 m outs c) (Proc.devRef .tc main_v15) = _
    after_results
    rfl
  refine (congrFun e (ix2 0 k)).trans ?_
  refine (shapeCast_a_1a_apply _ _ (0 : Fin 1) k).trans ?_
  exact congrFun (kept12 m outs c main_arg4 (by decide) (by decide) (by decide)) _

end Cert.KernelIdeal.Hand

end
-- ==== Proof.Spec.lean ====
/-
  What the three row groups of the result are, index by index, as functions of the argument arrays read on the
  extended reals. Row `r` of the categorical group is the table row named by the pair (type id, value id) of node `r`;
  row `r` of the continuous group is `value r * w[type r] + b[type r]`; row `r` of the transaction group is the
  matrix product `feats r · W` plus the bias. An id is read as a natural number and capped at the last row of the
  table it indexes, so that each function is total; where every id is in range the cap is the identity.
-/
import Idealize.ShloMosaic.PureOps.Ideal
import Idealize.ShloMosaic.Lib.ValueIdx

noncomputable section

namespace Cert.Spec

open Idealize.ShloMosaic Idealize.ShloMosaic.ValueIdx

/-- Categorical rows: `tab[type r, value r, k]`. -/
def catRows (tab : (⟨3, ![4, 1000, 128]⟩ : Shape).Idx → EReal) (tid vid : IVec ⟨1, ![200000]⟩ 32) :
    (⟨2, ![200000, 128]⟩ : Shape).Idx → EReal :=
  fun i => tab (ix3 ⟨min (tid (ix1 (i 0))).toNat 3, by omega⟩ ⟨min (vid (ix1 (i 0))).toNat 999, by omega⟩ (i 1))

/-- Continuous rows: `v r * w[type r, k] + b[type r, k]`. -/
def contRows (w b : (⟨2, ![4, 128]⟩ : Shape).Idx → EReal) (v : (⟨1, ![150000]⟩ : Shape).Idx → EReal)
    (tid : IVec ⟨1, ![150000]⟩ 32) : (⟨2, ![150000, 128]⟩ : Shape).Idx → EReal :=
  fun i => v (ix1 (i 0)) * w (ix2 ⟨min (tid (ix1 (i 0))).toNat 3, by omega⟩ (i 1))
    + b (ix2 ⟨min (tid (ix1 (i 0))).toNat 3, by omega⟩ (i 1))

/-- Transaction rows: `(∑ j, a[r, j] * W[j, k]) + bias[k]`. -/
def txnRows (a : (⟨2, ![150000, 371]⟩ : Shape).Idx → EReal) (W : (⟨2, ![371, 128]⟩ : Shape).Idx → EReal)
    (bias : (⟨1, ![128]⟩ : Shape).Idx → EReal) : (⟨2, ![150000, 128]⟩ : Shape).Idx → EReal :=
  fun i => (∑ j : Fin 371, a (ix2 (i 0) j) * W (ix2 j (i 1))) + bias (ix1 (i 1))

end Cert.Spec

end
-- ==== Proof.LibTakeRows.lean ====
/-
  A general lemma: `stablehlo.gather` of whole rows of a rank-2 operand, read at an index.

  What `x[idx]` of a table `x : [N, C]` at a vector of row indices lowers to: offset_dims `[1]`,
  collapsed_slice_dims `[0]`, start_index_map `[0]`, index_vector_dim `1` and slice_sizes `[1, C]` over the indices
  as `[E, 1]`. Result element `(e, k)` is the operand at row `idx[e, 0]` — read as a signed integer and clamped into
  `[0, N - 1]`, as the gather clamps every start index — and column `k`. Stated for any record with those dimension
  numbers, whatever sizes `N`, `C`, `E` and word width.
-/
import Idealize.ShloMosaic.PureOps.Ideal
import Idealize.ShloMosaic.Lib.ValueIdx

noncomputable section

namespace Cert.Lib

open Idealize.ShloMosaic Idealize.ShloMosaic.ValueIdx

namespace TakeRows

/-- Those dimension numbers as a literal record, for an operand `[N, C]`, start indices `[E, 1]` and result `[E, C]`;
    `wf` are their conditions. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather of the literal record at `(e, k)`. Axis 0 of the operand is collapsed and start-mapped: its
    coordinate is the clamped start index, with no batching and no offset part. Axis 1 is the one offset axis: its start
    is `0` (it is not start-mapped) and its offset coordinate is the result's coordinate `k`. -/
theorem gather_rowDims_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    -- the start-indices index read for component 0 of the start index of `(e, k)` is `[e, 0]`
    have hsi : (rowDims N C E wf).siIdx (ix2 e k) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show ¬ (1 : Fin 2) ∈ (rowDims N C E wf).startIndexMap from
      fun h => absurd (List.mem_singleton.mp h) (by decide : ¬ (1 : Fin 2) = 0))]
    unfold GatherDims.offCoord
    rw [dif_pos (show (1 : Fin 2) ∈ (rowDims N C E wf).sKept from (GatherDims.mem_sKept _ _).mpr
      ⟨fun h => absurd (List.mem_singleton.mp h) (by decide : ¬ (1 : Fin 2) = 0), List.not_mem_nil⟩)]
    simp only [Nat.add_zero, Nat.zero_add]
    rfl

end TakeRows

open TakeRows

/-- THE ROW GATHER READ AT `(e, k)`: the operand at the start index `idx[e, 0]`, read signed and clamped into
    `[0, N - 1]`, column `k`. -/
theorem gather_rows_apply {α : Type} {N C E w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (k : Fin C) :
    Host.gather d x idx (ix2 e k) = x (ix2 ⟨min (idx (ix2 e 0)).toInt.toNat (N - 1), by omega⟩ k) := by
  -- a record with these fields is the literal one
  obtain ⟨od, cs, ob, sb, sm, iv, ss, wf⟩ := d
  simp only at h1 h2 h3 h4 h5 h6 h7
  subst h1 h2 h3 h4 h5 h6 h7
  exact gather_rowDims_apply hN wf x idx e k

end Cert.Lib

end
-- ==== Proof.LibGatherPairIdx.lean ====
/-
  A general lemma: `stablehlo.gather` of whole rows of a rank-3 operand at a pair of indices, read at an index.

  What `x[i, j]` of a table `x : [A, B, C]` at two index vectors lowers to: offset_dims `[1]`,
  collapsed_slice_dims `[0, 1]`, start_index_map `[0, 1]`, index_vector_dim `1` and slice_sizes `[1, 1, C]` over the
  start indices as `[E, 2]` (the pair `(i[e], j[e])` on the last axis). Result element `(e, k)` is the operand at
  plane `idx[e, 0]` and row `idx[e, 1]` — each read as a signed integer and clamped into `[0, A - 1]`, `[0, B - 1]`, as
  the gather clamps every start index — and column `k`. Stated for any record with those dimension numbers, whatever
  sizes `A`, `B`, `C`, `E` and word width.
-/
import Idealize.ShloMosaic.PureOps.Ideal
import Idealize.ShloMosaic.Lib.ValueIdx

noncomputable section

namespace Cert.Lib

open Idealize.ShloMosaic Idealize.ShloMosaic.ValueIdx

namespace GatherPairIdx

private theorem mem0 : (0 : Fin 3) ∈ ([0, 1] : List (Fin 3)) := by decide
private theorem mem1 : (1 : Fin 3) ∈ ([0, 1] : List (Fin 3)) := by decide
private theorem nmem2 : (2 : Fin 3) ∉ ([0, 1] : List (Fin 3)) := by decide

/-- Those dimension numbers as a literal record, for an operand `[A, B, C]`, start indices `[E, 2]` and result
    `[E, C]`; `wf` are their conditions. -/
abbrev pairDims (A B C E : Nat)
    (wf : GatherDims.WF ⟨3, ![A, B, C]⟩ ⟨2, ![E, 2]⟩ ⟨2, ![E, C]⟩ [1] [0, 1] [] [0, 1] [] 1 ![1, 1, C]) :
    GatherDims ⟨3, ![A, B, C]⟩ ⟨2, ![E, 2]⟩ ⟨2, ![E, C]⟩ where
  offsetDims := [1]
  collapsedSliceDims := [0, 1]
  operandBatchingDims := []
  startIndicesBatchingDims := []
  startIndexMap := [0, 1]
  indexVectorDim := 1
  sliceSizes := ![1, 1, C]
  wf := wf

/-- The pair gather of the literal record at `(e, k)`. Axes 0 and 1 of the operand are collapsed and start-mapped:
    the coordinate of each is its clamped start index (component 0, component 1 of the pair), with no batching and no
    offset part. Axis 2 is the one offset axis: its start is `0` (it is not start-mapped) and its offset coordinate is
    the result's coordinate `k`. -/
theorem gather_pairDims_apply {α : Type} {A B C E w : Nat} (hA : 0 < A) (hB : 0 < B)
    (wf : GatherDims.WF ⟨3, ![A, B, C]⟩ ⟨2, ![E, 2]⟩ ⟨2, ![E, C]⟩ [1] [0, 1] [] [0, 1] [] 1 ![1, 1, C])
    (x : (⟨3, ![A, B, C]⟩ : Shape).Idx → α) (idx : IVec ⟨2, ![E, 2]⟩ w) (e : Fin E) (k : Fin C) :
    Host.gather (pairDims A B C E wf) x idx (ix2 e k)
      = x (ix3 ⟨min (idx (ix2 e 0)).toInt.toNat (A - 1), by omega⟩
            ⟨min (idx (ix2 e 1)).toInt.toNat (B - 1), by omega⟩ k) := by
  unfold Host.gather
  congr 1
  funext a
  refine Fin.ext ?_
  match a with
  | ⟨0, _⟩ =>
    show (pairDims A B C E wf).start (ix2 e k) idx 0 + (pairDims A B C E wf).batchCoord (ix2 e k) 0
      + (pairDims A B C E wf).offCoord (ix2 e k) 0 = _
    rw [GatherDims.batchCoord_eq_zero _ _ _ List.not_mem_nil,
      GatherDims.offCoord_eq_zero _ _ _ (fun h => ((GatherDims.mem_sKept _ _).mp h).1 mem0)]
    simp only [Nat.add_zero]
    unfold GatherDims.start
    rw [dif_pos (show (0 : Fin 3) ∈ (pairDims A B C E wf).startIndexMap from mem0)]
    -- the start-indices index read for component 0 of the start index of `(e, k)` is `[e, 0]`
    have hsi : (pairDims A B C E wf).siIdx (ix2 e k) ⟨List.idxOf (0 : Fin 3) (pairDims A B C E wf).startIndexMap,
        List.idxOf_lt_length_iff.2 mem0⟩ = ix2 e 0 := by
      funext b; refine Fin.ext ?_
      match b with
      | ⟨0, _⟩ => rfl
      | ⟨1, _⟩ => rfl
    rw [hsi]
    rfl
  | ⟨1, _⟩ =>
    show (pairDims A B C E wf).start (ix2 e k) idx 1 + (pairDims A B C E wf).batchCoord (ix2 e k) 1
      + (pairDims A B C E wf).offCoord (ix2 e k) 1 = _
    rw [GatherDims.batchCoord_eq_zero _ _ _ List.not_mem_nil,
      GatherDims.offCoord_eq_zero _ _ _ (fun h => ((GatherDims.mem_sKept _ _).mp h).1 mem1)]
    simp only [Nat.add_zero]
    unfold GatherDims.start
    rw [dif_pos (show (1 : Fin 3) ∈ (pairDims A B C E wf).startIndexMap from mem1)]
    -- the start-indices index read for component 1 of the start index of `(e, k)` is `[e, 1]`
    have hsi : (pairDims A B C E wf).siIdx (ix2 e k) ⟨List.idxOf (1 : Fin 3) (pairDims A B C E wf).startIndexMap,
        List.idxOf_lt_length_iff.2 mem1⟩ = ix2 e 1 := by
      funext b; refine Fin.ext ?_
      match b with
      | ⟨0, _⟩ => rfl
      | ⟨1, _⟩ => rfl
    rw [hsi]
    rfl
  | ⟨2, _⟩ =>
    show (pairDims A B C E wf).start (ix2 e k) idx 2 + (pairDims A B C E wf).batchCoord (ix2 e k) 2
      + (pairDims A B C E wf).offCoord (ix2 e k) 2 = _
    rw [GatherDims.batchCoord_eq_zero _ _ _ List.not_mem_nil]
    unfold GatherDims.start
    rw [dif_neg (show ¬ (2 : Fin 3) ∈ (pairDims A B C E wf).startIndexMap from nmem2)]
    unfold GatherDims.offCoord
    rw [dif_pos (show (2 : Fin 3) ∈ (pairDims A B C E wf).sKept from (GatherDims.mem_sKept _ _).mpr
      ⟨nmem2, List.not_mem_nil⟩)]
    simp only [Nat.add_zero, Nat.zero_add]
    rfl

end GatherPairIdx

open GatherPairIdx

/-- THE PAIR GATHER READ AT `(e, k)`: the operand at the start indices `idx[e, 0]`, `idx[e, 1]`, each read signed
    and clamped into `[0, A - 1]`, `[0, B - 1]`, column `k`. -/
theorem gather_pair_rows_apply {α : Type} {A B C E w : Nat} (hA : 0 < A) (hB : 0 < B)
    (d : GatherDims ⟨3, ![A, B, C]⟩ ⟨2, ![E, 2]⟩ ⟨2, ![E, C]⟩)
    (h1 : d.offsetDims = [1]) (h2 : d.collapsedSliceDims = [0, 1]) (h3 : d.operandBatchingDims = [])
    (h4 : d.startIndicesBatchingDims = []) (h5 : d.startIndexMap = [0, 1]) (h6 : d.indexVectorDim = 1)
    (h7 : d.sliceSizes = ![1, 1, C])
    (x : (⟨3, ![A, B, C]⟩ : Shape).Idx → α) (idx : IVec ⟨2, ![E, 2]⟩ w) (e : Fin E) (k : Fin C) :
    Host.gather d x idx (ix2 e k)
      = x (ix3 ⟨min (idx (ix2 e 0)).toInt.toNat (A - 1), by omega⟩ ⟨min (idx (ix2 e 1)).toInt.toNat (B - 1), by omega⟩ k) := by
  -- a record with these fields is the literal one
  obtain ⟨od, cs, ob, sb, sm, iv, ss, wf⟩ := d
  simp only at h1 h2 h3 h4 h5 h6 h7
  subst h1 h2 h3 h4 h5 h6 h7
  exact gather_pairDims_apply hA hB wf x idx e k

end Cert.Lib

end
-- ==== Proof.RefRows.lean ====
/-
  The reference's three row groups are the specification's, on the extended reals, where every id is in range.

  Each id column passes through the negative-wrap `select (id < 0) (id + N) id` before it indexes a table. An id
  below `N` (`4` or `1000`, far below `2³¹`) is not negative as a signed word, so the wrap returns the id itself, the
  id reads the same natural number signed and unsigned, and the gather's clamp of the start index into `[0, N - 1]` is
  the specification's cap `min id (N - 1)`. The categorical rows are one gather at the PAIR (type id, value id), the
  two id columns laid side by side; the continuous rows are two row gathers at the type id, one multiplied by the
  value and the other added; the transaction rows are a matrix product plus the bias broadcast down the rows.
-/
import proofs.«407136_j58394375357022_3_alg».proof.Proof.Gen.ReferenceIdeal.Read
import proofs.«407136_j58394375357022_3_alg».proof.Proof.Spec
import proofs.«407136_j58394375357022_3_alg».proof.Proof.LibTakeRows
import proofs.«407136_j58394375357022_3_alg».proof.Proof.LibGatherPairIdx
import Idealize.ShloMosaic.Lib.StableHlo.Predicate
import Idealize.ShloMosaic.Lib.Pipeline.Value
import Idealize.ShloMosaic.Lib.ValueIdx
import Idealize.ShloMosaic.PureOps.Ideal

noncomputable section

namespace Cert.RefValue

open Cert.ReferenceIdeal Cert.ReferenceIdeal.Read Idealize.ShloMosaic Idealize.ShloMosaic.ValueIdx
open Idealize.ShloMosaic.StableHlo.Predicate

/-! ## Words: an id in range passes the negative wrap unchanged -/

/-- A word below `2³¹` is not negative as a signed word: the wrap `select (w < 0) (w + c) w` is `w`. -/
theorem wrap_eq_self (w c : BitVec 32) (hw : w.toNat < 2 ^ 31) :
    Scalar.select (IntOp.cmpi .slt w 0#32) (IntOp.addi w c) w = w := by
  unfold Scalar.select
  rw [if_neg]
  intro hc
  have h := (slt_iff_toNat (a := w) (b := 0#32) hw (by decide)).mp hc
  exact Nat.not_lt_zero _ h

/-- Such a word reads the same natural number signed and unsigned. -/
theorem toInt_toNat_eq (w : BitVec 32) (hw : w.toNat < 2 ^ 31) : w.toInt.toNat = w.toNat := by
  rw [toInt_eq_toNat_of_lt hw]
  exact Int.toNat_natCast _

/-- Two reads of a rank-3 array at indices with equal coordinates. -/
theorem read3_congr {α : Type} {A B C : Nat} (x : (⟨3, ![A, B, C]⟩ : Shape).Idx → α) {a a' : Fin A} {b b' : Fin B}
    (k : Fin C) (ha : a.val = a'.val) (hb : b.val = b'.val) : x (ix3 a b k) = x (ix3 a' b' k) := by
  obtain rfl := Fin.ext ha
  obtain rfl := Fin.ext hb
  rfl

/-- Two reads of a rank-2 array at indices with equal coordinates. -/
theorem read2_congr {α : Type} {A C : Nat} (x : (⟨2, ![A, C]⟩ : Shape).Idx → α) {a a' : Fin A}
    (k : Fin C) (ha : a.val = a'.val) : x (ix2 a k) = x (ix2 a' k) := by
  obtain rfl := Fin.ext ha
  rfl

/-! ## The categorical rows -/

/-- The wrapped type-id column is the type-id column. -/
theorem tid_wrap (x7 : (⟨S200000, .i32⟩ : BufTy).Contents (Elt Ideal)) (h7 : ∀ r : Fin 200000, (x7 (ix1 r)).toNat < 4)
    (r : Fin 200000) : val_main_v4 (F := Ideal) x7 (ix1 r) = x7 (ix1 r) := by
  rw [val_main_v4_apply, val_main_v1_apply, val_main_v3_apply, val_main_v0_apply, val_main_v2_apply,
    val_main_c_apply, val_main_c_0_apply]
  exact wrap_eq_self _ _ (Nat.lt_trans (h7 r) (by decide))

/-- The wrapped value-id column is the value-id column. -/
theorem vid_wrap (x8 : (⟨S200000, .i32⟩ : BufTy).Contents (Elt Ideal)) (h8 : ∀ r : Fin 200000, (x8 (ix1 r)).toNat < 1000)
    (r : Fin 200000) : val_main_v9 (F := Ideal) x8 (ix1 r) = x8 (ix1 r) := by
  rw [val_main_v9_apply, val_main_v6_apply, val_main_v8_apply, val_main_v5_apply, val_main_v7_apply,
    val_main_c_1_apply, val_main_c_2_apply]
  exact wrap_eq_self _ _ (Nat.lt_trans (h8 r) (by decide))

theorem idx_v10 (e : Fin 200000) (c : Fin 1) : idx_main_v10 (ix2 e c) = ix1 e := by
  funext a; match a with | ⟨0, _⟩ => rfl

theorem idx_v11 (e : Fin 200000) (c : Fin 1) : idx_main_v11 (ix2 e c) = ix1 e := by
  funext a; match a with | ⟨0, _⟩ => rfl

/-- The pair of start indices at `(e, 0)`: the first column, the wrapped type ids. -/
theorem pair_left (x7 x8 : (⟨S200000, .i32⟩ : BufTy).Contents (Elt Ideal)) (e : Fin 200000) :
    val_main_v12 (F := Ideal) x7 x8 (ix2 e (0 : Fin 2)) = val_main_v10 (F := Ideal) x7 (ix2 e (0 : Fin 1)) := by
  unfold val_main_v12
  exact concatenate_pair_apply_left (t := S200000x2) (s₁ := S200000x1) (s₂ := S200000x1) (1 : Fin S200000x2.rank) _ _ _ (ix2 e (0 : Fin 2)) rfl (ix2 e (0 : Fin 1))
    (fun b => match b with | ⟨0, _⟩ => rfl | ⟨1, _⟩ => rfl)

/-- The pair of start indices at `(e, 1)`: the second column, the wrapped value ids. -/
theorem pair_right (x7 x8 : (⟨S200000, .i32⟩ : BufTy).Contents (Elt Ideal)) (e : Fin 200000) :
    val_main_v12 (F := Ideal) x7 x8 (ix2 e (1 : Fin 2)) = val_main_v11 (F := Ideal) x8 (ix2 e (0 : Fin 1)) := by
  unfold val_main_v12
  exact concatenate_pair_apply_right (t := S200000x2) (s₁ := S200000x1) (s₂ := S200000x1) (1 : Fin S200000x2.rank) _ _ _ (ix2 e (1 : Fin 2)) rfl rfl (ix2 e (0 : Fin 1))
    (fun b hb => match b, hb with | ⟨0, _⟩, _ => rfl | ⟨1, _⟩, hb => absurd rfl hb) rfl

theorem ref_cat (x0 : (⟨S4x1000x128, .f32⟩ : BufTy).Contents (Elt Ideal)) (x7 x8 : (⟨S200000, .i32⟩ : BufTy).Contents (Elt Ideal))
    (h7 : ∀ r : Fin 200000, (x7 (ix1 r)).toNat < 4) (h8 : ∀ r : Fin 200000, (x8 (ix1 r)).toNat < 1000) :
    val_main_v13 (F := Ideal) x0 x7 x8 = Cert.Spec.catRows x0 x7 x8 := by
  funext i
  obtain ⟨e, k, rfl⟩ : ∃ e k, i = ix2 e k := ⟨i 0, i 1, eq_ix2 i⟩
  have hg := Cert.Lib.gather_pair_rows_apply (A := 4) (B := 1000) (C := 128) (E := 200000) (w := 32)
    (by decide) (by decide) gather_S4x1000x128_S200000x2_S200000x128_1_01_n_n_01_1_11128 rfl rfl rfl rfl rfl rfl rfl
    x0 (val_main_v12 (F := Ideal) x7 x8) e k
  -- the start indices at `(e, 0)` and `(e, 1)` are the two ids of node `e`
  have e0 : val_main_v12 (F := Ideal) x7 x8 (ix2 e (0 : Fin 2)) = x7 (ix1 e) := by
    rw [pair_left, val_main_v10_apply, idx_v10, tid_wrap x7 h7]
  have e1 : val_main_v12 (F := Ideal) x7 x8 (ix2 e (1 : Fin 2)) = x8 (ix1 e) := by
    rw [pair_right, val_main_v11_apply, idx_v11, vid_wrap x8 h8]
  unfold val_main_v13
  refine hg.trans ?_
  unfold Cert.Spec.catRows
  refine read3_congr x0 k ?_ ?_
  · show min (val_main_v12 (F := Ideal) x7 x8 (ix2 e (0 : Fin 2))).toInt.toNat (4 - 1) = min (x7 (ix1 e)).toNat 3
    rw [e0, toInt_toNat_eq _ (Nat.lt_trans (h7 e) (by decide))]
  · show min (val_main_v12 (F := Ideal) x7 x8 (ix2 e (1 : Fin 2))).toInt.toNat (1000 - 1) = min (x8 (ix1 e)).toNat 999
    rw [e1, toInt_toNat_eq _ (Nat.lt_trans (h8 e) (by decide))]

/-! ## The continuous rows -/

/-- The wrapped type-id column of the continuous nodes (the weights' gather reads it) is the column. -/
theorem cid_wrap_w (x9 : (⟨S150000, .i32⟩ : BufTy).Contents (Elt Ideal)) (h9 : ∀ r : Fin 150000, (x9 (ix1 r)).toNat < 4)
    (r : Fin 150000) : val_main_v19 (F := Ideal) x9 (ix1 r) = x9 (ix1 r) := by
  rw [val_main_v19_apply, val_main_v16_apply, val_main_v18_apply, val_main_v15_apply, val_main_v17_apply,
    val_main_c_3_apply, val_main_c_4_apply]
  exact wrap_eq_self _ _ (Nat.lt_trans (h9 r) (by decide))

/-- The same column wrapped a second time (the biases' gather reads this copy). -/
theorem cid_wrap_b (x9 : (⟨S150000, .i32⟩ : BufTy).Contents (Elt Ideal)) (h9 : ∀ r : Fin 150000, (x9 (ix1 r)).toNat < 4)
    (r : Fin 150000) : val_main_v28 (F := Ideal) x9 (ix1 r) = x9 (ix1 r) := by
  rw [val_main_v28_apply, val_main_v25_apply, val_main_v27_apply, val_main_v24_apply, val_main_v26_apply,
    val_main_c_5_apply, val_main_c_6_apply]
  exact wrap_eq_self _ _ (Nat.lt_trans (h9 r) (by decide))

theorem idx_v20 (e : Fin 150000) (c : Fin 1) : idx_main_v20 (ix2 e c) = ix1 e := by
  funext a; match a with | ⟨0, _⟩ => rfl

theorem idx_v29 (e : Fin 150000) (c : Fin 1) : idx_main_v29 (ix2 e c) = ix1 e := by
  funext a; match a with | ⟨0, _⟩ => rfl

theorem idx_v14_v22 (e : Fin 150000) (k : Fin 128) : idx_main_v14 (idx_main_v22 (ix2 e k)) = ix1 e := by
  funext a; match a with | ⟨0, _⟩ => rfl

/-- The weights' rows: row `e` is the weights' row at the type id of node `e`, capped. -/
theorem w_rows (x1 : (⟨S4x128, .f32⟩ : BufTy).Contents (Elt Ideal)) (x9 : (⟨S150000, .i32⟩ : BufTy).Contents (Elt Ideal))
    (h9 : ∀ r : Fin 150000, (x9 (ix1 r)).toNat < 4) (e : Fin 150000) (k : Fin 128) :
    val_main_v21 (F := Ideal) x1 x9 (ix2 e k) = x1 (ix2 ⟨min (x9 (ix1 e)).toNat 3, by omega⟩ k) := by
  have hg := Cert.Lib.gather_rows_apply (N := 4) (C := 128) (E := 150000) (w := 32) (by decide)
    gather_S4x128_S150000x1_S150000x128_1_0_n_n_0_1_1128 rfl rfl rfl rfl rfl rfl rfl
    x1 (val_main_v20 (F := Ideal) x9) e k
  unfold val_main_v21
  refine hg.trans (read2_congr x1 k ?_)
  show min (val_main_v20 (F := Ideal) x9 (ix2 e (0 : Fin 1))).toInt.toNat (4 - 1) = min (x9 (ix1 e)).toNat 3
  rw [val_main_v20_apply, idx_v20, cid_wrap_w x9 h9, toInt_toNat_eq _ (Nat.lt_trans (h9 e) (by decide))]

/-- The biases' rows: row `e` is the biases' row at the type id of node `e`, capped. -/
theorem b_rows (x2 : (⟨S4x128, .f32⟩ : BufTy).Contents (Elt Ideal)) (x9 : (⟨S150000, .i32⟩ : BufTy).Contents (Elt Ideal))
    (h9 : ∀ r : Fin 150000, (x9 (ix1 r)).toNat < 4) (e : Fin 150000) (k : Fin 128) :
    val_main_v30 (F := Ideal) x2 x9 (ix2 e k) = x2 (ix2 ⟨min (x9 (ix1 e)).toNat 3, by omega⟩ k) := by
  have hg := Cert.Lib.gather_rows_apply (N := 4) (C := 128) (E := 150000) (w := 32) (by decide)
    gather_S4x128_S150000x1_S150000x128_1_0_n_n_0_1_1128 rfl rfl rfl rfl rfl rfl rfl
    x2 (val_main_v29 (F := Ideal) x9) e k
  unfold val_main_v30
  refine hg.trans (read2_congr x2 k ?_)
  show min (val_main_v29 (F := Ideal) x9 (ix2 e (0 : Fin 1))).toInt.toNat (4 - 1) = min (x9 (ix1 e)).toNat 3
  rw [val_main_v29_apply, idx_v29, cid_wrap_b x9 h9, toInt_toNat_eq _ (Nat.lt_trans (h9 e) (by decide))]

theorem ref_cont (x1 x2 : (⟨S4x128, .f32⟩ : BufTy).Contents (Elt Ideal)) (x6 : (⟨S150000, .f32⟩ : BufTy).Contents (Elt Ideal)) (x9 : (⟨S150000, .i32⟩ : BufTy).Contents (Elt Ideal))
    (h9 : ∀ r : Fin 150000, (x9 (ix1 r)).toNat < 4) :
    val_main_v31 (F := Ideal) x1 x2 x6 x9 = Cert.Spec.contRows x1 x2 x6 x9 := by
  funext i
  obtain ⟨e, k, rfl⟩ : ∃ e k, i = ix2 e k := ⟨i 0, i 1, eq_ix2 i⟩
  rw [val_main_v31_apply, val_main_v23_apply, val_main_v22_apply, val_main_v14_apply, idx_v14_v22,
    w_rows x1 x9 h9, b_rows x2 x9 h9]
  rfl

/-! ## The transaction rows -/

theorem lidx_v32 (i : S150000x128.Idx) (j : Fin 371) : lidx_main_v32 i j = ix2 (i 0) j := by
  funext a; match a with | ⟨0, _⟩ => rfl | ⟨1, _⟩ => rfl

theorem ridx_v32 (i : S150000x128.Idx) (j : Fin 371) : ridx_main_v32 i j = ix2 j (i 1) := by
  funext a; match a with | ⟨0, _⟩ => rfl | ⟨1, _⟩ => rfl

theorem idx_v33_v34 (i : S150000x128.Idx) : idx_main_v33 (idx_main_v34 i) = ix1 (i 1) := by
  funext a; match a with | ⟨0, _⟩ => rfl

theorem ref_txn (x3 : (⟨S371x128, .f32⟩ : BufTy).Contents (Elt Ideal)) (x4 : (⟨S128, .f32⟩ : BufTy).Contents (Elt Ideal)) (x5 : (⟨S150000x371, .f32⟩ : BufTy).Contents (Elt Ideal)) :
    val_main_v35 (F := Ideal) x3 x4 x5 = Cert.Spec.txnRows x5 x3 x4 := by
  funext i
  rw [val_main_v35_apply, val_main_v32_apply, val_main_v34_apply, val_main_v33_apply, idx_v33_v34]
  simp only [lidx_v32, ridx_v32]
  rfl

end Cert.RefValue

end
-- ==== Proof.KernelIdeal.Pieces.lean ====
/-
  The three row groups of the kernel program's result, on the extended reals, are the specification's. Each group is
  a region's result array cut back to its logical row count. A region's result array read at a row is the region's
  formula in the arrays the region was entered from (the region's value), and those arrays read at a row below the
  logical count are the program's arguments (the host side: pads, reshapes, conversions that are the identity on the
  extended reals). Where the ids are in range the formula's masked sums keep exactly the row the ids name.
-/
import proofs.«407136_j58394375357022_3_alg».proof.Proof.KernelIdeal.Outs
import proofs.«407136_j58394375357022_3_alg».proof.Proof.KernelIdeal.Val0
import proofs.«407136_j58394375357022_3_alg».proof.Proof.KernelIdeal.Val1
import proofs.«407136_j58394375357022_3_alg».proof.Proof.KernelIdeal.Val2
import proofs.«407136_j58394375357022_3_alg».proof.Proof.KernelIdeal.HostReads
import proofs.«407136_j58394375357022_3_alg».proof.Proof.KernelIdeal.HostReads12
import proofs.«407136_j58394375357022_3_alg».proof.Proof.Spec
import proofs.«407136_j58394375357022_3_alg».proof.Proof.RefRows

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (outs : Outs (F := Ideal))

/-- The categorical rows: the first region's result array cut to 200000 rows is the table row the pair of ids names,
    both ids being in range. -/
theorem piece_cat (hO : OutsOk m outs) (c : Dev nD)
    (h7 : ∀ r : Fin 200000, ((m ((c : Thread nD τ).loc main_arg7) : IVec S200000 32) (ix1 r)).toNat < 4)
    (h8 : ∀ r : Fin 200000, ((m ((c : Thread nD τ).loc main_arg8) : IVec S200000 32) (ix1 r)).toNat < 1000) :
    extractStridedSlice S200000x128 ![0, 0] (outs 6 main_v5 c : Vec Ideal S200704x128 .f32) slices_S200704x128_S200000x128_0_0
      = Cert.Spec.catRows (m ((c : Thread nD τ).loc main_arg0)) (m ((c : Thread nD τ).loc main_arg7))
          (m ((c : Thread nD τ).loc main_arg8)) := by
  funext i
  obtain ⟨r, k, rfl⟩ : ∃ (r : Fin 200000) (k : Fin 128), i = ix2 r k := ⟨i 0, i 1, eq_ix2 i⟩
  have hr : r.val < 200704 := by omega
  have hty : (VE0 m c main_v1 : IVec S200704x1 32) (ix2 ⟨r.val, hr⟩ 0)
      = (m ((c : Thread nD τ).loc main_arg7) : IVec S200000 32) (ix1 r) := entry0_type m c ⟨r.val, hr⟩ r.isLt
  have hvl : (VE0 m c main_v3 : IVec S200704x1 32) (ix2 ⟨r.val, hr⟩ 0)
      = (m ((c : Thread nD τ).loc main_arg8) : IVec S200000 32) (ix1 r) := entry0_value m c ⟨r.val, hr⟩ r.isLt
  have hT : ((VE0 m c main_v1 : IVec S200704x1 32) (ix2 ⟨r.val, hr⟩ 0)).toNat < 4 := by rw [hty]; exact h7 r
  have hV : ((VE0 m c main_v3 : IVec S200704x1 32) (ix2 ⟨r.val, hr⟩ 0)).toNat < 1000 := by rw [hvl]; exact h8 r
  have ha : (⟨((VE0 m c main_v1 : IVec S200704x1 32) (ix2 ⟨r.val, hr⟩ 0)).toNat, hT⟩ : Fin 4)
      = ⟨min ((m ((c : Thread nD τ).loc main_arg7) : IVec S200000 32) (ix1 r)).toNat 3, by omega⟩ :=
    Fin.ext (by show ((VE0 m c main_v1 : IVec S200704x1 32) (ix2 ⟨r.val, hr⟩ 0)).toNat = min _ 3; rw [hty]; have := h7 r; omega)
  have hb : (⟨((VE0 m c main_v3 : IVec S200704x1 32) (ix2 ⟨r.val, hr⟩ 0)).toNat, hV⟩ : Fin 1000)
      = ⟨min ((m ((c : Thread nD τ).loc main_arg8) : IVec S200000 32) (ix1 r)).toNat 999, by omega⟩ :=
    Fin.ext (by show ((VE0 m c main_v3 : IVec S200704x1 32) (ix2 ⟨r.val, hr⟩ 0)).toNat = min _ 999; rw [hvl]; have := h8 r; omega)
  rw [slice0_apply, hO.h0 c]
  refine (arr0_apply (VE0 m) c ⟨r.val, hr⟩ k hT hV).trans ?_
  rw [ha, hb]
  exact entry0_table m c _

/-- The continuous rows: the second region's result array cut to 150000 rows is `value * w[type] + b[type]`, the
    type ids being in range. -/
theorem piece_cont (hO : OutsOk m outs) (c : Dev nD)
    (h9 : ∀ r : Fin 150000, ((m ((c : Thread nD τ).loc main_arg9) : IVec S150000 32) (ix1 r)).toNat < 4) :
    extractStridedSlice S150000x128 ![0, 0] (outs 12 main_v11 c : Vec Ideal S151552x128 .f32) slices_S151552x128_S150000x128_0_0
      = Cert.Spec.contRows (m ((c : Thread nD τ).loc main_arg1)) (m ((c : Thread nD τ).loc main_arg2))
          (m ((c : Thread nD τ).loc main_arg6)) (m ((c : Thread nD τ).loc main_arg9)) := by
  funext i
  obtain ⟨r, k, rfl⟩ : ∃ (r : Fin 150000) (k : Fin 128), i = ix2 r k := ⟨i 0, i 1, eq_ix2 i⟩
  have hr : r.val < 151552 := by omega
  have hty : tyArr (VE1 m outs) c (ix2 ⟨r.val, hr⟩ 0) = (m ((c : Thread nD τ).loc main_arg9) : IVec S150000 32) (ix1 r) :=
    entry1_type m outs c ⟨r.val, hr⟩ r.isLt
  have hT : (tyArr (VE1 m outs) c (ix2 ⟨r.val, hr⟩ 0)).toNat < 4 := by rw [hty]; exact h9 r
  have hidx : (⟨(tyArr (VE1 m outs) c (ix2 ⟨r.val, hr⟩ 0)).toNat, hT⟩ : Fin 4)
      = ⟨min ((m ((c : Thread nD τ).loc main_arg9) : IVec S150000 32) (ix1 r)).toNat 3, by omega⟩ :=
    Fin.ext (by show (tyArr (VE1 m outs) c (ix2 ⟨r.val, hr⟩ 0)).toNat = min _ 3; rw [hty]; have := h9 r; omega)
  rw [slice1_apply, hO.h1 c]
  refine (arr1_apply (VE1 m outs) c ⟨r.val, hr⟩ k hT).trans ?_
  rw [hidx]
  unfold Cert.Spec.contRows
  exact congrArg₂ (· + ·)
    (congrArg₂ (· * ·) (entry1_value m outs c ⟨r.val, hr⟩ r.isLt) (congrFun (entry1_w m outs c) _))
    (congrFun (entry1_b m outs c) _)

/-- The transaction rows: the third region's result array cut to 150000 rows is `feats · W + bias`. -/
theorem piece_txn (hO : OutsOk m outs) (c : Dev nD) :
    extractStridedSlice S150000x128 ![0, 0] (outs 16 main_v16 c : Vec Ideal S151552x128 .f32) slices_S151552x128_S150000x128_0_0
      = Cert.Spec.txnRows (m ((c : Thread nD τ).loc main_arg5)) (m ((c : Thread nD τ).loc main_arg3)) (m ((c : Thread nD τ).loc main_arg4)) := by
  funext i
  obtain ⟨r, k, rfl⟩ : ∃ (r : Fin 150000) (k : Fin 128), i = ix2 r k := ⟨i 0, i 1, eq_ix2 i⟩
  have hr : r.val < 151552 := by omega
  rw [slice1_apply, hO.h2 c]
  refine (arr2_apply (VE2 m outs) c ⟨r.val, hr⟩ k).trans ?_
  unfold Cert.Spec.txnRows
  refine congrArg₂ (· + ·) (Finset.sum_congr rfl fun j _ => ?_) (entry2_bias m outs c k)
  exact congrArg₂ (· * ·) (entry2_feats m outs c ⟨r.val, hr⟩ r.isLt j) (entry2_w m outs c (ix2 j k))

/-- THE KERNEL'S RESULT IS THE REFERENCE'S. With every id in range, the result buffer the kernel's program ends with
    is the reference's last stage at the same arguments: both are the concatenation of the three row groups, and each
    group on either side is the specification's. -/
theorem kernel_value (hO : OutsOk m outs) (c : Dev nD)
    (h7 : ∀ r : Fin 200000, ((m ((c : Thread nD τ).loc main_arg7) : IVec S200000 32) (ix1 r)).toNat < 4)
    (h8 : ∀ r : Fin 200000, ((m ((c : Thread nD τ).loc main_arg8) : IVec S200000 32) (ix1 r)).toNat < 1000)
    (h9 : ∀ r : Fin 150000, ((m ((c : Thread nD τ).loc main_arg9) : IVec S150000 32) (ix1 r)).toNat < 4) :
    (V17 m outs c main_v18 : Vec Ideal S500000x128 .f32)
      = Cert.ReferenceIdeal.Read.val_main_v36 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  rw [result_eq, piece_cat m outs hO c h7 h8, piece_cont m outs hO c h9, piece_txn m outs hO c]
  unfold Cert.ReferenceIdeal.Read.val_main_v36
  rw [Cert.RefValue.ref_cat _ _ _ h7 h8, Cert.RefValue.ref_cont _ _ _ _ h9, Cert.RefValue.ref_txn]

end Cert.KernelIdeal.Hand

end
-- ==== Proof.PreRanges.lean ====
/-
  The printed precondition, decoded. The precondition is a scalar bit: the conjunction of seven finiteness tests
  (each "every |x| is below infinity", reduced by and) and of three index-range tests (each "every id is at least 0 and
  below N", reduced by and). When the bit is 1 every conjunct is 1; a reduction by and that is 1 had a 1 at every element;
  and a 32-bit word that tests nonnegative and below a small N, both signed, has its unsigned value below N.
  Only the three index-range conjuncts are read out here.
-/
import proofs.«407136_j58394375357022_3_alg».proof.Pre_finite_inputs
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- A word that is at least 0 and below N, both read signed (N below 2³¹), is below N read unsigned. -/
theorem toNat_lt_of_tests (w : BitVec 32) (N : Nat) (hN : N < 2 ^ 31)
    (h : IntOp.andi (IntOp.cmpi .sge w 0#32) (IntOp.cmpi .slt w (BitVec.ofNat 32 N)) = 1#1) : w.toNat < N := by
  obtain ⟨hge, hlt⟩ := IntOp.andi_eq_one.1 h
  rw [IntOp.cmpi_sge, show (0#32 : BitVec 32).toInt = 0 from by decide] at hge
  rw [IntOp.cmpi_slt, StableHlo.Predicate.toInt_ofNat_small N hN] at hlt
  have hw : 2 * w.toNat < 2 ^ 32 := BitVec.toInt_pos_iff.1 hge
  rw [BitVec.toInt_eq_toNat_of_lt hw] at hlt
  omega

/-- One index-range conjunct: if "every id is at least 0 and below N" reduces by and to 1, every id is below N. -/
theorem all_range {n : Nat} (N : Nat) (hN : N < 2 ^ 31) (ids : IVec ⟨1, ![n]⟩ 32)
    (hb : S_.BroadcastsInDim ⟨1, ![n]⟩ (![] : Fin 0 → Fin (⟨1, ![n]⟩ : Shape).rank))
    (hr : (⟨1, ![n]⟩ : Shape).ReducesTo [0] S_) (h0 : 0 < S_.numel)
    (e : Host.reduce IntOp.andi
          (andi (cmpi .sge ids (broadcastInDim ⟨1, ![n]⟩ ![] hb (constantI S_ 32 0#32)))
                (cmpi .slt ids (broadcastInDim ⟨1, ![n]⟩ ![] hb (constantI S_ 32 (BitVec.ofNat 32 N)))))
          (constantI S_ 1 1#1) hr h0 ix0 = 1#1) (r : Fin n) : (ids (ix1 r)).toNat < N :=
  toNat_lt_of_tests _ N hN (Host.reduce_andi_all _ _ hr h0 ix0 e (ix1 r))

/-- The precondition bit being 1 gives the three index ranges: the type ids below 4, the value ids below 1000. -/
theorem ranges_of_pre {F : FTy → Type} [FloatOps F] [Cert.Pre_finite_inputs.Facts]
    (a0 : FVec F S4x1000x128 .f32) (a1 a2 : FVec F S4x128 .f32) (a3 : FVec F S371x128 .f32) (a4 : FVec F S128 .f32)
    (a5 : FVec F S150000x371 .f32) (a6 : FVec F S150000 .f32) (a7 a8 : IVec S200000 32) (a9 : IVec S150000 32)
    (h : Cert.Pre_finite_inputs.fn (F := F) a0 a1 a2 a3 a4 a5 a6 a7 a8 a9 = fun _ => 1#1) :
    (∀ r : Fin 200000, (a7 (ix1 r)).toNat < 4) ∧ (∀ r : Fin 200000, (a8 (ix1 r)).toNat < 1000) ∧ (∀ r : Fin 150000, (a9 (ix1 r)).toNat < 4) := by
  have h0 := congrFun h ix0
  dsimp only [fn, fn_part1, fn_part2, fn_part3] at h0
  obtain ⟨h47, h53⟩ := IntOp.andi_eq_one.1 h0
  obtain ⟨h40, h46⟩ := IntOp.andi_eq_one.1 h47
  obtain ⟨-, h39⟩ := IntOp.andi_eq_one.1 h40
  exact ⟨all_range 4 (by decide) a7 _ _ _ h39, all_range 1000 (by decide) a8 _ _ _ h46, all_range 4 (by decide) a9 _ _ _ h53⟩

end Cert.PreFacts

end
-- ==== Proof.lean ====
/-
  The certificate's five claims for the embedding-lookup kernel against its jnp reference.

  The kernel's program is three pallas_calls inside host plumbing (pads to whole blocks, reshapes of id vectors into
  columns, conversions of tables to bf16, slices back to the logical row counts, one concatenation). The frames of
  both readings of the kernel's program (words, and extended reals) are its run from the three regions' records with
  the result dropped; the reference is host operations only, and its frame is its run read back with the result
  dropped. No operation was rewritten by the idealization, so there is nothing to preserve. On the extended reals the
  two programs end with the same result: row by row, a categorical row is the table row the pair (type id, value id)
  names (the kernel's masked sum over the four types of one-hot products keeps exactly that row, because the ids are
  in range), a continuous row is value * w[type] + b[type] (the masked sum keeps the one type's term), and a
  transaction row is the same matrix product plus bias on both sides (a change of float format is the identity).
-/
import proofs.«407136_j58394375357022_3_alg».proof.Defs
import proofs.«407136_j58394375357022_3_alg».proof.Proof.Gen.Kernel
import proofs.«407136_j58394375357022_3_alg».proof.Proof.Gen.KernelIdeal
import proofs.«407136_j58394375357022_3_alg».proof.Proof.Gen.ReferenceIdeal
import proofs.«407136_j58394375357022_3_alg».proof.Proof.Gen.Pre_finite_inputs
import proofs.«407136_j58394375357022_3_alg».proof.Proof.Gen.ReferenceIdeal.Run
import proofs.«407136_j58394375357022_3_alg».proof.Proof.Gen.ReferenceIdeal.Read
import proofs.«407136_j58394375357022_3_alg».proof.Proof.Kernel.Outs
import proofs.«407136_j58394375357022_3_alg».proof.Proof.KernelIdeal.Outs
import proofs.«407136_j58394375357022_3_alg».proof.Proof.KernelIdeal.Pieces
import proofs.«407136_j58394375357022_3_alg».proof.Proof.PreRanges
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: its run, the result dropped. -/
theorem frame_k : Cert.frame_Kernel (hKernel := Cert.Kernel.Gen.facts) (hPre_finite_inputs := Cert.Pre_finite_inputs.Gen.facts) := fun m ρ _ =>
  (θ_run Cert.Kernel.defs _ _).mono (fun _ h c => (h c).2)
    (Cert.Kernel.Hand.run_main (F := Bits) m ρ (Cert.Kernel.Hand.outsC m) (Cert.Kernel.Hand.outsC_ok m))

/-- The same program read on the extended reals. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2)
    (Cert.KernelIdeal.Hand.run_main (F := Ideal) m ρ (Cert.KernelIdeal.Hand.outsC m) (Cert.KernelIdeal.Hand.outsC_ok m))

/-- The reference is host operations only: its run read back, the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- On the extended reals, from memories agreeing on the arguments, both programs run and end with the same result:
    the kernel's program ends with its last valuation's result buffer; the reference's run ends with its composed term
    of its own arguments, which are the kernel's; the precondition puts every id in range, and then the two are one
    array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V17 m (Cert.KernelIdeal.Hand.outsC m) c Cert.KernelIdeal.main_v18,
    Cert.KernelIdeal.Hand.run_main (F := Ideal) m ρ (Cert.KernelIdeal.Hand.outsC m) (Cert.KernelIdeal.Hand.outsC_ok m), ?_⟩
  refine (θ_run Cert.ReferenceIdeal.defs _ _).mono (fun _ h c => ⟨(h c).1.trans ?_, (h c).2⟩)
    (Cert.ReferenceIdeal.Value.run (F := Ideal) m' ρ')
  obtain ⟨h7, h8, h9⟩ := Cert.PreFacts.ranges_of_pre _ _ _ _ _ _ _ _ _ _ (hpre c)
  obtain ⟨e0, e1, e2, e3, e4, e5, e6, e7, e8, e9⟩ := hagree c
  rw [e0, e1, e2, e3, e4, e5, e6, e7, e8, e9]
  exact (Cert.ReferenceIdeal.Read.val_main_v36_eq _ _ _ _ _ _ _ _ _ _).trans
    (Cert.KernelIdeal.Hand.kernel_value m (Cert.KernelIdeal.Hand.outsC m) (Cert.KernelIdeal.Hand.outsC_ok m) c h7 h8 h9).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
